-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x3 : Shape := ⟨2, ![100000, 3]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S64 .f32) (main_arg14 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S1 .f32) (main_arg9 : FVec F S128x64 .f32) (main_arg10 : FVec F S64 .f32) (main_arg11 : FVec F S64x64 .f32) (main_arg12 : FVec F S64 .f32) (main_arg13 : FVec F S64 .f32) (main_arg14 : FVec F S64 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_v48 main_v49 main_v50

def fn_part1 {F : FTy → Type} [FloatOps F] (main_arg5 : FVec F S64x64 .f32) (main_arg6 : FVec F S64 .f32) (main_arg7 : FVec F S64x1 .f32) (main_arg8 : FVec F S1 .f32) (main_arg9 : FVec F S128x64 .f32) (main_arg10 : FVec F S64 .f32) (main_arg11 : FVec F S64x64 .f32) (main_arg12 : FVec F S64 .f32) (main_arg13 : FVec F S64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x64 .f32) (main_arg1 : FVec F S100000x3 .f32) (main_arg2 : IVec S2x1600000 32) (main_arg3 : FVec F S128x64 .f32) (main_arg4 : FVec F S64 .f32) (main_arg5 : FVec F S64x64 .f32) (main_arg6 : FVec F S64 .f32) (main_arg7 : FVec F S64x1 .f32) (main_arg8 : FVec F S1 .f32) (main_arg9 : FVec F S128x64 .f32) (main_arg10 : FVec F S64 .f32) (main_arg11 : FVec F S64x64 .f32) (main_arg12 : FVec F S64 .f32) (main_arg13 : FVec F S64 .f32) (main_arg14 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x64 : Shape := ⟨2, ![100000, 64]⟩
abbrev S100000x3 : Shape := ⟨2, ![100000, 3]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x3 : Shape := ⟨2, ![1600000, 3]⟩
abbrev S4000x64 : Shape := ⟨2, ![4000, 64]⟩
abbrev S4000x1 : Shape := ⟨2, ![4000, 1]⟩
abbrev S4000x128 : Shape := ⟨2, ![4000, 128]⟩
abbrev S1x64 : Shape := ⟨2, ![1, 64]⟩
abbrev S1x1 : Shape := ⟨2, ![1, 1]⟩
abbrev S5000x64 : Shape := ⟨2, ![5000, 64]⟩
abbrev S5000x128 : Shape := ⟨2, ![5000, 128]⟩
abbrev S5000 : Shape := ⟨1, ![5000]⟩
abbrev S5000x1 : Shape := ⟨2, ![5000, 1]⟩

abbrev nBuf : Space → Nat
  | .hbm => 66
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S100000x3, .f32⟩
  | .hbm, ⟨2, _⟩ => ⟨S2x1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S128x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x3, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x3, .f32⟩
  | .hbm, ⟨55, _⟩ => ⟨S1600000x3, .f32⟩
  | .hbm, ⟨56, _⟩ => ⟨S1600000x3, .f32⟩
  | .hbm, ⟨57, _⟩ => ⟨S_, .f32⟩
  | .hbm, ⟨58, _⟩ => ⟨S1600000, .f32⟩
  | .hbm, ⟨59, _⟩ => ⟨S1600000x1, .f32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x1, .f32⟩
  | .local _ .vmem, ⟨5, _⟩ => ⟨S4000x1, .f32⟩
  | .local _ .vmem, ⟨6, _⟩ => ⟨S128x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S64x1, .f32⟩
  | .local _ .vmem, ⟨11, _⟩ => ⟨S1, .f32⟩
  | .local _ .vmem, ⟨12, _⟩ => ⟨S4000x64, .f32⟩
  | .local _ .vmem, ⟨13, _⟩ => ⟨S4000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S128x64, .f32⟩
  | .local _ .vmem, ⟨19, _⟩ => ⟨S64, .f32⟩
  | .local _ .vmem, ⟨20, _⟩ => ⟨S64x64, .f32⟩
  | .local _ .vmem, ⟨21, _⟩ => ⟨S64, .f32⟩
  | .local _ .vmem, ⟨22, _⟩ => ⟨S64, .f32⟩
  | .local _ .vmem, ⟨23, _⟩ => ⟨S64, .f32⟩
  | .local _ .vmem, ⟨24, _⟩ => ⟨S5000x64, .f32⟩
  | .local _ .vmem, ⟨25, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x3_S1600000_d1 : S1600000x3.ReducesTo [1] S1600000
  h_S_ : 0 < S_.numel
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  concatenates_S4000x64_S4000x64_S4000x128_d1 : Shape.Concatenates [S4000x64, S4000x64] S4000x128 1
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  gather_S100000x64_S1600000x1_S1600000x64_1_0_n_n_0_1_164_wf : GatherDims.WF S100000x64 S1600000x1 S1600000x64 [1] [0] [] [0] [] 1 ![1, 64]
  gather_S100000x3_S1600000x1_S1600000x3_1_0_n_n_0_1_13_wf : GatherDims.WF S100000x3 S1600000x1 S1600000x3 [1] [0] [] [0] [] 1 ![1, 3]
  dot_S4000x128_S128x64_S4000x64_1_0_0_1_n_n_wf : DotDims.WF S4000x128 S128x64 S4000x64 [1] [0] [0] [1] [] []
  dot_S4000x64_S64x64_S4000x64_1_0_0_1_n_n_wf : DotDims.WF S4000x64 S64x64 S4000x64 [1] [0] [0] [1] [] []
  dot_S4000x64_S64x1_S4000x1_1_0_0_1_n_n_wf : DotDims.WF S4000x64 S64x1 S4000x1 [1] [0] [0] [1] [] []
  scatter_S100000x64_S1600000x1_S1600000x64_1_0_0_1_wf : ScatterDims.WF S100000x64 S1600000x1 S1600000x64 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1600000x64.size a
  hwx0_0 : ∀ i : grid0.Coords, EltTy.bits .f32 = 32 ∨ (Rect.block (s := S1600000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S1600000x64.size a
  hwx0_1 : ∀ i : grid0.Coords, EltTy.bits .f32 = 32 ∨ (Rect.block (s := S1600000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S1600000x1.size a
  hwx0_2 : ∀ i : grid0.Coords, EltTy.bits .f32 = 32 ∨ (Rect.block (s := S1600000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x64.size a ≤ S1600000x64.size a
  hwx0_9 : ∀ i : grid0.Coords, EltTy.bits .f32 = 32 ∨ (Rect.block (s := S1600000x64) S4000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v10) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v36) S4000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v39) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v40) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S100000x3 : Shape := ⟨2, ![100000, 3]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x3 : Shape := ⟨2, ![1600000, 3]⟩
abbrev S1600000x128 : Shape := ⟨2, ![1600000, 128]⟩
abbrev S1x64 : Shape := ⟨2, ![1, 64]⟩
abbrev S1x1 : Shape := ⟨2, ![1, 1]⟩
abbrev S100000x128 : Shape := ⟨2, ![100000, 128]⟩
abbrev S100000 : Shape := ⟨1, ![100000]⟩
abbrev S100000x1 : Shape := ⟨2, ![100000, 1]⟩

abbrev nBuf : Space → Nat
  | .hbm => 166
  | .vmem => 0
  | .smem => 0
  | _ => 0

abbrev hbmTy0_0 (i : Nat) : BufTy := match i % 128 with
  | 0 => ⟨S100000x64, .f32⟩
  | 1 => ⟨S100000x3, .f32⟩
  | 2 => ⟨S2x1600000, .i32⟩
  | 3 => ⟨S128x64, .f32⟩
  | 4 => ⟨S64, .f32⟩
  | 5 => ⟨S64x64, .f32⟩
  | 6 => ⟨S64, .f32⟩
  | 7 => ⟨S64x1, .f32⟩
  | 8 => ⟨S1, .f32⟩
  | 9 => ⟨S128x64, .f32⟩
  | 10 => ⟨S64, .f32⟩
  | 11 => ⟨S64x64, .f32⟩
  | 12 => ⟨S64, .f32⟩
  | 13 => ⟨S64, .f32⟩
  | 14 => ⟨S64, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x64, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x3, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x3, .f32⟩
  | 55 => ⟨S1600000x3, .f32⟩
  | 56 => ⟨S1600000x3, .f32⟩
  | 57 => ⟨S_, .f32⟩
  | 58 => ⟨S1600000, .f32⟩
  | 59 => ⟨S1600000x1, .f32⟩
  | 60 => ⟨S1600000x128, .f32⟩
  | 61 => ⟨S1600000x64, .f32⟩
  | 62 => ⟨S1x64, .f32⟩
  | 63 => ⟨S1600000x64, .f32⟩
  | 64 => ⟨S1600000x64, .f32⟩
  | 65 => ⟨S_, .f32⟩
  | 66 => ⟨S1600000x64, .f32⟩
  | 67 => ⟨S1600000x64, .f32⟩
  | 68 => ⟨S1600000x64, .f32⟩
  | 69 => ⟨S1x64, .f32⟩
  | 70 => ⟨S1600000x64, .f32⟩
  | 71 => ⟨S1600000x64, .f32⟩
  | 72 => ⟨S_, .f32⟩
  | 73 => ⟨S1600000x64, .f32⟩
  | 74 => ⟨S1600000x64, .f32⟩
  | 75 => ⟨S1600000x1, .f32⟩
  | 76 => ⟨S1x1, .f32⟩
  | 77 => ⟨S1600000x1, .f32⟩
  | 78 => ⟨S1600000x1, .f32⟩
  | 79 => ⟨S1600000x1, .f32⟩
  | 80 => ⟨S_, .f32⟩
  | 81 => ⟨S1600000x1, .f32⟩
  | 82 => ⟨S1600000x1, .f32⟩
  | 83 => ⟨S_, .f32⟩
  | 84 => ⟨S1600000x1, .f32⟩
  | 85 => ⟨S1600000x1, .f32⟩
  | 86 => ⟨S1600000x1, .f32⟩
  | 87 => ⟨S1600000x1, .f32⟩
  | 88 => ⟨S_, .f32⟩
  | 89 => ⟨S1600000x1, .f32⟩
  | 90 => ⟨S1600000x1, .f32⟩
  | 91 => ⟨S_, .f32⟩
  | 92 => ⟨S1600000x1, .f32⟩
  | 93 => ⟨S1600000x1, .f32⟩
  | 94 => ⟨S1600000x1, .f32⟩
  | 95 => ⟨S1600000x1, .f32⟩
  | 96 => ⟨S1600000x1, .f32⟩
  | 97 => ⟨S_, .f32⟩
  | 98 => ⟨S1600000x1, .f32⟩
  | 99 => ⟨S1600000x1, .f32⟩
  | 100 => ⟨S_, .f32⟩
  | 101 => ⟨S1600000x1, .f32⟩
  | 102 => ⟨S1600000x1, .f32⟩
  | 103 => ⟨S1600000x64, .f32⟩
  | 104 => ⟨S1600000x64, .f32⟩
  | 105 => ⟨S_, .f32⟩
  | 106 => ⟨S100000x64, .f32⟩
  | 107 => ⟨S1600000x1, .i32⟩
  | 108 => ⟨S100000x64, .f32⟩
  | 109 => ⟨S100000x128, .f32⟩
  | 110 => ⟨S100000x64, .f32⟩
  | 111 => ⟨S1x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S100000x64, .f32⟩
  | 118 => ⟨S1x64, .f32⟩
  | 119 => ⟨S100000x64, .f32⟩
  | 120 => ⟨S100000x64, .f32⟩
  | 121 => ⟨S100000x64, .f32⟩
  | 122 => ⟨S_, .f32⟩
  | 123 => ⟨S100000, .f32⟩
  | 124 => ⟨S100000x1, .f32⟩
  | 125 => ⟨S_, .f32⟩
  | 126 => ⟨S100000x1, .f32⟩
  | 127 => ⟨S100000x1, .f32⟩
  | _ => ⟨S100000x64, .f32⟩

abbrev hbmTy0_1 (i : Nat) : BufTy := match i % 128 with
  | 0 => ⟨S_, .i32⟩
  | 1 => ⟨S_, .f32⟩
  | 2 => ⟨S100000, .f32⟩
  | 3 => ⟨S100000x1, .f32⟩
  | 4 => ⟨S_, .f32⟩
  | 5 => ⟨S100000x1, .f32⟩
  | 6 => ⟨S100000x1, .f32⟩
  | 7 => ⟨S100000x64, .f32⟩
  | 8 => ⟨S100000x64, .f32⟩
  | 9 => ⟨S100000x64, .f32⟩
  | 10 => ⟨S_, .f32⟩
  | 11 => ⟨S_, .f32⟩
  | 12 => ⟨S_, .f32⟩
  | 13 => ⟨S_, .f32⟩
  | 14 => ⟨S100000, .f32⟩
  | 15 => ⟨S100000x1, .f32⟩
  | 16 => ⟨S100000x1, .f32⟩
  | 17 => ⟨S100000x1, .f32⟩
  | 18 => ⟨S_, .f32⟩
  | 19 => ⟨S_, .i1⟩
  | 20 => ⟨S_, .f32⟩
  | 21 => ⟨S_, .f32⟩
  | 22 => ⟨S100000x1, .f32⟩
  | 23 => ⟨S100000x1, .f32⟩
  | 24 => ⟨S100000x64, .f32⟩
  | 25 => ⟨S100000x64, .f32⟩
  | 26 => ⟨S_, .f32⟩
  | 27 => ⟨S100000x1, .f32⟩
  | 28 => ⟨S100000x1, .f32⟩
  | 29 => ⟨S100000x1, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call0_cst : Ref sig .tc := ⟨.hbm, 65, rfl⟩
abbrev main_call0_v0 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call1_cst : Ref sig .tc := ⟨.hbm, 72, rfl⟩
abbrev main_call1_v0 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_7 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_9 : Ref sig .tc := ⟨.hbm, 88, rfl⟩
abbrev main_v58 : Ref sig .tc := ⟨.hbm, 89, rfl⟩
abbrev main_v59 : Ref sig .tc := ⟨.hbm, 90, rfl⟩
abbrev main_cst_10 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_11 : Ref sig .tc := ⟨.hbm, 97, rfl⟩
abbrev main_v65 : Ref sig .tc := ⟨.hbm, 98, rfl⟩
abbrev main_v66 : Ref sig .tc := ⟨.hbm, 99, rfl⟩
abbrev main_cst_12 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_13 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_call2_cst : Ref sig .tc := ⟨.hbm, 114, rfl⟩
abbrev main_call2_v0 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_14 : Ref sig .tc := ⟨.hbm, 122, rfl⟩
abbrev main_v85 : Ref sig .tc := ⟨.hbm, 123, rfl⟩
abbrev main_v86 : Ref sig .tc := ⟨.hbm, 124, rfl⟩
abbrev main_cst_15 : Ref sig .tc := ⟨.hbm, 125, rfl⟩
abbrev main_v87 : Ref sig .tc := ⟨.hbm, 126, rfl⟩
abbrev main_v88 : Ref sig .tc := ⟨.hbm, 127, rfl⟩
abbrev main_c_16 : Ref sig .tc := ⟨.hbm, 128, rfl⟩
abbrev main_call3_cst : Ref sig .tc := ⟨.hbm, 129, rfl⟩
abbrev main_call3_v0 : Ref sig .tc := ⟨.hbm, 130, rfl⟩
abbrev main_call3_v1 : Ref sig .tc := ⟨.hbm, 131, rfl⟩
abbrev main_call3_cst_0 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_v7 : Ref sig .tc := ⟨.hbm, 138, rfl⟩
abbrev main_call3_cst_1 : Ref sig .tc := ⟨.hbm, 139, rfl⟩
abbrev main_call3_v8 : Ref sig .tc := ⟨.hbm, 140, rfl⟩
abbrev main_call3_cst_2 : Ref sig .tc := ⟨.hbm, 141, rfl⟩
abbrev main_call3_v9 : Ref sig .tc := ⟨.hbm, 142, rfl⟩
abbrev main_call3_v10 : Ref sig .tc := ⟨.hbm, 143, rfl⟩
abbrev main_call3_v11 : Ref sig .tc := ⟨.hbm, 144, rfl⟩
abbrev main_call3_v12 : Ref sig .tc := ⟨.hbm, 145, rfl⟩
abbrev main_call3_cst_3 : Ref sig .tc := ⟨.hbm, 146, rfl⟩
abbrev main_call3_v13 : Ref sig .tc := ⟨.hbm, 147, rfl⟩
abbrev main_call3_cst_4 : Ref sig .tc := ⟨.hbm, 148, rfl⟩
abbrev main_call3_call0_v0 : Ref sig .tc := ⟨.hbm, 149, rfl⟩
abbrev main_call3_call0_v1 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_cst_17 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x3_S1600000_d1 : S1600000x3.ReducesTo [1] S1600000
  h_S_ : 0 < S_.numel
  concatenates_S1600000x64_S1600000x64_S1600000x128_d1 : Shape.Concatenates [S1600000x64, S1600000x64] S1600000x128 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  reducesTo_S100000x64_S100000_d1 : S100000x64.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  gather_S100000x3_S1600000x1_S1600000x3_1_0_n_n_0_1_13_wf : GatherDims.WF S100000x3 S1600000x1 S1600000x3 [1] [0] [] [0] [] 1 ![1, 3]
  dot_S1600000x128_S128x64_S1600000x64_1_0_0_1_n_n_wf : DotDims.WF S1600000x128 S128x64 S1600000x64 [1] [0] [0] [1] [] []
  dot_S1600000x64_S64x64_S1600000x64_1_0_0_1_n_n_wf : DotDims.WF S1600000x64 S64x64 S1600000x64 [1] [0] [0] [1] [] []
  dot_S1600000x64_S64x1_S1600000x1_1_0_0_1_n_n_wf : DotDims.WF S1600000x64 S64x1 S1600000x1 [1] [0] [0] [1] [] []
  scatter_S100000x64_S1600000x1_S1600000x64_1_0_0_1_wf : ScatterDims.WF S100000x64 S1600000x1 S1600000x64 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelHost.lean ====
/- The host operations around the two regions, as functions of the argument arrays.
   Before the edge region: the two rows of the index table, each index wrapped once if negative (i < 0 ↦ i + 100000) and laid out
   as a column of start indices; the endpoint features gathered at the second row (`kHi`) and at the first (`kHj`); the squared
   distance of the gathered positions, summed over the three coordinates and kept as a column (`kDsq`).
   Between the regions: the messages scatter-added into a zero array at the (unwrapped) second row (`kAgg` at `kDst`).
   The region-entry contents of the generated frame are folds of these operations over the launch memory; each operand
   array of a region is read off its fold here. -/
import proofs.«145584_j40596030882310_1_alg».proof.Proof.Gen.KernelIdeal.Frame
import Idealize.ShloMosaic.Lib.StableHlo.Run

set_option maxRecDepth 16384

noncomputable section

namespace Cert.KernelIdeal.Layer

open Cert.KernelIdeal Cert.KernelIdeal.Gen
open Idealize.ShloMosaic Idealize.ShloMosaic.TcCoe Idealize.SL.Sem Idealize.ShloMosaic.StableHlo

variable {F : FTy → Type} [FloatOps F]

/-- Row 0 and row 1 of the [2, 1600000] index table, as vectors. -/
def idxRow0 (ei : IVec S2x1600000 32) : IVec S1600000 32 :=
  shapeCast S1600000 (extractStridedSlice S1x1600000 ![0, 0] ei slices_S2x1600000_S1x1600000_0_0) shapeCasts_S1x1600000_S1600000
def idxRow1 (ei : IVec S2x1600000 32) : IVec S1600000 32 :=
  shapeCast S1600000 (extractStridedSlice S1x1600000 ![1, 0] ei slices_S2x1600000_S1x1600000_1_0) shapeCasts_S1x1600000_S1600000

/-- A vector of indices, each wrapped once if negative, as a column of start indices. -/
def wrapCol (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The features at each edge's second-row endpoint, and at its first-row endpoint. -/
def kHi (h : FVec F S100000x64 .f32) (ei : IVec S2x1600000 32) : FVec F S1600000x64 .f32 :=
  Host.gather gather_S100000x64_S1600000x1_S1600000x64_1_0_n_n_0_1_164 h (wrapCol (idxRow1 ei))
def kHj (h : FVec F S100000x64 .f32) (ei : IVec S2x1600000 32) : FVec F S1600000x64 .f32 :=
  Host.gather gather_S100000x64_S1600000x1_S1600000x64_1_0_n_n_0_1_164 h (wrapCol (idxRow0 ei))

/-- The difference of the two endpoints' positions. -/
def kRel (x : FVec F S100000x3 .f32) (ei : IVec S2x1600000 32) : FVec F S1600000x3 .f32 :=
  subf (Host.gather gather_S100000x3_S1600000x1_S1600000x3_1_0_n_n_0_1_13 x (wrapCol (idxRow1 ei)))
    (Host.gather gather_S100000x3_S1600000x1_S1600000x3_1_0_n_n_0_1_13 x (wrapCol (idxRow0 ei)))

/-- Each edge's squared distance, as a column. -/
def kDsq (x : FVec F S100000x3 .f32) (ei : IVec S2x1600000 32) : FVec F S1600000x1 .f32 :=
  broadcastInDim S1600000x1 ![0] bcast_S1600000_S1600000x1_0
    (Host.reduceAdd (mulf (kRel x ei) (kRel x ei)) (constant S_ .f32 0x00000000#32) reducesTo_S1600000x3_S1600000_d1 h_S_)

/-- The scatter's index column: the second row, as read. -/
def kDst (ei : IVec S2x1600000 32) : IVec S1600000x1 32 :=
  broadcastInDim S1600000x1 ![0] bcast_S1600000_S1600000x1_0 (idxRow1 ei)

/-- The messages summed into their destination rows, from zero. -/
def kAgg (dst : IVec S1600000x1 32) (u : FVec F S1600000x64 .f32) : FVec F S100000x64 .f32 :=
  Host.scatterAdd scatter_S100000x64_S1600000x1_S1600000x64_1_0_0_1
    (broadcastInDim S100000x64 ![] bcast_S_S100000x64 (constant S_ .f32 0x00000000#32)) dst u

variable (m : (ℓ : Loc nD τ sig) → Buf (Elt F) ℓ) (ρ : Dev nD → PrngReg)

attribute [local irreducible] Host.gather Host.scatterAdd Host.reduceAdd

/-! ## The edge region's operands, as it is entered -/

set_option maxHeartbeats 4000000 in
theorem V1_hi (c : Dev nD) : (V1 m ρ c main_v10 : S1600000x64.Idx → Elt F .f32)
    = kHi (m ((c : Thread nD τ).loc main_arg0)) (m ((c : Thread nD τ).loc main_arg2)) := by
  show StableHlo.after hostOps0 (W0 m ρ c) (Proc.devRef .tc main_v10) = _
  after_results_simp
  rfl

set_option maxHeartbeats 4000000 in
theorem V1_hj (c : Dev nD) : (V1 m ρ c main_v17 : S1600000x64.Idx → Elt F .f32)
    = kHj (m ((c : Thread nD τ).loc main_arg0)) (m ((c : Thread nD τ).loc main_arg2)) := by
  show StableHlo.after hostOps0 (W0 m ρ c) (Proc.devRef .tc main_v17) = _
  after_results_simp
  rfl

set_option maxHeartbeats 4000000 in
theorem V1_dsq (c : Dev nD) : (V1 m ρ c main_v35 : S1600000x1.Idx → Elt F .f32)
    = kDsq (m ((c : Thread nD τ).loc main_arg1)) (m ((c : Thread nD τ).loc main_arg2)) := by
  show StableHlo.after hostOps0 (W0 m ρ c) (Proc.devRef .tc main_v35) = _
  after_results_simp
  rfl

/-! ## The argument arrays, read through the stretches (no host operation and no region writes one) -/

set_option maxHeartbeats 4000000 in
theorem V1_arg3 (c : Dev nD) : (V1 m ρ c main_arg3 : S128x64.Idx → Elt F .f32) = m ((c : Thread nD τ).loc main_arg3) := by
  show StableHlo.after hostOps0 (W0 m ρ c) (Proc.devRef .tc main_arg3) = _
  after_results_simp

set_option maxHeartbeats 4000000 in
theorem V1_arg4 (c : Dev nD) : (V1 m ρ c main_arg4 : S64.Idx → Elt F .f32) = m ((c : Thread nD τ).loc main_arg4) := by
  show StableHlo.after hostOps0 (W0 m ρ c) (Proc.devRef .tc main_arg4) = _
  after_results_simp

set_option maxHeartbeats 4000000 in
theorem V1_arg5 (c : Dev nD) : (V1 m ρ c main_arg5 : S64x64.Idx → Elt F .f32) = m ((c : Thread nD τ).loc main_arg5) := by
  show StableHlo.after hostOps0 (W0 m ρ c) (Proc.devRef .tc main_arg5) = _
  after_results_simp

set_option maxHeartbeats 4000000 in
theorem V1_arg6 (c : Dev nD) : (V1 m ρ c main_arg6 : S64.Idx → Elt F .f32) = m ((c : Thread nD τ).loc main_arg6) := by
  show StableHlo.after hostOps0 (W0 m ρ c) (Proc.devRef .tc main_arg6) = _
  after_results_simp

set_option maxHeartbeats 4000000 in
theorem V1_arg7 (c : Dev nD) : (V1 m ρ c main_arg7 : S64x1.Idx → Elt F .f32) = m ((c : Thread nD τ).loc main_arg7) := by
  show StableHlo.after hostOps0 (W0 m ρ c) (Proc.devRef .tc main_arg7) = _
  after_results_simp

set_option maxHeartbeats 4000000 in
theorem V1_arg8 (c : Dev nD) : (V1 m ρ c main_arg8 : S1.Idx → Elt F .f32) = m ((c : Thread nD τ).loc main_arg8) := by
  show StableHlo.after hostOps0 (W0 m ρ c) (Proc.devRef .tc main_arg8) = _
  after_results_simp

set_option maxHeartbeats 4000000 in
/-- The second index row is still what the first stretch made of it when the second stretch reads it. -/
theorem W2_v3 (c : Dev nD) : W2 m ρ c (Proc.devRef .tc main_v3) = idxRow1 (m ((c : Thread nD τ).loc main_arg2)) := by
  rw [W2_of_ne m ρ c main_v3 (by decide)]
  show StableHlo.after hostOps0 (W0 m ρ c) (Proc.devRef .tc main_v3) = _
  after_results_simp
  rfl

/-! ## The node region's operands, as it is entered -/

/-- The aggregated messages: the scatter-add of the edge region's output array at the second index row. -/
theorem V3_agg (c : Dev nD) : (V3 m ρ c main_v39 : S100000x64.Idx → Elt F .f32)
    = kAgg (kDst (m ((c : Thread nD τ).loc main_arg2))) (W2 m ρ c (Proc.devRef .tc main_v36)) := by
  show StableHlo.after hostOps1 (W2 m ρ c) (Proc.devRef .tc main_v39) = _
  after_results
  rw [W2_v3]
  rfl

set_option maxHeartbeats 4000000 in
theorem V3_arg0 (c : Dev nD) : (V3 m ρ c main_arg0 : S100000x64.Idx → Elt F .f32) = m ((c : Thread nD τ).loc main_arg0) := by
  show StableHlo.after hostOps1 (W2 m ρ c) (Proc.devRef .tc main_arg0) = _
  after_results
  rw [W2_of_ne m ρ c main_arg0 (by decide)]
  show StableHlo.after hostOps0 (W0 m ρ c) (Proc.devRef .tc main_arg0) = _
  after_results_simp

set_option maxHeartbeats 4000000 in
theorem V3_arg9 (c : Dev nD) : (V3 m ρ c main_arg9 : S128x64.Idx → Elt F .f32) = m ((c : Thread nD τ).loc main_arg9) := by
  show StableHlo.after hostOps1 (W2 m ρ c) (Proc.devRef .tc main_arg9) = _
  after_results
  rw [W2_of_ne m ρ c main_arg9 (by decide)]
  show StableHlo.after hostOps0 (W0 m ρ c) (Proc.devRef .tc main_arg9) = _
  after_results_simp

set_option maxHeartbeats 4000000 in
theorem V3_arg10 (c : Dev nD) : (V3 m ρ c main_arg10 : S64.Idx → Elt F .f32) = m ((c : Thread nD τ).loc main_arg10) := by
  show StableHlo.after hostOps1 (W2 m ρ c) (Proc.devRef .tc main_arg10) = _
  after_results
  rw [W2_of_ne m ρ c main_arg10 (by decide)]
  show StableHlo.after hostOps0 (W0 m ρ c) (Proc.devRef .tc main_arg10) = _
  after_results_simp

set_option maxHeartbeats 4000000 in
theorem V3_arg11 (c : Dev nD) : (V3 m ρ c main_arg11 : S64x64.Idx → Elt F .f32) = m ((c : Thread nD τ).loc main_arg11) := by
  show StableHlo.after hostOps1 (W2 m ρ c) (Proc.devRef .tc main_arg11) = _
  after_results
  rw [W2_of_ne m ρ c main_arg11 (by decide)]
  show StableHlo.after hostOps0 (W0 m ρ c) (Proc.devRef .tc main_arg11) = _
  after_results_simp

set_option maxHeartbeats 4000000 in
theorem V3_arg12 (c : Dev nD) : (V3 m ρ c main_arg12 : S64.Idx → Elt F .f32) = m ((c : Thread nD τ).loc main_arg12) := by
  show StableHlo.after hostOps1 (W2 m ρ c) (Proc.devRef .tc main_arg12) = _
  after_results
  rw [W2_of_ne m ρ c main_arg12 (by decide)]
  show StableHlo.after hostOps0 (W0 m ρ c) (Proc.devRef .tc main_arg12) = _
  after_results_simp

set_option maxHeartbeats 4000000 in
theorem V3_arg13 (c : Dev nD) : (V3 m ρ c main_arg13 : S64.Idx → Elt F .f32) = m ((c : Thread nD τ).loc main_arg13) := by
  show StableHlo.after hostOps1 (W2 m ρ c) (Proc.devRef .tc main_arg13) = _
  after_results
  rw [W2_of_ne m ρ c main_arg13 (by decide)]
  show StableHlo.after hostOps0 (W0 m ρ c) (Proc.devRef .tc main_arg13) = _
  after_results_simp

set_option maxHeartbeats 4000000 in
theorem V3_arg14 (c : Dev nD) : (V3 m ρ c main_arg14 : S64.Idx → Elt F .f32) = m ((c : Thread nD τ).loc main_arg14) := by
  show StableHlo.after hostOps1 (W2 m ρ c) (Proc.devRef .tc main_arg14) = _
  after_results
  rw [W2_of_ne m ρ c main_arg14 (by decide)]
  show StableHlo.after hostOps0 (W0 m ρ c) (Proc.devRef .tc main_arg14) = _
  after_results_simp

end Cert.KernelIdeal.Layer

end
-- ==== Proof.Spec.lean ====
/-
  The layer both programs compute, written once on the extended reals, ONE ROW AT A TIME.

  An edge's message.  From the two endpoint feature rows `a`, `b` (64 entries each) and the squared distance `d`:
  `m₁ = max(W₁ᵀ[a‖b] + β₁, 0)`, `m₂ = max(W₂ᵀm₁ + β₂, 0)`, the gate `σ((wᵀm₂ + β) · σ(30 / (√d + ε)))` with
  `σ(x) = 1 / (1 + e⁻ˣ)`, and the message is `m₂` scaled by the gate (`edgeRow`).
  A node's update.  From the aggregated message row `s` and the node's own row `h`:
  `z = h + V₂ᵀ max(V₁ᵀ[s‖h] + γ₁, 0) + γ₂`, its mean `μ = (Σ z) / 64`, its variance `v = (Σ (z − μ)²) / 64`, and the result
  `(z − μ) · (v + ε')^(-1/2) · g + b` (`nodeRow`).
  The literals 30, ε, 64, ε' stay the float patterns the two programs share; only the value of 64 is ever used.

  `EdgeG` and `NodeG` apply the row functions to every row of an array with any number of rows: an entry of the result
  depends only on its own row of the row-indexed operands, which is what lets a blockwise computation and a whole-array
  one be compared entry by entry.
-/
import Idealize.ShloMosaic.PureOps.Ideal
import Idealize.ShloMosaic.Lib.ValueIdx

noncomputable section

open scoped BigOperators

namespace Cert.Layer

open Idealize.ShloMosaic Idealize.ShloMosaic.ValueIdx

/-- Two rows of 64 entries side by side: entry `k` of the 128. -/
def cat (a b : Fin 64 → EReal) (k : Fin 128) : EReal :=
  if h : k.val < 64 then a ⟨k.val, h⟩ else b ⟨k.val - 64, by omega⟩

/-- An affine map read at one output coordinate: `(Σₖ xₖ · W k j) + βⱼ`. -/
def lin {K N : Nat} (x : Fin K → EReal) (W : Fin K → Fin N → EReal) (β : Fin N → EReal) (j : Fin N) : EReal :=
  (∑ k : Fin K, x k * W k j) + β j

/-- The hidden row after the first edge layer. -/
def edgeH1 (a b : Fin 64 → EReal) (W1 : Fin 128 → Fin 64 → EReal) (β1 : Fin 64 → EReal) (j : Fin 64) : EReal :=
  max (lin (cat a b) W1 β1 j) 0

/-- The edge's feature row `m₂` after the second layer. -/
def edgeH2 (a b : Fin 64 → EReal) (W1 : Fin 128 → Fin 64 → EReal) (β1 : Fin 64 → EReal)
    (W2 : Fin 64 → Fin 64 → EReal) (β2 : Fin 64 → EReal) (j : Fin 64) : EReal :=
  max (lin (edgeH1 a b W1 β1) W2 β2 j) 0

/-- The gate of an edge: `σ((wᵀm₂ + β) · σ(30 / (√d + ε)))`. -/
def edgeGate (a b : Fin 64 → EReal) (d : EReal) (W1 : Fin 128 → Fin 64 → EReal) (β1 : Fin 64 → EReal)
    (W2 : Fin 64 → Fin 64 → EReal) (β2 : Fin 64 → EReal) (w : Fin 64 → EReal) (β : EReal) : EReal :=
  Ideal.logistic (((∑ k : Fin 64, edgeH2 a b W1 β1 W2 β2 k * w k) + β)
    * Ideal.logistic (Ideal.div (Ideal.ofBits .f32 0x41F00000#32) (Ideal.sqrt d + Ideal.ofBits .f32 0x322BCC77#32)))

/-- One edge's message row. -/
def edgeRow (a b : Fin 64 → EReal) (d : EReal) (W1 : Fin 128 → Fin 64 → EReal) (β1 : Fin 64 → EReal)
    (W2 : Fin 64 → Fin 64 → EReal) (β2 : Fin 64 → EReal) (w : Fin 64 → EReal) (β : EReal) (j : Fin 64) : EReal :=
  edgeH2 a b W1 β1 W2 β2 j * edgeGate a b d W1 β1 W2 β2 w β

/-- The node's row before normalisation: `z = h + V₂ᵀ max(V₁ᵀ[s‖h] + γ₁, 0) + γ₂`. -/
def nodeZ (s h : Fin 64 → EReal) (V1 : Fin 128 → Fin 64 → EReal) (γ1 : Fin 64 → EReal)
    (V2 : Fin 64 → Fin 64 → EReal) (γ2 : Fin 64 → EReal) (j : Fin 64) : EReal :=
  h j + lin (fun k => max (lin (cat s h) V1 γ1 k) 0) V2 γ2 j

/-- A row's mean: its sum over 64. -/
def mean64 (z : Fin 64 → EReal) : EReal := Ideal.div (∑ k : Fin 64, z k) (Ideal.ofBits .f32 0x42800000#32)

/-- A row normalised: `(z − μ) · (v + ε')^(-1/2) · g + b` with `μ` the mean and `v` the mean of the squared deviations. -/
def normRow (z g b : Fin 64 → EReal) (j : Fin 64) : EReal :=
  (z j - mean64 z) * Ideal.rsqrt (mean64 (fun k => (z k - mean64 z) * (z k - mean64 z)) + Ideal.ofBits .f32 0x3727C5AC#32)
    * g j + b j

/-- One node's updated row. -/
def nodeRow (s h : Fin 64 → EReal) (V1 : Fin 128 → Fin 64 → EReal) (γ1 : Fin 64 → EReal)
    (V2 : Fin 64 → Fin 64 → EReal) (γ2 g b : Fin 64 → EReal) (j : Fin 64) : EReal :=
  normRow (nodeZ s h V1 γ1 V2 γ2) g b j

/-- The row and the column of a rank-2 index, as plain `Fin`s. -/
abbrev row2 {n0 n1 : Nat} (y : (⟨2, ![n0, n1]⟩ : Shape).Idx) : Fin n0 := ⟨(y 0).val, idx2_lt0 y⟩
abbrev col2 {n0 n1 : Nat} (y : (⟨2, ![n0, n1]⟩ : Shape).Idx) : Fin n1 := ⟨(y 1).val, idx2_lt1 y⟩

/-- A [K, N] array as a function of its two coordinates, a [N] array of its one. -/
abbrev mat {K N : Nat} (W : (⟨2, ![K, N]⟩ : Shape).Idx → EReal) : Fin K → Fin N → EReal := fun k j => W (ix2 k j)
abbrev vec {N : Nat} (v : (⟨1, ![N]⟩ : Shape).Idx → EReal) : Fin N → EReal := fun j => v (ix1 j)
abbrev rowOf {R N : Nat} (x : (⟨2, ![R, N]⟩ : Shape).Idx → EReal) (p : Fin R) : Fin N → EReal := fun k => x (ix2 p k)

/-- Every edge's message: `edgeRow` on each row of the endpoint features `hi`, `hj` and the squared distances. -/
def EdgeG {E : Nat} (hi hj : (⟨2, ![E, 64]⟩ : Shape).Idx → EReal) (dsq : (⟨2, ![E, 1]⟩ : Shape).Idx → EReal)
    (W1 : (⟨2, ![128, 64]⟩ : Shape).Idx → EReal) (β1 : (⟨1, ![64]⟩ : Shape).Idx → EReal)
    (W2 : (⟨2, ![64, 64]⟩ : Shape).Idx → EReal) (β2 : (⟨1, ![64]⟩ : Shape).Idx → EReal)
    (w : (⟨2, ![64, 1]⟩ : Shape).Idx → EReal) (β : (⟨1, ![1]⟩ : Shape).Idx → EReal) :
    (⟨2, ![E, 64]⟩ : Shape).Idx → EReal :=
  fun y => edgeRow (rowOf hi (row2 y)) (rowOf hj (row2 y)) (dsq (ix2 (row2 y) 0)) (mat W1) (vec β1) (mat W2) (vec β2)
    (fun k => w (ix2 k 0)) (β (ix1 0)) (col2 y)

theorem EdgeG_ix2 {E : Nat} (hi hj : (⟨2, ![E, 64]⟩ : Shape).Idx → EReal) (dsq : (⟨2, ![E, 1]⟩ : Shape).Idx → EReal)
    (W1 : (⟨2, ![128, 64]⟩ : Shape).Idx → EReal) (β1 : (⟨1, ![64]⟩ : Shape).Idx → EReal)
    (W2 : (⟨2, ![64, 64]⟩ : Shape).Idx → EReal) (β2 : (⟨1, ![64]⟩ : Shape).Idx → EReal)
    (w : (⟨2, ![64, 1]⟩ : Shape).Idx → EReal) (β : (⟨1, ![1]⟩ : Shape).Idx → EReal) (p : Fin E) (q : Fin 64) :
    EdgeG hi hj dsq W1 β1 W2 β2 w β (ix2 p q)
      = edgeRow (rowOf hi p) (rowOf hj p) (dsq (ix2 p 0)) (mat W1) (vec β1) (mat W2) (vec β2) (fun k => w (ix2 k 0)) (β (ix1 0)) q :=
  rfl

/-- Every node's updated row: `nodeRow` on each row of the aggregated messages `s` and the features `h`. -/
def NodeG {N : Nat} (s h : (⟨2, ![N, 64]⟩ : Shape).Idx → EReal)
    (V1 : (⟨2, ![128, 64]⟩ : Shape).Idx → EReal) (γ1 : (⟨1, ![64]⟩ : Shape).Idx → EReal)
    (V2 : (⟨2, ![64, 64]⟩ : Shape).Idx → EReal) (γ2 g b : (⟨1, ![64]⟩ : Shape).Idx → EReal) :
    (⟨2, ![N, 64]⟩ : Shape).Idx → EReal :=
  fun y => nodeRow (rowOf s (row2 y)) (rowOf h (row2 y)) (mat V1) (vec γ1) (mat V2) (vec γ2) (vec g) (vec b) (col2 y)

theorem NodeG_ix2 {N : Nat} (s h : (⟨2, ![N, 64]⟩ : Shape).Idx → EReal)
    (V1 : (⟨2, ![128, 64]⟩ : Shape).Idx → EReal) (γ1 : (⟨1, ![64]⟩ : Shape).Idx → EReal)
    (V2 : (⟨2, ![64, 64]⟩ : Shape).Idx → EReal) (γ2 g b : (⟨1, ![64]⟩ : Shape).Idx → EReal) (p : Fin N) (q : Fin 64) :
    NodeG s h V1 γ1 V2 γ2 g b (ix2 p q)
      = nodeRow (rowOf s p) (rowOf h p) (mat V1) (vec γ1) (mat V2) (vec γ2) (vec g) (vec b) q :=
  rfl

/-- The pattern of `1.0` denotes 1, and that of `64.0` denotes 64. -/
theorem ofBits_one : Ideal.ofBits .f32 0x3F800000#32 = 1 := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

end Cert.Layer

end
-- ==== Proof.EdgeBody.lean ====
/- The edge kernel's block, entry by entry: what one grid point leaves in its output block is the edge message
   `edgeRow` of the rows of the point's input blocks. -/
import proofs.«145584_j40596030882310_1_alg».proof.Proof.Gen.KernelIdeal.Frame
import proofs.«145584_j40596030882310_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Layer

open Cert.KernelIdeal Cert.KernelIdeal.Gen Cert.Layer
open Idealize.ShloMosaic Idealize.ShloMosaic.TcCoe Idealize.ShloMosaic.ValueIdx Idealize.SL.Sem
open Idealize.ShloMosaic.Pipeline (Dat Cfg Window)

/-! ## The three products read at an entry

Each of the body's three products contracts the second axis of its left operand with the first of its right one, so
its entry `(p, j)` is `∑ₖ A(p, k) · B(k, j)`. For each product: where its two operands are read at an output entry
and a contraction position, one coordinate at a time, and then the sum re-indexed by the contracted coordinate. -/

theorem lhs_e1_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide),
    dif_pos (show (0 : Fin S4000x128.rank) ∈ dot_S4000x128_S128x64_S4000x64_1_0_0_1_n_n.lhsNonContracting by decide)]
  rfl
theorem lhs_e1_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
theorem rhs_e1_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
theorem rhs_e1_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide),
    dif_pos (show (1 : Fin S128x64.rank) ∈ dot_S4000x128_S128x64_S4000x64_1_0_0_1_n_n.rhsNonContracting by decide)]
  rfl

/-- The first layer's product, `[4000, 128] · [128, 64]`, at `(p, j)`. -/
theorem mm_e1_apply (A : FVec Ideal S4000x128 .bf16) (B : FVec Ideal S128x64 .bf16) (p : Fin 4000) (j : Fin 64) :
    matmul dot_S4000x128_S128x64_S4000x64_1_0_0_1_n_n none A B (constant (F := Ideal) S4000x64 .f32 0x00000000#32) (ix2 p j)
      = ∑ k : Fin 128, A (ix2 p k) * B (ix2 k j) := by
  simp only [matmul]
  rw [Ideal.matmul_constant_zero_apply, ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p j) ((contrEquiv1 dot_S4000x128_S128x64_S4000x64_1_0_0_1_n_n 128 rfl rfl).symm k) = ix2 p k :=
    funext fun a => Fin.ext (by
      match a with
      | ⟨0, _⟩ => exact lhs_e1_0 _ _
      | ⟨1, _⟩ => exact (lhs_e1_1 _ _).trans hk)
  have er : dot_S4000x128_S128x64_S4000x64_1_0_0_1_n_n.rhsIdx (ix2 p j) ((contrEquiv1 dot_S4000x128_S128x64_S4000x64_1_0_0_1_n_n 128 rfl rfl).symm k) = ix2 k j :=
    funext fun a => Fin.ext (by
      match a with
      | ⟨0, _⟩ => exact (rhs_e1_0 _ _).trans hk
      | ⟨1, _⟩ => exact rhs_e1_1 _ _)
  rw [el, er]

theorem lhs_e2_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide),
    dif_pos (show (0 : Fin S4000x64.rank) ∈ dot_S4000x64_S64x64_S4000x64_1_0_0_1_n_n.lhsNonContracting by decide)]
  rfl
theorem lhs_e2_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs_e2_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs_e2_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide),
    dif_pos (show (1 : Fin S64x64.rank) ∈ dot_S4000x64_S64x64_S4000x64_1_0_0_1_n_n.rhsNonContracting by decide)]
  rfl

/-- The second layer's product, `[4000, 64] · [64, 64]`, at `(p, j)`. -/
theorem mm_e2_apply (A : FVec Ideal S4000x64 .bf16) (B : FVec Ideal S64x64 .bf16) (p : Fin 4000) (j : Fin 64) :
    matmul dot_S4000x64_S64x64_S4000x64_1_0_0_1_n_n none A B (constant (F := Ideal) S4000x64 .f32 0x00000000#32) (ix2 p j)
      = ∑ k : Fin 64, A (ix2 p k) * B (ix2 k j) := by
  simp only [matmul]
  rw [Ideal.matmul_constant_zero_apply, ← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p j) ((contrEquiv1 dot_S4000x64_S64x64_S4000x64_1_0_0_1_n_n 64 rfl rfl).symm k) = ix2 p k :=
    funext fun a => Fin.ext (by
      match a with
      | ⟨0, _⟩ => exact lhs_e2_0 _ _
      | ⟨1, _⟩ => exact (lhs_e2_1 _ _).trans hk)
  have er : dot_S4000x64_S64x64_S4000x64_1_0_0_1_n_n.rhsIdx (ix2 p j) ((contrEquiv1 dot_S4000x64_S64x64_S4000x64_1_0_0_1_n_n 64 rfl rfl).symm k) = ix2 k j :=
    funext fun a => Fin.ext (by
      match a with
      | ⟨0, _⟩ => exact (rhs_e2_0 _ _).trans hk
      | ⟨1, _⟩ => exact rhs_e2_1 _ _)
  rw [el, er]

theorem lhs_e3_0 (i : S4000x1.Idx) (q : dot_S4000x64_S64x1_S4000x1_1_0_0_1_n_n.contr.Idx) :
    (dot_S4000x64_S64x1_S4000x1_1_0_0_1_n_n.lhsIdx i q 0).val = (i 0).val := by
  unfold DotDims.lhsIdx
  rw [dif_neg (show ¬(0 : Fin S4000x64.rank) ∈ dot_S4000x64_S64x1_S4000x1_1_0_0_1_n_n.lhsBatch by decide),
    dif_pos (show (0 : Fin S4000x64.rank) ∈ dot_S4000x64_S64x1_S4000x1_1_0_0_1_n_n.lhsNonContracting by decide)]
  rfl
theorem lhs_e3_1 (i : S4000x1.Idx) (q : dot_S4000x64_S64x1_S4000x1_1_0_0_1_n_n.contr.Idx) :
    (dot_S4000x64_S64x1_S4000x1_1_0_0_1_n_n.lhsIdx i q 1).val = (q ⟨0, by decide⟩).val :=
  dot_S4000x64_S64x1_S4000x1_1_0_0_1_n_n.lhsIdx_val_of_single rfl i q
theorem rhs_e3_0 (i : S4000x1.Idx) (q : dot_S4000x64_S64x1_S4000x1_1_0_0_1_n_n.contr.Idx) :
    (dot_S4000x64_S64x1_S4000x1_1_0_0_1_n_n.rhsIdx i q 0).val = (q ⟨0, by decide⟩).val :=
  dot_S4000x64_S64x1_S4000x1_1_0_0_1_n_n.rhsIdx_val_of_single rfl i q
theorem rhs_e3_1 (i : S4000x1.Idx) (q : dot_S4000x64_S64x1_S4000x1_1_0_0_1_n_n.contr.Idx) :
    (dot_S4000x64_S64x1_S4000x1_1_0_0_1_n_n.rhsIdx i q 1).val = (i 1).val := by
  unfold DotDims.rhsIdx
  rw [dif_neg (show ¬(1 : Fin S64x1.rank) ∈ dot_S4000x64_S64x1_S4000x1_1_0_0_1_n_n.rhsBatch by decide),
    dif_pos (show (1 : Fin S64x1.rank) ∈ dot_S4000x64_S64x1_S4000x1_1_0_0_1_n_n.rhsNonContracting by decide)]
  rfl

/-- The gate's product, `[4000, 64] · [64, 1]`, at `(p, j)`. -/
theorem mm_e3_apply (A : FVec Ideal S4000x64 .bf16) (B : FVec Ideal S64x1 .bf16) (p : Fin 4000) (j : Fin 1) :
    matmul dot_S4000x64_S64x1_S4000x1_1_0_0_1_n_n none A B (constant (F := Ideal) S4000x1 .f32 0x00000000#32) (ix2 p j)
      = ∑ k : Fin 64, A (ix2 p k) * B (ix2 k j) := by
  simp only [matmul]
  rw [Ideal.matmul_constant_zero_apply, ← Equiv.sum_comp (contrEquiv1 dot_S4000x64_S64x1_S4000x1_1_0_0_1_n_n 64 rfl rfl).symm]
  refine Finset.sum_congr rfl fun k _ => ?_
  have hk := contrEquiv1_symm_val dot_S4000x64_S64x1_S4000x1_1_0_0_1_n_n 64 rfl rfl k
  have el : dot_S4000x64_S64x1_S4000x1_1_0_0_1_n_n.lhsIdx (ix2 p j) ((contrEquiv1 dot_S4000x64_S64x1_S4000x1_1_0_0_1_n_n 64 rfl rfl).symm k) = ix2 p k :=
    funext fun a => Fin.ext (by
      match a with
      | ⟨0, _⟩ => exact lhs_e3_0 _ _
      | ⟨1, _⟩ => exact (lhs_e3_1 _ _).trans hk)
  have er : dot_S4000x64_S64x1_S4000x1_1_0_0_1_n_n.rhsIdx (ix2 p j) ((contrEquiv1 dot_S4000x64_S64x1_S4000x1_1_0_0_1_n_n 64 rfl rfl).symm k) = ix2 k j :=
    funext fun a => Fin.ext (by
      match a with
      | ⟨0, _⟩ => exact (rhs_e3_0 _ _).trans hk
      | ⟨1, _⟩ => exact rhs_e3_1 _ _)
  rw [el, er]

/-! ## The layout steps of the body read at an entry -/

/-- Two `[R, 64]` blocks side by side, read at `(p, k)`, are the two rows `p` side by side read at `k`. -/
theorem concat_apply (a b : FVec Ideal S4000x64 .bf16) (p : Fin 4000) (k : Fin 128) :
    concatenate S4000x128 1 [⟨S4000x64, a⟩, ⟨S4000x64, b⟩] concatenates_S4000x64_S4000x64_S4000x128_d1 (ix2 p k)
      = cat (fun c => a (ix2 p c)) (fun c => b (ix2 p c)) k := by
  unfold cat
  split
  · next hk =>
    exact concatenate_pair_apply_left 1 a b concatenates_S4000x64_S4000x64_S4000x128_d1 (ix2 p k) rfl
      (ix2 p ⟨k.val, hk⟩) (fun c => by
        match c with
        | ⟨0, _⟩ => rfl
        | ⟨1, _⟩ => rfl)
  · next hk =>
    exact concatenate_pair_apply_right 1 a b concatenates_S4000x64_S4000x64_S4000x128_d1 (ix2 p k) rfl rfl
      (ix2 p ⟨k.val - 64, by have := k.isLt; omega⟩) (fun c hc => by
        match c with
        | ⟨0, _⟩ => rfl
        | ⟨1, _⟩ => exact absurd rfl hc) (by
        show (k.val - 64) + 64 = k.val
        omega)

/-- A bias vector laid as one row and repeated down the block reads, at `(p, j)`, its entry `j`. -/
theorem bias_apply (b : Vec Ideal S64 .f32) (p : Fin 4000) (j : Fin 64) :
    broadcastTo S4000x64 (shapeCast S1x64 b shapeCasts_S64_S1x64) broadcasts_S1x64_S4000x64 (ix2 p j) = b (ix1 j) := by
  rw [broadcastTo_1b_ab_apply, shapeCast_a_1a_apply]

/-- The gate's scalar bias laid as a `[1, 1]` array and repeated down the column reads, at `(p, 0)`, its one entry. -/
theorem bias1_apply (b : Vec Ideal S1 .f32) (p : Fin 4000) :
    broadcastTo S4000x1 (shapeCast S1x1 b shapeCasts_S1_S1x1) broadcasts_S1x1_S4000x1 (ix2 p (0 : Fin 1)) = b (ix1 0) := by
  rw [broadcastTo_1b_ab_apply, shapeCast_a_1a_apply]

/-- A `[4000, 1]` column repeated along the rows of the block reads, at `(p, q)`, the column's entry in row `p`. -/
theorem column_apply (v : FVec Ideal S4000x1 .f32) (p : Fin 4000) (q : Fin 64) :
    broadcastTo S4000x64 v broadcasts_S4000x1_S4000x64 (ix2 p q) = v (ix2 p (0 : Fin 1)) := by
  refine broadcastTo_apply v broadcasts_S4000x1_S4000x64 (ix2 p q) (ix2 p (0 : Fin 1)) fun ax => ?_
  match ax with
  | ⟨0, _⟩ => rfl
  | ⟨1, _⟩ => rfl

/-! ## The layers read at an entry -/

/-- The first layer: product, bias, and the maximum with zero, at `(p, j)`, from row `p` of the left operand. -/
theorem dense_e1_apply (A : FVec Ideal S4000x128 .bf16) (W : Vec Ideal S128x64 .f32) (b : Vec Ideal S64 .f32)
    (p : Fin 4000) (j : Fin 64) :
    maximumf (addf (matmul dot_S4000x128_S128x64_S4000x64_1_0_0_1_n_n none A (truncf .bf16 W bitsLt_bf16_f32)
          (constant (F := Ideal) S4000x64 .f32 0x00000000#32))
        (broadcastTo S4000x64 (shapeCast S1x64 b shapeCasts_S64_S1x64) broadcasts_S1x64_S4000x64))
      (broadcast S4000x64 (Scalar.ofBits (F := Ideal) .f32 0x00000000#32)) (ix2 p j)
      = max (lin (fun k => A (ix2 p k)) (mat W) (vec b) j) 0 := by
  rw [maximumf_apply, addf_apply, mm_e1_apply, bias_apply, broadcast_apply]
  show max _ (Ideal.ofBits .f32 0x00000000#32) = _
  rw [Ideal.ofBits_zero_f32]
  rfl

/-- The second layer likewise. -/
theorem dense_e2_apply (A : FVec Ideal S4000x64 .bf16) (W : Vec Ideal S64x64 .f32) (b : Vec Ideal S64 .f32)
    (p : Fin 4000) (j : Fin 64) :
    maximumf (addf (matmul dot_S4000x64_S64x64_S4000x64_1_0_0_1_n_n none A (truncf .bf16 W bitsLt_bf16_f32)
          (constant (F := Ideal) S4000x64 .f32 0x00000000#32))
        (broadcastTo S4000x64 (shapeCast S1x64 b shapeCasts_S64_S1x64) broadcasts_S1x64_S4000x64))
      (broadcast S4000x64 (Scalar.ofBits (F := Ideal) .f32 0x00000000#32)) (ix2 p j)
      = max (lin (fun k => A (ix2 p k)) (mat W) (vec b) j) 0 := by
  rw [maximumf_apply, addf_apply, mm_e2_apply, bias_apply, broadcast_apply]
  show max _ (Ideal.ofBits .f32 0x00000000#32) = _
  rw [Ideal.ofBits_zero_f32]
  rfl

/-- The gate's affine form `wᵀm + β` at row `p`, from row `p` of the left operand. -/
theorem affine_e3_apply (A : FVec Ideal S4000x64 .bf16) (w : Vec Ideal S64x1 .f32) (β : Vec Ideal S1 .f32) (p : Fin 4000) :
    addf (matmul dot_S4000x64_S64x1_S4000x1_1_0_0_1_n_n none A (truncf .bf16 w bitsLt_bf16_f32)
          (constant (F := Ideal) S4000x1 .f32 0x00000000#32))
        (broadcastTo S4000x1 (shapeCast S1x1 β shapeCasts_S1_S1x1) broadcasts_S1x1_S4000x1) (ix2 p (0 : Fin 1))
      = (∑ k : Fin 64, A (ix2 p k) * w (ix2 k 0)) + β (ix1 0) := by
  rw [addf_apply, mm_e3_apply, bias1_apply]
  rfl

/-! ## The body's values read at an entry -/

/-- The feature block `m₂` at `(p, j)` is `edgeH2` of row `p` of the two endpoint blocks. -/
theorem pay2_apply (x0 x1 : Vec Ideal S4000x64 .f32) (x3 : Vec Ideal S128x64 .f32) (x4 : Vec Ideal S64 .f32)
    (x5 : Vec Ideal S64x64 .f32) (x6 : Vec Ideal S64 .f32) (p : Fin 4000) (j : Fin 64) :
    k0_pay2 (F := Ideal) x0 x1 x3 x4 x5 x6 (ix2 p j)
      = edgeH2 (rowOf x0 p) (rowOf x1 p) (mat x3) (vec x4) (mat x5) (vec x6) j := by
  unfold k0_pay2
  rw [dense_e2_apply]
  unfold edgeH2
  refine congrArg (fun f => max (lin f (mat x5) (vec x6) j) 0) (funext fun k => ?_)
  rw [truncf_apply, dense_e1_apply]
  unfold edgeH1
  refine congrArg (fun f => max (lin f (mat x3) (vec x4) k) 0) (funext fun c => ?_)
  rw [concat_apply, shapeCast_self, shapeCast_self]
  rfl

/-- The gate's affine form at row `p`. -/
theorem pay3_apply (x0 x1 : Vec Ideal S4000x64 .f32) (x3 : Vec Ideal S128x64 .f32) (x4 : Vec Ideal S64 .f32)
    (x5 : Vec Ideal S64x64 .f32) (x6 : Vec Ideal S64 .f32) (x7 : Vec Ideal S64x1 .f32) (x8 : Vec Ideal S1 .f32)
    (p : Fin 4000) :
    k0_pay3 (F := Ideal) x0 x1 x3 x4 x5 x6 x7 x8 (ix2 p (0 : Fin 1))
      = (∑ k : Fin 64, edgeH2 (rowOf x0 p) (rowOf x1 p) (mat x3) (vec x4) (mat x5) (vec x6) k * x7 (ix2 k 0))
        + x8 (ix1 0) := by
  unfold k0_pay3
  rw [affine_e3_apply]
  refine congrArg (· + x8 (ix1 0)) (Finset.sum_congr rfl fun k _ => ?_)
  rw [truncf_apply, pay2_apply]

/-- The stored block at `(p, q)`: `m₂` there times the gate of row `p`, the gate written out in the four values the
    body carries to it. -/
theorem pay1_apply (v25 : FVec Ideal S4000x64 .f32) (v33 v36 v37 : FVec Ideal S4000x1 .f32) (p : Fin 4000) (q : Fin 64) :
    k0_pay1 (F := Ideal) v25 v33 v36 v37 (ix2 p q)
      = v25 (ix2 p q) * Ideal.logistic (v33 (ix2 p (0 : Fin 1))
          * Ideal.logistic (Ideal.div (Ideal.ofBits .f32 0x41F00000#32) (v36 (ix2 p (0 : Fin 1)) + v37 (ix2 p (0 : Fin 1))))) := by
  unfold k0_pay1
  rw [mulf_apply, column_apply]
  rfl

/-- What the edge kernel's body stores, as a function of its nine loaded blocks, is `EdgeG` of those blocks. -/
theorem out0_9_eq (x0 x1 : Vec Ideal S4000x64 .f32) (x2 : Vec Ideal S4000x1 .f32) (x3 : Vec Ideal S128x64 .f32)
    (x4 : Vec Ideal S64 .f32) (x5 : Vec Ideal S64x64 .f32) (x6 : Vec Ideal S64 .f32) (x7 : Vec Ideal S64x1 .f32)
    (x8 : Vec Ideal S1 .f32) :
    out0_9 (F := Ideal) x0 x1 x2 x3 x4 x5 x6 x7 x8 = EdgeG x0 x1 x2 x3 x4 x5 x6 x7 x8 := by
  have hz : (![0, 0] : Fin 2 → Nat) = fun _ => 0 := funext fun a => by fin_cases a <;> rfl
  have hz1 : (![0] : Fin 1 → Nat) = fun _ => 0 := funext fun a => by fin_cases a; rfl
  unfold out0_9
  rw [View.canon_unit_zero hz]
  simp only [View.ld_unit_zero (S := S4000x64) hz, View.ld_unit_zero (S := S128x64) hz,
    View.ld_unit_zero (S := S64) hz1, View.ld_unit_zero (S := S64x64) hz, View.ld_unit_zero (S := S64x1) hz,
    View.ld_unit_zero (S := S1) hz1, View.ld_unit_zero (S := S4000x1) hz]
  funext y
  obtain ⟨p, q, rfl⟩ : ∃ (p : Fin 4000) (q : Fin 64), y = ix2 p q := ⟨y 0, y 1, eq_ix2 y⟩
  rw [EdgeG_ix2, pay1_apply, pay2_apply, pay3_apply]
  unfold edgeRow edgeGate k0_pay4 k0_pay5
  dsimp only
  rw [shapeCast_self]
  rfl

end Cert.KernelIdeal.Layer

end
-- ==== Proof.EdgeArray.lean ====
/- From the edge kernel's blocks to its whole output array: grid point `t` writes rows 4000·t … 4000·t + 3999, every row
   of the 1,600,000 is some point's, and a row of the result depends only on the same row of the row-indexed operands. -/
import proofs.«145584_j40596030882310_1_alg».proof.Proof.Gen.KernelIdeal.Frame
import proofs.«145584_j40596030882310_1_alg».proof.Proof.Spec
import proofs.«145584_j40596030882310_1_alg».proof.Proof.EdgeBody
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Layer

open Cert.KernelIdeal Cert.KernelIdeal.Gen Cert.Layer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- `EdgeG` is row-wise: its entry `(p, q)` over one family of operands is its entry `(r, q)` over another as soon as
    row `p` of the first family's row-indexed operands is row `r` of the second's and the weights are the same. -/
theorem edgeArr_row_congr {A B : Nat} (x0 x1 : (⟨2, ![A, 64]⟩ : Shape).Idx → EReal) (x2 : (⟨2, ![A, 1]⟩ : Shape).Idx → EReal)
    (hi hj : (⟨2, ![B, 64]⟩ : Shape).Idx → EReal) (dsq : (⟨2, ![B, 1]⟩ : Shape).Idx → EReal)
    (x3 W1 : (⟨2, ![128, 64]⟩ : Shape).Idx → EReal) (x4 β1 : (⟨1, ![64]⟩ : Shape).Idx → EReal)
    (x5 W2 : (⟨2, ![64, 64]⟩ : Shape).Idx → EReal) (x6 β2 : (⟨1, ![64]⟩ : Shape).Idx → EReal)
    (x7 w : (⟨2, ![64, 1]⟩ : Shape).Idx → EReal) (x8 β : (⟨1, ![1]⟩ : Shape).Idx → EReal)
    (p : Fin A) (r : Fin B) (q : Fin 64)
    (h0 : ∀ k : Fin 64, x0 (ix2 p k) = hi (ix2 r k)) (h1 : ∀ k : Fin 64, x1 (ix2 p k) = hj (ix2 r k))
    (h2 : x2 (ix2 p 0) = dsq (ix2 r 0))
    (h3 : x3 = W1) (h4 : x4 = β1) (h5 : x5 = W2) (h6 : x6 = β2) (h7 : x7 = w) (h8 : x8 = β) :
    EdgeG x0 x1 x2 x3 x4 x5 x6 x7 x8 (ix2 p q) = EdgeG hi hj dsq W1 β1 W2 β2 w β (ix2 r q) := by
  subst h3 h4 h5 h6 h7 h8
  rw [EdgeG_ix2, EdgeG_ix2]
  have e0 : rowOf x0 p = rowOf hi r := funext h0
  have e1 : rowOf x1 p = rowOf hj r := funext h1
  rw [e0, e1, h2]

/-- The printed index maps over the 400 points: a row-blocked window's block index is the point's number on the row
    axis and 0 on the column axis; a weight window's is 0 on every axis. -/
theorem edgeArr_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-- The edge grid has 400 points. -/
theorem edgeArr_N : cfg0.N = 400 := by decide

/-- Row `p` of point `t`'s block of the first endpoint features is row `4000·t + p` of the array. -/
theorem edgeArr_blk0 (c : Dev nD) (t : Fin cfg0.N) (p : Fin 4000) (k : Fin 64) (r : Fin 1600000)
    (hr : r.val = 4000 * t.val + p.val) :
    (iblk0 V c 0 t : S4000x64.Idx → EReal) (ix2 p k) = (V c main_v10 : S1600000x64.Idx → EReal) (ix2 r k) := by
  obtain ⟨e0, e1, -⟩ := edgeArr_idx t
  show (V c main_v10 : S1600000x64.Idx → EReal) (((cfg0.win 0).blk t).view.emb (ix2 p k)) = _
  refine congrArg _ ?_
  funext a; apply Fin.ext
  match a with
  | ⟨0, _⟩ => show win0_0.index t (0 : Fin 2) * 4000 + 1 * p.val = r.val; omega
  | ⟨1, _⟩ => show win0_0.index t (1 : Fin 2) * 64 + 1 * k.val = k.val; omega

/-- The same for the second endpoint features. -/
theorem edgeArr_blk1 (c : Dev nD) (t : Fin cfg0.N) (p : Fin 4000) (k : Fin 64) (r : Fin 1600000)
    (hr : r.val = 4000 * t.val + p.val) :
    (iblk0 V c 1 t : S4000x64.Idx → EReal) (ix2 p k) = (V c main_v17 : S1600000x64.Idx → EReal) (ix2 r k) := by
  obtain ⟨-, -, e0, e1, -⟩ := edgeArr_idx t
  show (V c main_v17 : S1600000x64.Idx → EReal) (((cfg0.win 1).blk t).view.emb (ix2 p k)) = _
  refine congrArg _ ?_
  funext a; apply Fin.ext
  match a with
  | ⟨0, _⟩ => show win0_1.index t (0 : Fin 2) * 4000 + 1 * p.val = r.val; omega
  | ⟨1, _⟩ => show win0_1.index t (1 : Fin 2) * 64 + 1 * k.val = k.val; omega

/-- The same for the squared distances, a column. -/
theorem edgeArr_blk2 (c : Dev nD) (t : Fin cfg0.N) (p : Fin 4000) (k : Fin 1) (r : Fin 1600000)
    (hr : r.val = 4000 * t.val + p.val) :
    (iblk0 V c 2 t : S4000x1.Idx → EReal) (ix2 p k) = (V c main_v35 : S1600000x1.Idx → EReal) (ix2 r k) := by
  obtain ⟨-, -, -, -, e0, e1, -⟩ := edgeArr_idx t
  show (V c main_v35 : S1600000x1.Idx → EReal) (((cfg0.win 2).blk t).view.emb (ix2 p k)) = _
  refine congrArg _ ?_
  funext a; apply Fin.ext
  match a with
  | ⟨0, _⟩ => show win0_2.index t (0 : Fin 2) * 4000 + 1 * p.val = r.val; omega
  | ⟨1, _⟩ => show win0_2.index t (1 : Fin 2) * 1 + 1 * k.val = k.val; omega

/-- A weight window's block is the whole array at every point: its block index is 0 on every axis. -/
theorem edgeArr_blk3 (c : Dev nD) (t : Fin cfg0.N) :
    (iblk0 V c 3 t : S128x64.Idx → EReal) = (V c main_arg3 : S128x64.Idx → EReal) := by
  obtain ⟨-, -, -, -, -, -, e0, e1, -⟩ := edgeArr_idx t
  funext j
  show (V c main_arg3 : S128x64.Idx → EReal) (((cfg0.win 3).blk t).view.emb j) = _
  refine congrArg _ ?_
  funext a; apply Fin.ext
  match a with
  | ⟨0, _⟩ => show win0_3.index t (0 : Fin 2) * 128 + 1 * (j 0).val = (j 0).val; omega
  | ⟨1, _⟩ => show win0_3.index t (1 : Fin 2) * 64 + 1 * (j 1).val = (j 1).val; omega

theorem edgeArr_blk4 (c : Dev nD) (t : Fin cfg0.N) :
    (iblk0 V c 4 t : S64.Idx → EReal) = (V c main_arg4 : S64.Idx → EReal) := by
  obtain ⟨-, -, -, -, -, -, -, -, e0, -⟩ := edgeArr_idx t
  funext j
  show (V c main_arg4 : S64.Idx → EReal) (((cfg0.win 4).blk t).view.emb j) = _
  refine congrArg _ ?_
  funext a; apply Fin.ext
  match a with
  | ⟨0, _⟩ => show win0_4.index t (0 : Fin 1) * 64 + 1 * (j 0).val = (j 0).val; omega

theorem edgeArr_blk5 (c : Dev nD) (t : Fin cfg0.N) :
    (iblk0 V c 5 t : S64x64.Idx → EReal) = (V c main_arg5 : S64x64.Idx → EReal) := by
  obtain ⟨-, -, -, -, -, -, -, -, -, e0, e1, -⟩ := edgeArr_idx t
  funext j
  show (V c main_arg5 : S64x64.Idx → EReal) (((cfg0.win 5).blk t).view.emb j) = _
  refine congrArg _ ?_
  funext a; apply Fin.ext
  match a with
  | ⟨0, _⟩ => show win0_5.index t (0 : Fin 2) * 64 + 1 * (j 0).val = (j 0).val; omega
  | ⟨1, _⟩ => show win0_5.index t (1 : Fin 2) * 64 + 1 * (j 1).val = (j 1).val; omega

theorem edgeArr_blk6 (c : Dev nD) (t : Fin cfg0.N) :
    (iblk0 V c 6 t : S64.Idx → EReal) = (V c main_arg6 : S64.Idx → EReal) := by
  obtain ⟨-, -, -, -, -, -, -, -, -, -, -, e0, -⟩ := edgeArr_idx t
  funext j
  show (V c main_arg6 : S64.Idx → EReal) (((cfg0.win 6).blk t).view.emb j) = _
  refine congrArg _ ?_
  funext a; apply Fin.ext
  match a with
  | ⟨0, _⟩ => show win0_6.index t (0 : Fin 1) * 64 + 1 * (j 0).val = (j 0).val; omega

theorem edgeArr_blk7 (c : Dev nD) (t : Fin cfg0.N) :
    (iblk0 V c 7 t : S64x1.Idx → EReal) = (V c main_arg7 : S64x1.Idx → EReal) := by
  obtain ⟨-, -, -, -, -, -, -, -, -, -, -, -, e0, e1, -⟩ := edgeArr_idx t
  funext j
  show (V c main_arg7 : S64x1.Idx → EReal) (((cfg0.win 7).blk t).view.emb j) = _
  refine congrArg _ ?_
  funext a; apply Fin.ext
  match a with
  | ⟨0, _⟩ => show win0_7.index t (0 : Fin 2) * 64 + 1 * (j 0).val = (j 0).val; omega
  | ⟨1, _⟩ => show win0_7.index t (1 : Fin 2) * 1 + 1 * (j 1).val = (j 1).val; omega

theorem edgeArr_blk8 (c : Dev nD) (t : Fin cfg0.N) :
    (iblk0 V c 8 t : S1.Idx → EReal) = (V c main_arg8 : S1.Idx → EReal) := by
  obtain ⟨-, -, -, -, -, -, -, -, -, -, -, -, -, -, e0, -⟩ := edgeArr_idx t
  funext j
  show (V c main_arg8 : S1.Idx → EReal) (((cfg0.win 8).blk t).view.emb j) = _
  refine congrArg _ ?_
  funext a; apply Fin.ext
  match a with
  | ⟨0, _⟩ => show win0_8.index t (0 : Fin 1) * 1 + 1 * (j 0).val = (j 0).val; omega

/-- The whole-array function the edge region's output ends holding. -/
abbrev edgeArr_out (c : Dev nD) : S1600000x64.Idx → EReal :=
  EdgeG (E := 1600000) (V c main_v10) (V c main_v17) (V c main_v35) (V c main_arg3) (V c main_arg4) (V c main_arg5)
    (V c main_arg6) (V c main_arg7) (V c main_arg8)

/-- What point `t` writes back is block `t` of `edgeArr_out`: rows `4000·t … 4000·t + 3999`. -/
theorem edgeArr_flushed (c : Dev nD) (t : Fin cfg0.N) :
    (dat0 V c).flushed 9 t = ((cfg0.win 9).blk t).view.read (Elt Ideal) (edgeArr_out V c) := by
  show (cfg0.win 9).cut (grid0.coords t) ((dat0 V c).after 9 t) = _
  rw [after0_9, out0_9_eq]
  have e9 := (edgeArr_idx t).2.2.2.2.2.2.2.2.2.2.2.2.2.2.2
  obtain ⟨e0, e1⟩ := e9
  have ht : t.val < 400 := lt_of_lt_of_eq t.isLt edgeArr_N
  funext j
  obtain ⟨p, q, rfl⟩ : ∃ (p : Fin 4000) (q : Fin 64), (j : S4000x64.Idx) = ix2 p q := ⟨j 0, j 1, eq_ix2 j⟩
  have hr : 4000 * t.val + p.val < 1600000 := by have := p.isLt; omega
  have hemb : ((cfg0.win 9).blk t).view.emb (ix2 p q) = (ix2 ⟨4000 * t.val + p.val, hr⟩ q : S1600000x64.Idx) := by
    funext a; apply Fin.ext
    match a with
    | ⟨0, _⟩ => show win0_9.index t (0 : Fin 2) * 4000 + 1 * p.val = 4000 * t.val + p.val; omega
    | ⟨1, _⟩ => show win0_9.index t (1 : Fin 2) * 64 + 1 * q.val = q.val; omega
  show EdgeG (E := 4000) (iblk0 V c 0 t) (iblk0 V c 1 t) (iblk0 V c 2 t) (iblk0 V c 3 t) (iblk0 V c 4 t) (iblk0 V c 5 t)
      (iblk0 V c 6 t) (iblk0 V c 7 t) (iblk0 V c 8 t) (ix2 p q)
    = edgeArr_out V c (((cfg0.win 9).blk t).view.emb (ix2 p q))
  rw [hemb]
  exact edgeArr_row_congr _ _ _ _ _ _ _ _ _ _ _ _ _ _ _ _ _ _ p ⟨4000 * t.val + p.val, hr⟩ q
    (fun k => edgeArr_blk0 V c t p k _ rfl) (fun k => edgeArr_blk1 V c t p k _ rfl) (edgeArr_blk2 V c t p 0 _ rfl)
    (edgeArr_blk3 V c t) (edgeArr_blk4 V c t) (edgeArr_blk5 V c t) (edgeArr_blk6 V c t) (edgeArr_blk7 V c t) (edgeArr_blk8 V c t)

/-- An index of the output array is in point `t`'s block iff each coordinate is in the block's range on its axis. -/
theorem edgeArr_mem_blk (t : Fin cfg0.N) (i : S1600000x64.Idx) :
    i ∈ ((cfg0.win 9).blk t).view.set ↔ ∀ a : Fin 2, win0_9.index t a * S4000x64.size a ≤ (i a).val ∧ (i a).val < win0_9.index t a * S4000x64.size a + S4000x64.size a := by
  show i ∈ ((View.whole main_v36).slice (win0_9.rect t)).set ↔ _
  rw [View.set_slice_whole, Rect.mem_set_unit]
  exact Iff.rfl

/-- Every row of the output array is some point's: row `r` is in the block of point `r / 4000`. -/
theorem edgeArr_cover (i : S1600000x64.Idx) :
    ∃ t : Fin cfg0.N, (cfg0.win 9).flush t = true ∧ i ∈ ((cfg0.win 9).blk t).view.set := by
  have hi0 : (i 0).val < 1600000 := (i 0).isLt
  have hi1 : (i 1).val < 64 := (i 1).isLt
  have hN : (i 0).val / 4000 < cfg0.N := by rw [edgeArr_N]; omega
  refine ⟨⟨(i 0).val / 4000, hN⟩, flush0_9 _, ?_⟩
  have e9 := (edgeArr_idx ⟨(i 0).val / 4000, hN⟩).2.2.2.2.2.2.2.2.2.2.2.2.2.2.2
  obtain ⟨e0, e1⟩ := e9
  rw [edgeArr_mem_blk]
  intro a
  match a with
  | ⟨0, _⟩ =>
    show win0_9.index ⟨(i 0).val / 4000, hN⟩ (0 : Fin 2) * 4000 ≤ (i 0).val ∧ (i 0).val < win0_9.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win0_9.index ⟨(i 0).val / 4000, hN⟩ (1 : Fin 2) * 64 ≤ (i 1).val ∧ (i 1).val < win0_9.index ⟨(i 0).val / 4000, hN⟩ (1 : Fin 2) * 64 + 64
    rw [e1]; omega

/-- The edge region's output array after its 400 points, from whatever contents `V` the region is entered at. -/
theorem edge_final (c : Dev nD) :
    (dat0 V c).arrAt 9 cfg0.N
      = EdgeG (E := 1600000) (V c main_v10) (V c main_v17) (V c main_v35) (V c main_arg3) (V c main_arg4) (V c main_arg5)
          (V c main_arg6) (V c main_arg7) (V c main_arg8) :=
  (dat0 V c).arrAt_eq_of_cover 9 (edgeArr_out V c) (fun t _ => edgeArr_flushed V c t) edgeArr_cover

end Cert.KernelIdeal.Layer

end
-- ==== Proof.LibColumn.lean ====
/-
  Column-shaped values read at an index given by coordinates, and a lane sum read as a finite sum.

  A row-wise reduction that keeps its axis (`sum(…, axis=1, keepdims=True)`) leaves an `[a, 1]` column. Three re-layings
  of such a column occur whenever it meets a full `[a, b]` tile: the cast of the `[a]` vector of sums to the column, the
  column broadcast along the rows of the tile, and (for the other operand's sums) the column transposed to a `[1, b]` row,
  which the library's `transpose_ix2_apply` and `broadcastTo_1b_ab_apply` already read. Each lemma states what the
  re-laid value holds at `(p, c)` in terms of the original vector, for indices built by `ix1` / `ix2`, so that it applies
  to a printed operation by unification. Generic in the extents and in the element type.
-/
import Idealize.ShloMosaic.Lib.ValueLayout
import Idealize.ShloMosaic.PureOps.Ideal.Laws

namespace Cert.Lib.Column

open Idealize.ShloMosaic Idealize.ShloMosaic.ValueIdx

variable {α : Type}

/-- An `[a]` vector cast to the column `[a, 1]` reads, at `(i, u)`, the vector's entry `i`, whatever the unit
    coordinate `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`: every column of the
    result is the operand. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, d]` block (a float `multi_reduction <add>` over axis 1 from the neutral
    accumulator), read on the extended reals at row `i`, is the finite sum of the row's `d` entries. -/
theorem rowSum_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin d, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Column
-- ==== Proof.NodeBody.lean ====
/- The node kernel's block, entry by entry: what one grid point leaves in its output block is the node update
   `nodeRow` of the rows of the point's input blocks.

   The body is read at a row `p` and a column `j` of the block, operation by operation: the two matrix products as
   finite sums over their contraction positions, the concatenation as the two rows side by side, the bias, gain and
   offset vectors as their entry in the column, the two row sums as finite sums over the 64 columns, and the kept
   columns (mean, variance) as their entry in the row. -/
import proofs.«145584_j40596030882310_1_alg».proof.Proof.Gen.KernelIdeal.Frame
import proofs.«145584_j40596030882310_1_alg».proof.Proof.Spec
import proofs.«145584_j40596030882310_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Layer

open Cert.KernelIdeal Cert.KernelIdeal.Gen Cert.Layer
open Idealize.ShloMosaic Idealize.ShloMosaic.TcCoe Idealize.ShloMosaic.ValueIdx Idealize.SL.Sem
open Idealize.ShloMosaic.Pipeline (Dat Cfg Window)

namespace Node

/-! ## The two products: which operand entries meet at a contraction position -/

/-- In the first product the left operand is read in the result's row. -/
theorem mm1_lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl

/-- … and at the contraction position along its columns. -/
theorem mm1_lhs_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q

/-- The right operand is read at the contraction position along its rows … -/
theorem mm1_rhs_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q

/-- … and in the result's column. -/
theorem mm1_rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- The first product from a zero accumulator, at row `p` and column `j`: the sum over the 128 contraction positions
    of the left operand's row `p` against the right operand's column `j`. -/
theorem mm1_apply (a : FVec Ideal S5000x128 .bf16) (b : FVec Ideal S128x64 .bf16) (p : Fin 5000) (j : Fin 64) :
    matmul dot_S5000x128_S128x64_S5000x64_1_0_0_1_n_n none a b (constant (F := Ideal) S5000x64 .f32 0x00000000#32) (ix2 p j)
      = ∑ k : Fin 128, a (ix2 p k) * b (ix2 k j) := by
  refine (Ideal.matmul_constant_zero_apply dot_S5000x128_S128x64_S5000x64_1_0_0_1_n_n none a b (ix2 p j)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have hl : dot_S5000x128_S128x64_S5000x64_1_0_0_1_n_n.lhsIdx (ix2 p j)
      ((contrEquiv1 dot_S5000x128_S128x64_S5000x64_1_0_0_1_n_n 128 rfl rfl).symm k) = ix2 p k :=
    funext fun ax => Fin.ext (by
      match ax with
      | ⟨0, _⟩ => exact mm1_lhs_row _ _
      | ⟨1, _⟩ => exact (mm1_lhs_col _ _).trans hk)
  have hr : dot_S5000x128_S128x64_S5000x64_1_0_0_1_n_n.rhsIdx (ix2 p j)
      ((contrEquiv1 dot_S5000x128_S128x64_S5000x64_1_0_0_1_n_n 128 rfl rfl).symm k) = ix2 k j :=
    funext fun ax => Fin.ext (by
      match ax with
      | ⟨0, _⟩ => exact (mm1_rhs_row _ _).trans hk
      | ⟨1, _⟩ => exact mm1_rhs_col _ _)
  rw [hl, hr]

/-- In the second product the left operand is read in the result's row. -/
theorem mm2_lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- … and at the contraction position along its columns. -/
theorem mm2_lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q

/-- The right operand is read at the contraction position along its rows … -/
theorem mm2_rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q

/-- … and in the result's column. -/
theorem mm2_rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The second product from a zero accumulator, at row `p` and column `j`: the sum over the 64 contraction positions
    of the left operand's row `p` against the right operand's column `j`. -/
theorem mm2_apply (a : FVec Ideal S5000x64 .bf16) (b : FVec Ideal S64x64 .bf16) (p : Fin 5000) (j : Fin 64) :
    matmul dot_S5000x64_S64x64_S5000x64_1_0_0_1_n_n none a b (constant (F := Ideal) S5000x64 .f32 0x00000000#32) (ix2 p j)
      = ∑ k : Fin 64, a (ix2 p k) * b (ix2 k j) := by
  refine (Ideal.matmul_constant_zero_apply dot_S5000x64_S64x64_S5000x64_1_0_0_1_n_n none a b (ix2 p j)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have hl : dot_S5000x64_S64x64_S5000x64_1_0_0_1_n_n.lhsIdx (ix2 p j)
      ((contrEquiv1 dot_S5000x64_S64x64_S5000x64_1_0_0_1_n_n 64 rfl rfl).symm k) = ix2 p k :=
    funext fun ax => Fin.ext (by
      match ax with
      | ⟨0, _⟩ => exact mm2_lhs_row _ _
      | ⟨1, _⟩ => exact (mm2_lhs_col _ _).trans hk)
  have hr : dot_S5000x64_S64x64_S5000x64_1_0_0_1_n_n.rhsIdx (ix2 p j)
      ((contrEquiv1 dot_S5000x64_S64x64_S5000x64_1_0_0_1_n_n 64 rfl rfl).symm k) = ix2 k j :=
    funext fun ax => Fin.ext (by
      match ax with
      | ⟨0, _⟩ => exact (mm2_rhs_row _ _).trans hk
      | ⟨1, _⟩ => exact mm2_rhs_col _ _)
  rw [hl, hr]

/-! ## The layout operations of the body, read at a row and a column -/

/-- A 64-vector laid along every row of the block reads, at `(p, j)`, its entry `j`. -/
theorem rowVec_apply (v : FVec Ideal S64 .f32) (p : Fin 5000) (j : Fin 64) :
    broadcastTo S5000x64 (shapeCast S1x64 v shapeCasts_S64_S1x64) broadcasts_S1x64_S5000x64 (ix2 p j) = v (ix1 j) := by
  rw [broadcastTo_1b_ab_apply, shapeCast_a_1a_apply]

/-- The two 64-wide blocks side by side read, at `(p, l)`, the concatenation of their rows `p` at `l`. -/
theorem catBlock_apply (x0 x1 : FVec Ideal S5000x64 .f32) (p : Fin 5000) (l : Fin 128) :
    concatenate S5000x128 1 [⟨S5000x64, x0⟩, ⟨S5000x64, x1⟩] concatenates_S5000x64_S5000x64_S5000x128_d1 (ix2 p l)
      = cat (rowOf x0 p) (rowOf x1 p) l := by
  unfold cat
  split
  · next h =>
    exact concatenate_pair_apply_left (1 : Fin S5000x128.rank) x0 x1 _ (ix2 p l) rfl (ix2 p ⟨l.val, h⟩)
      (fun b => by
        match b with
        | ⟨0, _⟩ => rfl
        | ⟨1, _⟩ => rfl)
  · next h =>
    exact concatenate_pair_apply_right (1 : Fin S5000x128.rank) x0 x1 _ (ix2 p l) rfl rfl (ix2 p ⟨l.val - 64, by omega⟩)
      (fun b hb => by
        match b with
        | ⟨0, _⟩ => rfl
        | ⟨1, _⟩ => exact absurd rfl hb)
      (by show (l.val - 64) + 64 = l.val; omega)

/-! ## The row before normalisation -/

/-- The body's residual row: at `(p, j)` it is `nodeZ` of row `p` of the two feature blocks. -/
theorem z_apply (x0 x1 : Vec Ideal S5000x64 .f32) (x2 : Vec Ideal S128x64 .f32) (x3 : Vec Ideal S64 .f32)
    (x4 : Vec Ideal S64x64 .f32) (x5 : Vec Ideal S64 .f32) (p : Fin 5000) (j : Fin 64) :
    k1_pay2 (F := Ideal) x0 x1 x2 x3 x4 x5 (ix2 p j)
      = nodeZ (rowOf x0 p) (rowOf x1 p) (mat x2) (vec x3) (mat x4) (vec x5) j := by
  unfold k1_pay2 nodeZ lin
  dsimp only
  rw [addf_apply, addf_apply, mm2_apply, rowVec_apply]
  refine congrArg (fun t => x1 (ix2 p j) + (t + x5 (ix1 j))) (Finset.sum_congr rfl fun k _ => ?_)
  rw [truncf_apply, truncf_apply, maximumf_apply, addf_apply, mm1_apply, rowVec_apply, broadcast_apply]
  have h0 : (Scalar.ofBits .f32 0x00000000#32 : Ideal .f32) = 0 := Ideal.ofBits_zero_f32
  rw [h0]
  refine congrArg (fun t => max (t + x3 (ix1 k)) 0 * x4 (ix2 k j)) (Finset.sum_congr rfl fun l _ => ?_)
  rw [truncf_apply, truncf_apply, shapeCast_self, catBlock_apply]

/-! ## The mean and the variance columns -/

/-- The 64.0 literal splat along the column. -/
theorem splat_apply (b : BitVec 32) (p : Fin 5000) (u : Fin 1) :
    broadcast S5000x1 (Scalar.ofBits (F := Ideal) .f32 b) (ix2 p u) = Ideal.ofBits .f32 b := rfl

/-- The body's mean column: at row `p` it is the mean of the row `z`. -/
theorem mean_apply (x0 x1 : Vec Ideal S5000x64 .f32) (x2 : Vec Ideal S128x64 .f32) (x3 : Vec Ideal S64 .f32)
    (x4 : Vec Ideal S64x64 .f32) (x5 : Vec Ideal S64 .f32) (p : Fin 5000) (u : Fin 1) :
    k1_pay3 (F := Ideal) x0 x1 x2 x3 x4 x5 (ix2 p u)
      = mean64 (nodeZ (rowOf x0 p) (rowOf x1 p) (mat x2) (vec x3) (mat x4) (vec x5)) := by
  unfold k1_pay3 mean64
  dsimp only
  rw [divf_apply, splat_apply, Cert.Lib.Column.shapeCast_a_a1_apply]
  refine congrArg (fun t => Ideal.div t (Ideal.ofBits .f32 0x42800000#32)) ?_
  refine (Cert.Lib.Column.rowSum_apply _ _ _ _ _ p).trans (Finset.sum_congr rfl fun k _ => ?_)
  exact z_apply x0 x1 x2 x3 x4 x5 p k

/-- The centred row: `z − μ`. -/
theorem centred_apply (x0 x1 : Vec Ideal S5000x64 .f32) (x2 : Vec Ideal S128x64 .f32) (x3 : Vec Ideal S64 .f32)
    (x4 : Vec Ideal S64x64 .f32) (x5 : Vec Ideal S64 .f32) (p : Fin 5000) (j : Fin 64) :
    k1_pay5 (F := Ideal) x0 x1 x2 x3 x4 x5 (ix2 p j)
      = nodeZ (rowOf x0 p) (rowOf x1 p) (mat x2) (vec x3) (mat x4) (vec x5) j
        - mean64 (nodeZ (rowOf x0 p) (rowOf x1 p) (mat x2) (vec x3) (mat x4) (vec x5)) := by
  unfold k1_pay5
  rw [subf_apply, Cert.Lib.Column.broadcastTo_a1_ab_apply, z_apply, mean_apply]

/-- The body's variance column: at row `p` the mean of the squared deviations of the row `z`. -/
theorem var_apply (x0 x1 : Vec Ideal S5000x64 .f32) (x2 : Vec Ideal S128x64 .f32) (x3 : Vec Ideal S64 .f32)
    (x4 : Vec Ideal S64x64 .f32) (x5 : Vec Ideal S64 .f32) (p : Fin 5000) (u : Fin 1) :
    k1_pay4 (F := Ideal) x0 x1 x2 x3 x4 x5 (ix2 p u)
      = mean64 (fun k => (nodeZ (rowOf x0 p) (rowOf x1 p) (mat x2) (vec x3) (mat x4) (vec x5) k
            - mean64 (nodeZ (rowOf x0 p) (rowOf x1 p) (mat x2) (vec x3) (mat x4) (vec x5)))
          * (nodeZ (rowOf x0 p) (rowOf x1 p) (mat x2) (vec x3) (mat x4) (vec x5) k
            - mean64 (nodeZ (rowOf x0 p) (rowOf x1 p) (mat x2) (vec x3) (mat x4) (vec x5)))) := by
  unfold k1_pay4 mean64
  dsimp only
  rw [divf_apply, splat_apply, Cert.Lib.Column.shapeCast_a_a1_apply]
  refine congrArg (fun t => Ideal.div t (Ideal.ofBits .f32 0x42800000#32)) ?_
  refine (Cert.Lib.Column.rowSum_apply _ _ _ _ _ p).trans (Finset.sum_congr rfl fun k _ => ?_)
  rw [mulf_apply, subf_apply, Cert.Lib.Column.broadcastTo_a1_ab_apply, z_apply, mean_apply]
  rfl

/-! ## The stored block -/

/-- The body's last value from a centred block `cz` and a variance column `vr`: at `(p, q)` the centred entry times the
    inverse root of the row's variance plus the small constant, times the gain, plus the offset. -/
theorem scaled_apply (vr : FVec Ideal S5000x1 .f32) (g b : Vec Ideal S64 .f32) (cz : FVec Ideal S5000x64 .f32)
    (p : Fin 5000) (q : Fin 64) :
    k1_pay1 (F := Ideal) vr g b cz (k1_pay6 (F := Ideal)) (ix2 p q)
      = cz (ix2 p q) * Ideal.rsqrt (vr (ix2 p 0) + Ideal.ofBits .f32 0x3727C5AC#32) * g (ix1 q) + b (ix1 q) := by
  unfold k1_pay1 k1_pay6
  dsimp only
  rw [addf_apply, mulf_apply, mulf_apply, rowVec_apply, rowVec_apply, Cert.Lib.Column.broadcastTo_a1_ab_apply]
  rfl

end Node

/-- What the node kernel's body stores, as a function of its eight loaded blocks, is `NodeG` of those blocks. -/
theorem out1_8_eq (x0 x1 : Vec Ideal S5000x64 .f32) (x2 : Vec Ideal S128x64 .f32) (x3 : Vec Ideal S64 .f32)
    (x4 : Vec Ideal S64x64 .f32) (x5 x6 x7 : Vec Ideal S64 .f32) :
    out1_8 (F := Ideal) x0 x1 x2 x3 x4 x5 x6 x7 = NodeG x0 x1 x2 x3 x4 x5 x6 x7 := by
  have hz2 : (![0, 0] : Fin 2 → Nat) = fun _ => 0 := funext fun a => by
    match a with
    | ⟨0, _⟩ => rfl
    | ⟨1, _⟩ => rfl
  have hz1 : (![0] : Fin 1 → Nat) = fun _ => 0 := funext fun a => by
    match a with
    | ⟨0, _⟩ => rfl
  unfold out1_8
  rw [View.canon_unit_zero hz2]
  simp only [View.ld_unit_zero (S := S5000x64) hz2, View.ld_unit_zero (S := S128x64) hz2,
    View.ld_unit_zero (S := S64x64) hz2, View.ld_unit_zero (S := S64) hz1]
  funext y
  obtain ⟨p, q, rfl⟩ : ∃ (p : Fin 5000) (q : Fin 64), y = ix2 p q := ⟨y 0, y 1, eq_ix2 y⟩
  rw [NodeG_ix2, Node.scaled_apply, Node.centred_apply, Node.var_apply]
  rfl

end Cert.KernelIdeal.Layer

end
-- ==== Proof.NodeArray.lean ====
/- From the node kernel's blocks to its whole output array: grid point `t` writes rows 5000·t … 5000·t + 4999, every row
   of the 100,000 is some point's, and a row of the result depends only on the same row of the row-indexed operands. -/
import proofs.«145584_j40596030882310_1_alg».proof.Proof.Gen.KernelIdeal.Frame
import proofs.«145584_j40596030882310_1_alg».proof.Proof.Spec
import proofs.«145584_j40596030882310_1_alg».proof.Proof.NodeBody
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Layer

open Cert.KernelIdeal Cert.KernelIdeal.Gen Cert.Layer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- `NodeG` is row-wise: its entry `(p, q)` over one family of operands is its entry `(r, q)` over another as soon as
    row `p` of the first family's row-indexed operands is row `r` of the second's and the weights are the same. -/
theorem nodeArr_row_congr {A B : Nat} (x0 x1 : (⟨2, ![A, 64]⟩ : Shape).Idx → EReal)
    (s h : (⟨2, ![B, 64]⟩ : Shape).Idx → EReal)
    (x2 V1 : (⟨2, ![128, 64]⟩ : Shape).Idx → EReal) (x3 γ1 : (⟨1, ![64]⟩ : Shape).Idx → EReal)
    (x4 V2 : (⟨2, ![64, 64]⟩ : Shape).Idx → EReal) (x5 γ2 x6 g x7 b : (⟨1, ![64]⟩ : Shape).Idx → EReal)
    (p : Fin A) (r : Fin B) (q : Fin 64)
    (h0 : ∀ k : Fin 64, x0 (ix2 p k) = s (ix2 r k)) (h1 : ∀ k : Fin 64, x1 (ix2 p k) = h (ix2 r k))
    (h2 : x2 = V1) (h3 : x3 = γ1) (h4 : x4 = V2) (h5 : x5 = γ2) (h6 : x6 = g) (h7 : x7 = b) :
    NodeG x0 x1 x2 x3 x4 x5 x6 x7 (ix2 p q) = NodeG s h V1 γ1 V2 γ2 g b (ix2 r q) := by
  subst h2 h3 h4 h5 h6 h7
  rw [NodeG_ix2, NodeG_ix2]
  have e0 : rowOf x0 p = rowOf s r := funext h0
  have e1 : rowOf x1 p = rowOf h r := funext h1
  rw [e0, e1]

/-- The printed index maps over the 20 points: a row-blocked window's block index is the point's number on the row
    axis and 0 on the column axis; a weight window's is 0 on every axis. -/
theorem nodeArr_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 1) = 0
    ∧ win1_7.index t (0 : Fin 1) = 0
    ∧ win1_8.index t (0 : Fin 2) = t.val ∧ win1_8.index t (1 : Fin 2) = 0 :=
  (by decide +kernel : ∀ t : Fin grid1.N, _)

/-- The node grid has 20 points. -/
theorem nodeArr_N : cfg1.N = 20 := by decide

/-- Row `p` of point `t`'s block of the aggregated messages is row `5000·t + p` of the array. -/
theorem nodeArr_blk0 (c : Dev nD) (t : Fin cfg1.N) (p : Fin 5000) (k : Fin 64) (r : Fin 100000)
    (hr : r.val = 5000 * t.val + p.val) :
    (iblk1 V c 0 t : S5000x64.Idx → EReal) (ix2 p k) = (V c main_v39 : S100000x64.Idx → EReal) (ix2 r k) := by
  obtain ⟨e0, e1, -⟩ := nodeArr_idx t
  show (V c main_v39 : S100000x64.Idx → EReal) (((cfg1.win 0).blk t).view.emb (ix2 p k)) = _
  refine congrArg _ ?_
  funext a; apply Fin.ext
  match a with
  | ⟨0, _⟩ => show win1_0.index t (0 : Fin 2) * 5000 + 1 * p.val = r.val; omega
  | ⟨1, _⟩ => show win1_0.index t (1 : Fin 2) * 64 + 1 * k.val = k.val; omega

/-- The same for the node features. -/
theorem nodeArr_blk1 (c : Dev nD) (t : Fin cfg1.N) (p : Fin 5000) (k : Fin 64) (r : Fin 100000)
    (hr : r.val = 5000 * t.val + p.val) :
    (iblk1 V c 1 t : S5000x64.Idx → EReal) (ix2 p k) = (V c main_arg0 : S100000x64.Idx → EReal) (ix2 r k) := by
  obtain ⟨-, -, e0, e1, -⟩ := nodeArr_idx t
  show (V c main_arg0 : S100000x64.Idx → EReal) (((cfg1.win 1).blk t).view.emb (ix2 p k)) = _
  refine congrArg _ ?_
  funext a; apply Fin.ext
  match a with
  | ⟨0, _⟩ => show win1_1.index t (0 : Fin 2) * 5000 + 1 * p.val = r.val; omega
  | ⟨1, _⟩ => show win1_1.index t (1 : Fin 2) * 64 + 1 * k.val = k.val; omega

/-- A weight window's block is the whole array at every point: its block index is 0 on every axis. -/
theorem nodeArr_blk2 (c : Dev nD) (t : Fin cfg1.N) :
    (iblk1 V c 2 t : S128x64.Idx → EReal) = (V c main_arg9 : S128x64.Idx → EReal) := by
  obtain ⟨-, -, -, -, e0, e1, -⟩ := nodeArr_idx t
  funext j
  show (V c main_arg9 : S128x64.Idx → EReal) (((cfg1.win 2).blk t).view.emb j) = _
  refine congrArg _ ?_
  funext a; apply Fin.ext
  match a with
  | ⟨0, _⟩ => show win1_2.index t (0 : Fin 2) * 128 + 1 * (j 0).val = (j 0).val; omega
  | ⟨1, _⟩ => show win1_2.index t (1 : Fin 2) * 64 + 1 * (j 1).val = (j 1).val; omega

theorem nodeArr_blk3 (c : Dev nD) (t : Fin cfg1.N) :
    (iblk1 V c 3 t : S64.Idx → EReal) = (V c main_arg10 : S64.Idx → EReal) := by
  obtain ⟨-, -, -, -, -, -, e0, -⟩ := nodeArr_idx t
  funext j
  show (V c main_arg10 : S64.Idx → EReal) (((cfg1.win 3).blk t).view.emb j) = _
  refine congrArg _ ?_
  funext a; apply Fin.ext
  match a with
  | ⟨0, _⟩ => show win1_3.index t (0 : Fin 1) * 64 + 1 * (j 0).val = (j 0).val; omega

theorem nodeArr_blk4 (c : Dev nD) (t : Fin cfg1.N) :
    (iblk1 V c 4 t : S64x64.Idx → EReal) = (V c main_arg11 : S64x64.Idx → EReal) := by
  obtain ⟨-, -, -, -, -, -, -, e0, e1, -⟩ := nodeArr_idx t
  funext j
  show (V c main_arg11 : S64x64.Idx → EReal) (((cfg1.win 4).blk t).view.emb j) = _
  refine congrArg _ ?_
  funext a; apply Fin.ext
  match a with
  | ⟨0, _⟩ => show win1_4.index t (0 : Fin 2) * 64 + 1 * (j 0).val = (j 0).val; omega
  | ⟨1, _⟩ => show win1_4.index t (1 : Fin 2) * 64 + 1 * (j 1).val = (j 1).val; omega

theorem nodeArr_blk5 (c : Dev nD) (t : Fin cfg1.N) :
    (iblk1 V c 5 t : S64.Idx → EReal) = (V c main_arg12 : S64.Idx → EReal) := by
  obtain ⟨-, -, -, -, -, -, -, -, -, e0, -⟩ := nodeArr_idx t
  funext j
  show (V c main_arg12 : S64.Idx → EReal) (((cfg1.win 5).blk t).view.emb j) = _
  refine congrArg _ ?_
  funext a; apply Fin.ext
  match a with
  | ⟨0, _⟩ => show win1_5.index t (0 : Fin 1) * 64 + 1 * (j 0).val = (j 0).val; omega

theorem nodeArr_blk6 (c : Dev nD) (t : Fin cfg1.N) :
    (iblk1 V c 6 t : S64.Idx → EReal) = (V c main_arg13 : S64.Idx → EReal) := by
  obtain ⟨-, -, -, -, -, -, -, -, -, -, e0, -⟩ := nodeArr_idx t
  funext j
  show (V c main_arg13 : S64.Idx → EReal) (((cfg1.win 6).blk t).view.emb j) = _
  refine congrArg _ ?_
  funext a; apply Fin.ext
  match a with
  | ⟨0, _⟩ => show win1_6.index t (0 : Fin 1) * 64 + 1 * (j 0).val = (j 0).val; omega

theorem nodeArr_blk7 (c : Dev nD) (t : Fin cfg1.N) :
    (iblk1 V c 7 t : S64.Idx → EReal) = (V c main_arg14 : S64.Idx → EReal) := by
  obtain ⟨-, -, -, -, -, -, -, -, -, -, -, e0, -⟩ := nodeArr_idx t
  funext j
  show (V c main_arg14 : S64.Idx → EReal) (((cfg1.win 7).blk t).view.emb j) = _
  refine congrArg _ ?_
  funext a; apply Fin.ext
  match a with
  | ⟨0, _⟩ => show win1_7.index t (0 : Fin 1) * 64 + 1 * (j 0).val = (j 0).val; omega

/-- The whole-array function the node region's output ends holding. -/
abbrev nodeArr_out (c : Dev nD) : S100000x64.Idx → EReal :=
  NodeG (N := 100000) (V c main_v39) (V c main_arg0) (V c main_arg9) (V c main_arg10) (V c main_arg11)
    (V c main_arg12) (V c main_arg13) (V c main_arg14)

/-- What point `t` writes back is block `t` of `nodeArr_out`: rows `5000·t … 5000·t + 4999`. -/
theorem nodeArr_flushed (c : Dev nD) (t : Fin cfg1.N) :
    (dat1 V c).flushed 8 t = ((cfg1.win 8).blk t).view.read (Elt Ideal) (nodeArr_out V c) := by
  show (cfg1.win 8).cut (grid1.coords t) ((dat1 V c).after 8 t) = _
  rw [after1_8, out1_8_eq]
  have e8 := (nodeArr_idx t).2.2.2.2.2.2.2.2.2.2.2.2
  obtain ⟨e0, e1⟩ := e8
  have ht : t.val < 20 := lt_of_lt_of_eq t.isLt nodeArr_N
  funext j
  obtain ⟨p, q, rfl⟩ : ∃ (p : Fin 5000) (q : Fin 64), (j : S5000x64.Idx) = ix2 p q := ⟨j 0, j 1, eq_ix2 j⟩
  have hr : 5000 * t.val + p.val < 100000 := by have := p.isLt; omega
  have hemb : ((cfg1.win 8).blk t).view.emb (ix2 p q) = (ix2 ⟨5000 * t.val + p.val, hr⟩ q : S100000x64.Idx) := by
    funext a; apply Fin.ext
    match a with
    | ⟨0, _⟩ => show win1_8.index t (0 : Fin 2) * 5000 + 1 * p.val = 5000 * t.val + p.val; omega
    | ⟨1, _⟩ => show win1_8.index t (1 : Fin 2) * 64 + 1 * q.val = q.val; omega
  show NodeG (N := 5000) (iblk1 V c 0 t) (iblk1 V c 1 t) (iblk1 V c 2 t) (iblk1 V c 3 t) (iblk1 V c 4 t) (iblk1 V c 5 t)
      (iblk1 V c 6 t) (iblk1 V c 7 t) (ix2 p q)
    = nodeArr_out V c (((cfg1.win 8).blk t).view.emb (ix2 p q))
  rw [hemb]
  exact nodeArr_row_congr _ _ _ _ _ _ _ _ _ _ _ _ _ _ _ _ p ⟨5000 * t.val + p.val, hr⟩ q
    (fun k => nodeArr_blk0 V c t p k _ rfl) (fun k => nodeArr_blk1 V c t p k _ rfl)
    (nodeArr_blk2 V c t) (nodeArr_blk3 V c t) (nodeArr_blk4 V c t) (nodeArr_blk5 V c t) (nodeArr_blk6 V c t) (nodeArr_blk7 V c t)

/-- An index of the output array is in point `t`'s block iff each coordinate is in the block's range on its axis. -/
theorem nodeArr_mem_blk (t : Fin cfg1.N) (i : S100000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v40).slice (win1_8.rect t)).set ↔ _
  rw [View.set_slice_whole, Rect.mem_set_unit]
  exact Iff.rfl

/-- Every row of the output array is some point's: row `r` is in the block of point `r / 5000`. -/
theorem nodeArr_cover (i : S100000x64.Idx) :
    ∃ t : Fin cfg1.N, (cfg1.win 8).flush t = true ∧ i ∈ ((cfg1.win 8).blk t).view.set := by
  have hi0 : (i 0).val < 100000 := (i 0).isLt
  have hi1 : (i 1).val < 64 := (i 1).isLt
  have hN : (i 0).val / 5000 < cfg1.N := by rw [nodeArr_N]; omega
  refine ⟨⟨(i 0).val / 5000, hN⟩, flush1_8 _, ?_⟩
  have e8 := (nodeArr_idx ⟨(i 0).val / 5000, hN⟩).2.2.2.2.2.2.2.2.2.2.2.2
  obtain ⟨e0, e1⟩ := e8
  rw [nodeArr_mem_blk]
  intro a
  match a with
  | ⟨0, _⟩ =>
    show win1_8.index ⟨(i 0).val / 5000, hN⟩ (0 : Fin 2) * 5000 ≤ (i 0).val ∧ (i 0).val < win1_8.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_8.index ⟨(i 0).val / 5000, hN⟩ (1 : Fin 2) * 64 ≤ (i 1).val ∧ (i 1).val < win1_8.index ⟨(i 0).val / 5000, hN⟩ (1 : Fin 2) * 64 + 64
    rw [e1]; omega

/-- The node region's output array after its 20 points, from whatever contents `V` the region is entered at. -/
theorem node_final (c : Dev nD) :
    (dat1 V c).arrAt 8 cfg1.N
      = NodeG (N := 100000) (V c main_v39) (V c main_arg0) (V c main_arg9) (V c main_arg10) (V c main_arg11)
          (V c main_arg12) (V c main_arg13) (V c main_arg14) :=
  (dat1 V c).arrAt_eq_of_cover 8 (nodeArr_out V c) (fun t _ => nodeArr_flushed V c t) nodeArr_cover

end Cert.KernelIdeal.Layer

end
-- ==== Proof.KernelValue.lean ====
/- The kernel program's result as ONE function of the argument arrays.
   The node region's output array is `NodeG` of its operands as the region finds them; the first of these is the scatter-add
   of the edge region's output array, which is `EdgeG` of ITS operands as that region finds them: the gathered endpoint
   features and squared distances. Every other operand is an argument array, untouched since the launch. -/
import proofs.«145584_j40596030882310_1_alg».proof.Proof.KernelRun
import proofs.«145584_j40596030882310_1_alg».proof.Proof.KernelHost
import proofs.«145584_j40596030882310_1_alg».proof.Proof.EdgeArray
import proofs.«145584_j40596030882310_1_alg».proof.Proof.NodeArray

set_option maxRecDepth 16384

noncomputable section

namespace Cert.KernelIdeal.Layer

open Cert.KernelIdeal Cert.KernelIdeal.Gen Cert.Layer
open Idealize.ShloMosaic Idealize.ShloMosaic.TcCoe Idealize.SL.Sem

/-- The layer as the kernel program computes it: node update of (messages aggregated at their destinations) and features. -/
def layerOut (h : FVec Ideal S100000x64 .f32) (x : FVec Ideal S100000x3 .f32) (ei : IVec S2x1600000 32)
    (We1 : FVec Ideal S128x64 .f32) (be1 : FVec Ideal S64 .f32) (We2 : FVec Ideal S64x64 .f32) (be2 : FVec Ideal S64 .f32)
    (Winf : FVec Ideal S64x1 .f32) (binf : FVec Ideal S1 .f32)
    (Wn1 : FVec Ideal S128x64 .f32) (bn1 : FVec Ideal S64 .f32) (Wn2 : FVec Ideal S64x64 .f32) (bn2 g b : FVec Ideal S64 .f32) :
    S100000x64.Idx → EReal :=
  NodeG (N := 100000)
    (kAgg (F := Ideal) (kDst ei) (EdgeG (E := 1600000) (kHi (F := Ideal) h ei) (kHj (F := Ideal) h ei) (kDsq (F := Ideal) x ei) We1 be1 We2 be2 Winf binf))
    h Wn1 bn1 Wn2 bn2 g b

variable (m : (ℓ : Loc nD τ sig) → Buf (Elt Ideal) ℓ) (ρ : Dev nD → PrngReg)

/-- The edge region's output array when the second host stretch reads it. -/
theorem edge_out (c : Dev nD) :
    W2 m ρ c (Proc.devRef .tc main_v36)
      = EdgeG (E := 1600000) (kHi (F := Ideal) (m ((c : Thread nD τ).loc main_arg0)) (m ((c : Thread nD τ).loc main_arg2))) (kHj (F := Ideal) (m ((c : Thread nD τ).loc main_arg0)) (m ((c : Thread nD τ).loc main_arg2)))
          (kDsq (F := Ideal) (m ((c : Thread nD τ).loc main_arg1)) (m ((c : Thread nD τ).loc main_arg2))) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  rw [show W2 m ρ c (Proc.devRef .tc main_v36) = (dat0 (V1 m ρ) c).arrAt 9 cfg0.N from W2_arr m ρ c 9]
  rw [edge_final (V1 m ρ) c, V1_hi, V1_hj, V1_dsq, V1_arg3, V1_arg4, V1_arg5, V1_arg6, V1_arg7, V1_arg8]

/-- The result buffer at the last boundary is the layer of the argument arrays. -/
theorem value (c : Dev nD) :
    W4 m ρ c (Proc.devRef .tc main_v40)
      = layerOut (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12)) (m ((c : Thread nD τ).loc main_arg13)) (m ((c : Thread nD τ).loc main_arg14)) := by
  rw [show W4 m ρ c (Proc.devRef .tc main_v40) = (dat1 (V3 m ρ) c).arrAt 8 cfg1.N from W4_arr m ρ c 8]
  rw [node_final (V3 m ρ) c, V3_agg, edge_out, V3_arg0, V3_arg9, V3_arg10, V3_arg11, V3_arg12, V3_arg13, V3_arg14]
  rfl

/-- Every weakly fair execution of the kernel program terminates, its result the layer of the argument arrays, the
    argument arrays unchanged. -/
theorem run : θ_run defs (onTc (τ := τ) (main (F := Ideal))) ⟨m, fun _ => 0, ρ⟩ (fun r => ∀ c : Dev nD,
      r.2.mem ((c.tc : Thread nD τ).loc main_v40)
        = layerOut (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (value m ρ c), (h c).2⟩) (run_named m ρ)

end Cert.KernelIdeal.Layer

end
-- ==== Proof.RefOps.lean ====
/- The reference program's @main as four consecutive lists of host operations, transcribed line by line from the printed program:
   each statement's operation as a list entry, each call replaced by its callee's statements over the call's record of buffers;
   and, per list, the tuple saying that every operation touches TensorCore buffers only (one library fact per operation kind).
   That @main IS the concatenation of these lists is proved where they are used. -/
import Idealize.ShloMosaic.Lib.StableHlo.Run
import proofs.«145584_j40596030882310_1_alg».proof.Proof.Gen.ReferenceIdeal

noncomputable section

namespace Cert.ReferenceIdeal.Layer

open Cert.ReferenceIdeal Cert.ReferenceIdeal.Gen Idealize.ShloMosaic Idealize.ShloMosaic.TcCoe Idealize.SL.Sem Idealize.ShloMosaic.StableHlo

variable {F : FTy → Type} [FloatOps F]

/-- The first stretch, %0 … %35: the two rows of the edge table, each wrapped into range, the four gathers and the squared distance. -/
abbrev ops0 : List (HloOp τ sig (Elt F)) :=
  [ unary main_arg2 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg2 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v3 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v3 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v3 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_c_1 (constantI S_ 32 0#32),
    unary main_c_1 main_v11 (broadcastInDim S1600000 ![] bcast_S_S1600000 : (⟨S_, .i32⟩ : BufTy).Contents (Elt F) → (⟨S1600000, .i32⟩ : BufTy).Contents (Elt F)),
    binary main_v1 main_v11 main_v12 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v13 (broadcastInDim S1600000 ![] bcast_S_S1600000 : (⟨S_, .i32⟩ : BufTy).Contents (Elt F) → (⟨S1600000, .i32⟩ : BufTy).Contents (Elt F)),
    binary main_v1 main_v13 main_v14 (addi : (⟨S1600000, .i32⟩ : BufTy).Contents (Elt F) → (⟨S1600000, .i32⟩ : BufTy).Contents (Elt F) → (⟨S1600000, .i32⟩ : BufTy).Contents (Elt F)),
    ternary main_v12 main_v14 main_v1 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v15 main_v16 (broadcastInDim S1600000x1 ![0] bcast_S1600000_S1600000x1_0 : (⟨S1600000, .i32⟩ : BufTy).Contents (Elt F) → (⟨S1600000x1, .i32⟩ : BufTy).Contents (Elt F)),
    binary main_arg0 main_v16 main_v17 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_c_3 (constantI S_ 32 0#32),
    unary main_c_3 main_v18 (broadcastInDim S1600000 ![] bcast_S_S1600000 : (⟨S_, .i32⟩ : BufTy).Contents (Elt F) → (⟨S1600000, .i32⟩ : BufTy).Contents (Elt F)),
    binary main_v3 main_v18 main_v19 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v20 (broadcastInDim S1600000 ![] bcast_S_S1600000 : (⟨S_, .i32⟩ : BufTy).Contents (Elt F) → (⟨S1600000, .i32⟩ : BufTy).Contents (Elt F)),
    binary main_v3 main_v20 main_v21 (addi : (⟨S1600000, .i32⟩ : BufTy).Contents (Elt F) → (⟨S1600000, .i32⟩ : BufTy).Contents (Elt F) → (⟨S1600000, .i32⟩ : BufTy).Contents (Elt F)),
    ternary main_v19 main_v21 main_v3 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v22 main_v23 (broadcastInDim S1600000x1 ![0] bcast_S1600000_S1600000x1_0 : (⟨S1600000, .i32⟩ : BufTy).Contents (Elt F) → (⟨S1600000x1, .i32⟩ : BufTy).Contents (Elt F)),
    binary main_arg1 main_v23 main_v24 ((fun x i => Host.gather gather_S100000x3_S1600000x1_S1600000x3_1_0_n_n_0_1_13 x i) : (⟨S100000x3, .f32⟩ : BufTy).Contents (Elt F) → (⟨S1600000x1, .i32⟩ : BufTy).Contents (Elt F) → (⟨S1600000x3, .f32⟩ : BufTy).Contents (Elt F)),
    nullary main_c_5 (constantI S_ 32 0#32),
    unary main_c_5 main_v25 (broadcastInDim S1600000 ![] bcast_S_S1600000 : (⟨S_, .i32⟩ : BufTy).Contents (Elt F) → (⟨S1600000, .i32⟩ : BufTy).Contents (Elt F)),
    binary main_v1 main_v25 main_v26 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v27 (broadcastInDim S1600000 ![] bcast_S_S1600000 : (⟨S_, .i32⟩ : BufTy).Contents (Elt F) → (⟨S1600000, .i32⟩ : BufTy).Contents (Elt F)),
    binary main_v1 main_v27 main_v28 (addi : (⟨S1600000, .i32⟩ : BufTy).Contents (Elt F) → (⟨S1600000, .i32⟩ : BufTy).Contents (Elt F) → (⟨S1600000, .i32⟩ : BufTy).Contents (Elt F)),
    ternary main_v26 main_v28 main_v1 main_v29 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v29 main_v30 (broadcastInDim S1600000x1 ![0] bcast_S1600000_S1600000x1_0 : (⟨S1600000, .i32⟩ : BufTy).Contents (Elt F) → (⟨S1600000x1, .i32⟩ : BufTy).Contents (Elt F)),
    binary main_arg1 main_v30 main_v31 ((fun x i => Host.gather gather_S100000x3_S1600000x1_S1600000x3_1_0_n_n_0_1_13 x i) : (⟨S100000x3, .f32⟩ : BufTy).Contents (Elt F) → (⟨S1600000x1, .i32⟩ : BufTy).Contents (Elt F) → (⟨S1600000x3, .f32⟩ : BufTy).Contents (Elt F)),
    binary main_v24 main_v31 main_v32 (subf : (⟨S1600000x3, .f32⟩ : BufTy).Contents (Elt F) → (⟨S1600000x3, .f32⟩ : BufTy).Contents (Elt F) → (⟨S1600000x3, .f32⟩ : BufTy).Contents (Elt F)),
    binary main_v32 main_v32 main_v33 (mulf : (⟨S1600000x3, .f32⟩ : BufTy).Contents (Elt F) → (⟨S1600000x3, .f32⟩ : BufTy).Contents (Elt F) → (⟨S1600000x3, .f32⟩ : BufTy).Contents (Elt F)),
    nullary main_cst (constant S_ .f32 0x00000000#32),
    binary main_v33 main_cst main_v34 ((fun x v => Host.reduceAdd x v reducesTo_S1600000x3_S1600000_d1 h_S_) : (⟨S1600000x3, .f32⟩ : BufTy).Contents (Elt F) → (⟨S_, .f32⟩ : BufTy).Contents (Elt F) → (⟨S1600000, .f32⟩ : BufTy).Contents (Elt F)),
    unary main_v34 main_v35 (broadcastInDim S1600000x1 ![0] bcast_S1600000_S1600000x1_0 : (⟨S1600000, .f32⟩ : BufTy).Contents (Elt F) → (⟨S1600000x1, .f32⟩ : BufTy).Contents (Elt F)) ]

/-- The second stretch, %36 … %70: the edge network and its two gates, `relu`'s three operations at each of its two calls. -/
abbrev ops1 : List (HloOp τ sig (Elt F)) :=
  [ binary main_v10 main_v17 main_v36 ((fun a b => concatenate S1600000x128 1 [⟨S1600000x64, a⟩, ⟨S1600000x64, b⟩] concatenates_S1600000x64_S1600000x64_S1600000x128_d1) : (⟨S1600000x64, .f32⟩ : BufTy).Contents (Elt F) → (⟨S1600000x64, .f32⟩ : BufTy).Contents (Elt F) → (⟨S1600000x128, .f32⟩ : BufTy).Contents (Elt F)),
    binary main_v36 main_arg3 main_v37 ((fun l r => Host.dotGeneral dot_S1600000x128_S128x64_S1600000x64_1_0_0_1_n_n none l r) : (⟨S1600000x128, .f32⟩ : BufTy).Contents (Elt F) → (⟨S128x64, .f32⟩ : BufTy).Contents (Elt F) → (⟨S1600000x64, .f32⟩ : BufTy).Contents (Elt F)),
    unary main_arg4 main_v38 (broadcastInDim S1x64 ![1] bcast_S64_S1x64_1 : (⟨S64, .f32⟩ : BufTy).Contents (Elt F) → (⟨S1x64, .f32⟩ : BufTy).Contents (Elt F)),
    unary main_v38 main_v39 (broadcastInDim S1600000x64 ![0, 1] bcast_S1x64_S1600000x64_0_1 : (⟨S1x64, .f32⟩ : BufTy).Contents (Elt F) → (⟨S1600000x64, .f32⟩ : BufTy).Contents (Elt F)),
    binary main_v37 main_v39 main_v40 (addf : (⟨S1600000x64, .f32⟩ : BufTy).Contents (Elt F) → (⟨S1600000x64, .f32⟩ : BufTy).Contents (Elt F) → (⟨S1600000x64, .f32⟩ : BufTy).Contents (Elt F)),
    TRef.nullary main_call0.cst (constant S_ .f32 0x00000000#32),
    TRef.unary main_call0.cst main_call0.v0 (broadcastInDim S1600000x64 ![] bcast_S_S1600000x64),
    TRef.binary (.of main_v40) main_call0.v0 main_call0.v1 maximumf,
    binary main_v41 main_arg5 main_v42 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    unary main_arg6 main_v43 (broadcastInDim S1x64 ![1] bcast_S64_S1x64_1 : (⟨S64, .f32⟩ : BufTy).Contents (Elt F) → (⟨S1x64, .f32⟩ : BufTy).Contents (Elt F)),
    unary main_v43 main_v44 (broadcastInDim S1600000x64 ![0, 1] bcast_S1x64_S1600000x64_0_1 : (⟨S1x64, .f32⟩ : BufTy).Contents (Elt F) → (⟨S1600000x64, .f32⟩ : BufTy).Contents (Elt F)),
    binary main_v42 main_v44 main_v45 (addf : (⟨S1600000x64, .f32⟩ : BufTy).Contents (Elt F) → (⟨S1600000x64, .f32⟩ : BufTy).Contents (Elt F) → (⟨S1600000x64, .f32⟩ : BufTy).Contents (Elt F)),
    TRef.nullary main_call1.cst (constant S_ .f32 0x00000000#32),
    TRef.unary main_call1.cst main_call1.v0 (broadcastInDim S1600000x64 ![] bcast_S_S1600000x64),
    TRef.binary (.of main_v45) main_call1.v0 main_call1.v1 maximumf,
    binary main_v46 main_arg7 main_v47 ((fun l r => Host.dotGeneral dot_S1600000x64_S64x1_S1600000x1_1_0_0_1_n_n none l r) : (⟨S1600000x64, .f32⟩ : BufTy).Contents (Elt F) → (⟨S64x1, .f32⟩ : BufTy).Contents (Elt F) → (⟨S1600000x1, .f32⟩ : BufTy).Contents (Elt F)),
    unary main_arg8 main_v48 (broadcastInDim S1x1 ![1] bcast_S1_S1x1_1 : (⟨S1, .f32⟩ : BufTy).Contents (Elt F) → (⟨S1x1, .f32⟩ : BufTy).Contents (Elt F)),
    unary main_v48 main_v49 (broadcastInDim S1600000x1 ![0, 1] bcast_S1x1_S1600000x1_0_1 : (⟨S1x1, .f32⟩ : BufTy).Contents (Elt F) → (⟨S1600000x1, .f32⟩ : BufTy).Contents (Elt F)),
    binary main_v47 main_v49 main_v50 (addf : (⟨S1600000x1, .f32⟩ : BufTy).Contents (Elt F) → (⟨S1600000x1, .f32⟩ : BufTy).Contents (Elt F) → (⟨S1600000x1, .f32⟩ : BufTy).Contents (Elt F)),
    unary main_v35 main_v51 (Host.sqrt : (⟨S1600000x1, .f32⟩ : BufTy).Contents (Elt F) → (⟨S1600000x1, .f32⟩ : BufTy).Contents (Elt F)),
    nullary main_cst_7 (constant S_ .f32 0x322BCC77#32),
    unary main_cst_7 main_v52 (broadcastInDim S1600000x1 ![] bcast_S_S1600000x1 : (⟨S_, .f32⟩ : BufTy).Contents (Elt F) → (⟨S1600000x1, .f32⟩ : BufTy).Contents (Elt F)),
    binary main_v51 main_v52 main_v53 (addf : (⟨S1600000x1, .f32⟩ : BufTy).Contents (Elt F) → (⟨S1600000x1, .f32⟩ : BufTy).Contents (Elt F) → (⟨S1600000x1, .f32⟩ : BufTy).Contents (Elt F)),
    nullary main_cst_8 (constant S_ .f32 0x41F00000#32),
    unary main_cst_8 main_v54 (broadcastInDim S1600000x1 ![] bcast_S_S1600000x1 : (⟨S_, .f32⟩ : BufTy).Contents (Elt F) → (⟨S1600000x1, .f32⟩ : BufTy).Contents (Elt F)),
    binary main_v54 main_v53 main_v55 (Host.divf : (⟨S1600000x1, .f32⟩ : BufTy).Contents (Elt F) → (⟨S1600000x1, .f32⟩ : BufTy).Contents (Elt F) → (⟨S1600000x1, .f32⟩ : BufTy).Contents (Elt F)),
    unary main_v55 main_v56 (Host.negf : (⟨S1600000x1, .f32⟩ : BufTy).Contents (Elt F) → (⟨S1600000x1, .f32⟩ : BufTy).Contents (Elt F)),
    unary main_v56 main_v57 (Host.exp : (⟨S1600000x1, .f32⟩ : BufTy).Contents (Elt F) → (⟨S1600000x1, .f32⟩ : BufTy).Contents (Elt F)),
    nullary main_cst_9 (constant S_ .f32 0x3F800000#32),
    unary main_cst_9 main_v58 (broadcastInDim S1600000x1 ![] bcast_S_S1600000x1 : (⟨S_, .f32⟩ : BufTy).Contents (Elt F) → (⟨S1600000x1, .f32⟩ : BufTy).Contents (Elt F)),
    binary main_v58 main_v57 main_v59 (addf : (⟨S1600000x1, .f32⟩ : BufTy).Contents (Elt F) → (⟨S1600000x1, .f32⟩ : BufTy).Contents (Elt F) → (⟨S1600000x1, .f32⟩ : BufTy).Contents (Elt F)),
    nullary main_cst_10 (constant S_ .f32 0x3F800000#32),
    unary main_cst_10 main_v60 (broadcastInDim S1600000x1 ![] bcast_S_S1600000x1 : (⟨S_, .f32⟩ : BufTy).Contents (Elt F) → (⟨S1600000x1, .f32⟩ : BufTy).Contents (Elt F)),
    binary main_v60 main_v59 main_v61 (Host.divf : (⟨S1600000x1, .f32⟩ : BufTy).Contents (Elt F) → (⟨S1600000x1, .f32⟩ : BufTy).Contents (Elt F) → (⟨S1600000x1, .f32⟩ : BufTy).Contents (Elt F)),
    binary main_v50 main_v61 main_v62 (mulf : (⟨S1600000x1, .f32⟩ : BufTy).Contents (Elt F) → (⟨S1600000x1, .f32⟩ : BufTy).Contents (Elt F) → (⟨S1600000x1, .f32⟩ : BufTy).Contents (Elt F)),
    unary main_v62 main_v63 (Host.negf : (⟨S1600000x1, .f32⟩ : BufTy).Contents (Elt F) → (⟨S1600000x1, .f32⟩ : BufTy).Contents (Elt F)),
    unary main_v63 main_v64 (Host.exp : (⟨S1600000x1, .f32⟩ : BufTy).Contents (Elt F) → (⟨S1600000x1, .f32⟩ : BufTy).Contents (Elt F)),
    nullary main_cst_11 (constant S_ .f32 0x3F800000#32),
    unary main_cst_11 main_v65 (broadcastInDim S1600000x1 ![] bcast_S_S1600000x1 : (⟨S_, .f32⟩ : BufTy).Contents (Elt F) → (⟨S1600000x1, .f32⟩ : BufTy).Contents (Elt F)),
    binary main_v65 main_v64 main_v66 (addf : (⟨S1600000x1, .f32⟩ : BufTy).Contents (Elt F) → (⟨S1600000x1, .f32⟩ : BufTy).Contents (Elt F) → (⟨S1600000x1, .f32⟩ : BufTy).Contents (Elt F)),
    nullary main_cst_12 (constant S_ .f32 0x3F800000#32),
    unary main_cst_12 main_v67 (broadcastInDim S1600000x1 ![] bcast_S_S1600000x1 : (⟨S_, .f32⟩ : BufTy).Contents (Elt F) → (⟨S1600000x1, .f32⟩ : BufTy).Contents (Elt F)),
    binary main_v67 main_v66 main_v68 (Host.divf : (⟨S1600000x1, .f32⟩ : BufTy).Contents (Elt F) → (⟨S1600000x1, .f32⟩ : BufTy).Contents (Elt F) → (⟨S1600000x1, .f32⟩ : BufTy).Contents (Elt F)),
    unary main_v68 main_v69 (broadcastInDim S1600000x64 ![0, 1] bcast_S1600000x1_S1600000x64_0_1 : (⟨S1600000x1, .f32⟩ : BufTy).Contents (Elt F) → (⟨S1600000x64, .f32⟩ : BufTy).Contents (Elt F)),
    binary main_v46 main_v69 main_v70 (mulf : (⟨S1600000x64, .f32⟩ : BufTy).Contents (Elt F) → (⟨S1600000x64, .f32⟩ : BufTy).Contents (Elt F) → (⟨S1600000x64, .f32⟩ : BufTy).Contents (Elt F)) ]

/-- The third stretch, %71 … %73: the zero array, the target row as a column, the sum of the messages by target. -/
abbrev ops2 : List (HloOp τ sig (Elt F)) :=
  [ nullary main_cst_13 (constant S_ .f32 0x00000000#32),
    unary main_cst_13 main_v71 (broadcastInDim S100000x64 ![] bcast_S_S100000x64 : (⟨S_, .f32⟩ : BufTy).Contents (Elt F) → (⟨S100000x64, .f32⟩ : BufTy).Contents (Elt F)),
    unary main_v3 main_v72 (broadcastInDim S1600000x1 ![0] bcast_S1600000_S1600000x1_0 : (⟨S1600000, .i32⟩ : BufTy).Contents (Elt F) → (⟨S1600000x1, .i32⟩ : BufTy).Contents (Elt F)),
    ternary main_v71 main_v72 main_v70 main_v73 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The fourth stretch, %74 … %102: the node network, the residual and the normalisation, `relu_0`'s three operations and `_var`'s (with `_where`'s inside) at their calls. -/
abbrev ops3 : List (HloOp τ sig (Elt F)) :=
  [ binary main_v73 main_arg0 main_v74 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    binary main_v74 main_arg9 main_v75 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg10 main_v76 (broadcastInDim S1x64 ![1] bcast_S64_S1x64_1 : (⟨S64, .f32⟩ : BufTy).Contents (Elt F) → (⟨S1x64, .f32⟩ : BufTy).Contents (Elt F)),
    unary main_v76 main_v77 (broadcastInDim S100000x64 ![0, 1] bcast_S1x64_S100000x64_0_1 : (⟨S1x64, .f32⟩ : BufTy).Contents (Elt F) → (⟨S100000x64, .f32⟩ : BufTy).Contents (Elt F)),
    binary main_v75 main_v77 main_v78 (addf : (⟨S100000x64, .f32⟩ : BufTy).Contents (Elt F) → (⟨S100000x64, .f32⟩ : BufTy).Contents (Elt F) → (⟨S100000x64, .f32⟩ : BufTy).Contents (Elt F)),
    TRef.nullary main_call2.cst (constant S_ .f32 0x00000000#32),
    TRef.unary main_call2.cst main_call2.v0 (broadcastInDim S100000x64 ![] bcast_S_S100000x64),
    TRef.binary (.of main_v78) main_call2.v0 main_call2.v1 maximumf,
    binary main_v79 main_arg11 main_v80 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg12 main_v81 (broadcastInDim S1x64 ![1] bcast_S64_S1x64_1 : (⟨S64, .f32⟩ : BufTy).Contents (Elt F) → (⟨S1x64, .f32⟩ : BufTy).Contents (Elt F)),
    unary main_v81 main_v82 (broadcastInDim S100000x64 ![0, 1] bcast_S1x64_S100000x64_0_1 : (⟨S1x64, .f32⟩ : BufTy).Contents (Elt F) → (⟨S100000x64, .f32⟩ : BufTy).Contents (Elt F)),
    binary main_v80 main_v82 main_v83 (addf : (⟨S100000x64, .f32⟩ : BufTy).Contents (Elt F) → (⟨S100000x64, .f32⟩ : BufTy).Contents (Elt F) → (⟨S100000x64, .f32⟩ : BufTy).Contents (Elt F)),
    binary main_arg0 main_v83 main_v84 (addf : (⟨S100000x64, .f32⟩ : BufTy).Contents (Elt F) → (⟨S100000x64, .f32⟩ : BufTy).Contents (Elt F) → (⟨S100000x64, .f32⟩ : BufTy).Contents (Elt F)),
    nullary main_cst_14 (constant S_ .f32 0x00000000#32),
    binary main_v84 main_cst_14 main_v85 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v85 main_v86 (broadcastInDim S100000x1 ![0] bcast_S100000_S100000x1_0 : (⟨S100000, .f32⟩ : BufTy).Contents (Elt F) → (⟨S100000x1, .f32⟩ : BufTy).Contents (Elt F)),
    nullary main_cst_15 (constant S_ .f32 0x42800000#32),
    unary main_cst_15 main_v87 (broadcastInDim S100000x1 ![] bcast_S_S100000x1 : (⟨S_, .f32⟩ : BufTy).Contents (Elt F) → (⟨S100000x1, .f32⟩ : BufTy).Contents (Elt F)),
    binary main_v86 main_v87 main_v88 (Host.divf : (⟨S100000x1, .f32⟩ : BufTy).Contents (Elt F) → (⟨S100000x1, .f32⟩ : BufTy).Contents (Elt F) → (⟨S100000x1, .f32⟩ : BufTy).Contents (Elt F)),
    nullary main_c_16 (constantI S_ 32 0#32),
    TRef.nullary main_call3.cst (constant S_ .f32 0x00000000#32),
    TRef.binary (.of main_v84) main_call3.cst main_call3.v0 (fun x v => Host.reduceAdd x v reducesTo_S100000x64_S100000_d1 h_S_),
    TRef.unary main_call3.v0 main_call3.v1 (broadcastInDim S100000x1 ![0] bcast_S100000_S100000x1_0),
    TRef.nullary main_call3.cst_0 (constant S_ .f32 0x42800000#32),
    TRef.unary main_call3.cst_0 main_call3.v2 (broadcastInDim S100000x1 ![] bcast_S_S100000x1),
    TRef.binary main_call3.v1 main_call3.v2 main_call3.v3 Host.divf,
    TRef.unary main_call3.v3 main_call3.v4 (broadcastInDim S100000x64 ![0, 1] bcast_S100000x1_S100000x64_0_1),
    TRef.binary (.of main_v84) main_call3.v4 main_call3.v5 subf,
    TRef.binary main_call3.v5 main_call3.v5 main_call3.v6 mulf,
    TRef.unary (.of main_c_16) main_call3.v7 (sitofp .f32),
    TRef.nullary main_call3.cst_1 (constant S_ .f32 0x42800000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S100000x64_S100000_d1 h_S_),
    TRef.unary main_call3.v9 main_call3.v10 (broadcastInDim S100000x1 ![0] bcast_S100000_S100000x1_0),
    TRef.unary main_call3.v8 main_call3.v11 (broadcastInDim S100000x1 ![] bcast_S_S100000x1),
    TRef.binary main_call3.v10 main_call3.v11 main_call3.v12 Host.divf,
    TRef.nullary main_call3.cst_3 (constant S_ .f32 0x00000000#32),
    TRef.binary main_call3.v8 main_call3.cst_3 main_call3.v13 (cmpf .ogt),
    TRef.nullary main_call3.cst_4 (constant S_ .f32 0x7FC00000#32),
    TRef.unary main_call3.cst_4 main_call3.call0.v0 id,
    TRef.unary main_call3.call0.v0 main_call3.call0.v1 (broadcastInDim S100000x1 ![] bcast_S_S100000x1),
    TRef.ternary main_call3.v13 main_call3.v12 main_call3.call0.v1 main_call3.call0.v2 (fun p a b => select (broadcastInDim S100000x1 ![] bcast_S_S100000x1 p) a b),
    unary main_v88 main_v90 (broadcastInDim S100000x64 ![0, 1] bcast_S100000x1_S100000x64_0_1 : (⟨S100000x1, .f32⟩ : BufTy).Contents (Elt F) → (⟨S100000x64, .f32⟩ : BufTy).Contents (Elt F)),
    binary main_v84 main_v90 main_v91 (subf : (⟨S100000x64, .f32⟩ : BufTy).Contents (Elt F) → (⟨S100000x64, .f32⟩ : BufTy).Contents (Elt F) → (⟨S100000x64, .f32⟩ : BufTy).Contents (Elt F)),
    nullary main_cst_17 (constant S_ .f32 0x3727C5AC#32),
    unary main_cst_17 main_v92 (broadcastInDim S100000x1 ![] bcast_S_S100000x1 : (⟨S_, .f32⟩ : BufTy).Contents (Elt F) → (⟨S100000x1, .f32⟩ : BufTy).Contents (Elt F)),
    binary main_v89 main_v92 main_v93 (addf : (⟨S100000x1, .f32⟩ : BufTy).Contents (Elt F) → (⟨S100000x1, .f32⟩ : BufTy).Contents (Elt F) → (⟨S100000x1, .f32⟩ : BufTy).Contents (Elt F)),
    unary main_v93 main_v94 (Host.rsqrt : (⟨S100000x1, .f32⟩ : BufTy).Contents (Elt F) → (⟨S100000x1, .f32⟩ : BufTy).Contents (Elt F)),
    unary main_v94 main_v95 (broadcastInDim S100000x64 ![0, 1] bcast_S100000x1_S100000x64_0_1 : (⟨S100000x1, .f32⟩ : BufTy).Contents (Elt F) → (⟨S100000x64, .f32⟩ : BufTy).Contents (Elt F)),
    binary main_v91 main_v95 main_v96 (mulf : (⟨S100000x64, .f32⟩ : BufTy).Contents (Elt F) → (⟨S100000x64, .f32⟩ : BufTy).Contents (Elt F) → (⟨S100000x64, .f32⟩ : BufTy).Contents (Elt F)),
    unary main_arg13 main_v97 (broadcastInDim S1x64 ![1] bcast_S64_S1x64_1 : (⟨S64, .f32⟩ : BufTy).Contents (Elt F) → (⟨S1x64, .f32⟩ : BufTy).Contents (Elt F)),
    unary main_v97 main_v98 (broadcastInDim S100000x64 ![0, 1] bcast_S1x64_S100000x64_0_1 : (⟨S1x64, .f32⟩ : BufTy).Contents (Elt F) → (⟨S100000x64, .f32⟩ : BufTy).Contents (Elt F)),
    binary main_v96 main_v98 main_v99 (mulf : (⟨S100000x64, .f32⟩ : BufTy).Contents (Elt F) → (⟨S100000x64, .f32⟩ : BufTy).Contents (Elt F) → (⟨S100000x64, .f32⟩ : BufTy).Contents (Elt F)),
    unary main_arg14 main_v100 (broadcastInDim S1x64 ![1] bcast_S64_S1x64_1 : (⟨S64, .f32⟩ : BufTy).Contents (Elt F) → (⟨S1x64, .f32⟩ : BufTy).Contents (Elt F)),
    unary main_v100 main_v101 (broadcastInDim S100000x64 ![0, 1] bcast_S1x64_S100000x64_0_1 : (⟨S1x64, .f32⟩ : BufTy).Contents (Elt F) → (⟨S100000x64, .f32⟩ : BufTy).Contents (Elt F)),
    binary main_v99 main_v101 main_v102 (addf : (⟨S100000x64, .f32⟩ : BufTy).Contents (Elt F) → (⟨S100000x64, .f32⟩ : BufTy).Contents (Elt F) → (⟨S100000x64, .f32⟩ : BufTy).Contents (Elt F)) ]

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub ..⟩

theorem ops1_sub : (ops1 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩

theorem ops2_sub : (ops2 : List (HloOp τ sig (Elt F))).Forall fun op => op.bufs ⊆ tcRefs τ sig :=
  ⟨nullary_bufs_sub .., unary_bufs_sub .., unary_bufs_sub .., ternary_bufs_sub ..⟩

theorem ops3_sub : (ops3 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

end Cert.ReferenceIdeal.Layer

end
-- ==== Proof.RefRun.lean ====
/-
  The reference program's @main as a straight line of host operations, and its run.

  @main calls four outlined functions (`relu` twice, `relu_0`, `_var`, which itself calls `_where`). A call runs the callee's
  body on the call's own buffers, so the program is ONE line of 151 operations: @main's 119 with each callee's operations in
  the place of its call, over the call's record of buffers. The line is written as four consecutive stretches — the gathers and
  the squared distance; the edge network; the sum by target node; the node network — so that each stretch's results can be read
  on their own from whatever the stretch before left.

  `main_eq`: @main is that line (the callee's definitions unfolded at the calls, sequencing reassociated).
  `run_main`: every weakly fair execution terminates with every buffer at the fold of the operations over the launch contents.
-/
import Idealize.ShloMosaic.Lib.StableHlo.Run
import proofs.«145584_j40596030882310_1_alg».proof.Proof.Gen.ReferenceIdeal
import proofs.«145584_j40596030882310_1_alg».proof.Proof.RefOps

noncomputable section

namespace Cert.ReferenceIdeal.Layer

open Cert.ReferenceIdeal Cert.ReferenceIdeal.Gen Idealize.ShloMosaic Idealize.ShloMosaic.TcCoe Idealize.SL.Sem Idealize.ShloMosaic.StableHlo

variable {F : FTy → Type} [FloatOps F]

/-- @main's 151 operations, in order. -/
abbrev ops : List (HloOp τ sig (Elt F)) := ops0 ++ (ops1 ++ (ops2 ++ ops3))

/-- The fold over two lines one after the other is the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A property of every operation of two lines holds of every operation of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

-- a hundred and fifty binds re-associated: the rewrite under the chain recurses once per statement
set_option maxRecDepth 8192 in
set_option maxHeartbeats 4000000 in
/-- @main is that straight line: its three windows and the callees' definitions unfolded, the records read at their fields,
    both sides are one chain of `hlo` steps once sequencing is reassociated. -/
theorem main_eq (c : Dev nD) : main (F := F) c = seq ops := by
  simp only [main, main_part0, main_part1, main_part2, fn_relu.body, fn_relu_0.body, fn_where.body, fn_var.body,
    ops, ops0, ops1, ops2, ops3, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  forall_append ops0_sub (forall_append ops1_sub (forall_append ops2_sub ops3_sub))

theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

theorem ops2_fresh : ∀ op ∈ (ops2 : List (HloOp τ sig (Elt F))), op.fresh = ∅ := by
  intro _ h; (repeat (cases h with | head => rfl | tail _ h => ?_)); exact nomatch h

theorem ops3_fresh : ∀ op ∈ (ops3 : List (HloOp τ sig (Elt F))), op.fresh = ∅ := by
  intro _ h; (repeat (cases h with | head => rfl | tail _ h => ?_)); exact nomatch h

/-- No operation leaves a result undetermined. -/
theorem ops_fresh : ∀ op ∈ (ops : List (HloOp τ sig (Elt F))), op.fresh = ∅ := fun op h =>
  (List.mem_append.mp h).elim (ops0_fresh op) fun h => (List.mem_append.mp h).elim (ops1_fresh op) fun h =>
    (List.mem_append.mp h).elim (ops2_fresh op) (ops3_fresh op)

/-- At the compiled mesh, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Layer

end
-- ==== Proof.RefEdge.lean ====
/- The reference's edge stage read entry by entry.  From the two gathered endpoint feature arrays, the squared distances and the
   six edge parameters, the reference concatenates the endpoint rows, applies two affine layers each followed by max(·, 0),
   forms the scalar gate σ((m₂·w + β) · σ(30 / (√d + ε))) per edge with σ(x) = 1 / (1 + e⁻ˣ), and scales the second hidden row by
   the gate.  `refEdge` is that composition of whole-array operations; `refEdge_eq` says that its entry in row p and
   column q is the row function `edgeRow` of row p of the operands, read at q. -/
import proofs.«145584_j40596030882310_1_alg».proof.ReferenceIdeal
import proofs.«145584_j40596030882310_1_alg».proof.Proof.Spec
import Idealize.ShloMosaic.Lib.ValueIdx
import Idealize.ShloMosaic.Lib.Pipeline.Value
import Idealize.ShloMosaic.PureOps.Ideal.Laws
import Idealize.ShloMosaic.Lib.StackMember
import Idealize.ShloMosaic.Lib.IdealHost
import Idealize.ShloMosaic.Lib.KernelVsHost

noncomputable section

open scoped BigOperators

namespace Cert.ReferenceIdeal.Layer

open Cert.ReferenceIdeal Cert.Layer
open Idealize.ShloMosaic Idealize.ShloMosaic.ValueIdx Idealize.SL.Sem
open Cert.ReferenceIdeal.Facts₀ Cert.ReferenceIdeal.Facts

section Def

variable {F : FTy → Type} [FloatOps F] [Facts]

/-- The reference's edge stage as one term: the concatenation of the endpoint rows, the two hidden layers, the gate and
    the scaled second hidden row, operation by operation. -/
def refEdge (hi hj : FVec F S1600000x64 .f32) (dsq : FVec F S1600000x1 .f32) (W1 : FVec F S128x64 .f32)
    (b1 : FVec F S64 .f32) (W2 : FVec F S64x64 .f32) (b2 : FVec F S64 .f32) (w : FVec F S64x1 .f32)
    (b : FVec F S1 .f32) : FVec F S1600000x64 .f32 :=
  -- the endpoint rows side by side
  let v36 : FVec F S1600000x128 .f32 :=
    concatenate S1600000x128 1 [⟨S1600000x64, hi⟩, ⟨S1600000x64, hj⟩] concatenates_S1600000x64_S1600000x64_S1600000x128_d1
  -- the first layer: product, bias along the rows, max with zero
  let v37 : FVec F S1600000x64 .f32 := Host.dotGeneral dot_S1600000x128_S128x64_S1600000x64_1_0_0_1_n_n none v36 W1
  let v38 : FVec F S1x64 .f32 := broadcastInDim S1x64 ![1] bcast_S64_S1x64_1 b1
  let v39 : FVec F S1600000x64 .f32 := broadcastInDim S1600000x64 ![0, 1] bcast_S1x64_S1600000x64_0_1 v38
  let v40 : FVec F S1600000x64 .f32 := addf v37 v39
  let v41 : FVec F S1600000x64 .f32 :=
    maximumf v40 (broadcastInDim S1600000x64 ![] bcast_S_S1600000x64 (constant (F := F) S_ .f32 0x00000000#32))
  -- the second layer
  let v42 : FVec F S1600000x64 .f32 := Host.dotGeneral dot_S1600000x64_S64x64_S1600000x64_1_0_0_1_n_n none v41 W2
  let v43 : FVec F S1x64 .f32 := broadcastInDim S1x64 ![1] bcast_S64_S1x64_1 b2
  let v44 : FVec F S1600000x64 .f32 := broadcastInDim S1600000x64 ![0, 1] bcast_S1x64_S1600000x64_0_1 v43
  let v45 : FVec F S1600000x64 .f32 := addf v42 v44
  let v46 : FVec F S1600000x64 .f32 :=
    maximumf v45 (broadcastInDim S1600000x64 ![] bcast_S_S1600000x64 (constant (F := F) S_ .f32 0x00000000#32))
  -- the gate's linear part
  let v47 : FVec F S1600000x1 .f32 := Host.dotGeneral dot_S1600000x64_S64x1_S1600000x1_1_0_0_1_n_n none v46 w
  let v48 : FVec F S1x1 .f32 := broadcastInDim S1x1 ![1] bcast_S1_S1x1_1 b
  let v49 : FVec F S1600000x1 .f32 := broadcastInDim S1600000x1 ![0, 1] bcast_S1x1_S1600000x1_0_1 v48
  let v50 : FVec F S1600000x1 .f32 := addf v47 v49
  -- the distance envelope σ(30 / (√d + ε))
  let v51 : FVec F S1600000x1 .f32 := Host.sqrt dsq
  let v52 : FVec F S1600000x1 .f32 := broadcastInDim S1600000x1 ![] bcast_S_S1600000x1 (constant (F := F) S_ .f32 0x322BCC77#32)
  let v53 : FVec F S1600000x1 .f32 := addf v51 v52
  let v54 : FVec F S1600000x1 .f32 := broadcastInDim S1600000x1 ![] bcast_S_S1600000x1 (constant (F := F) S_ .f32 0x41F00000#32)
  let v55 : FVec F S1600000x1 .f32 := Host.divf v54 v53
  let v56 : FVec F S1600000x1 .f32 := Host.negf v55
  let v57 : FVec F S1600000x1 .f32 := Host.exp v56
  let v58 : FVec F S1600000x1 .f32 := broadcastInDim S1600000x1 ![] bcast_S_S1600000x1 (constant (F := F) S_ .f32 0x3F800000#32)
  let v59 : FVec F S1600000x1 .f32 := addf v58 v57
  let v60 : FVec F S1600000x1 .f32 := broadcastInDim S1600000x1 ![] bcast_S_S1600000x1 (constant (F := F) S_ .f32 0x3F800000#32)
  let v61 : FVec F S1600000x1 .f32 := Host.divf v60 v59
  -- the gate σ(linear part · envelope)
  let v62 : FVec F S1600000x1 .f32 := mulf v50 v61
  let v63 : FVec F S1600000x1 .f32 := Host.negf v62
  let v64 : FVec F S1600000x1 .f32 := Host.exp v63
  let v65 : FVec F S1600000x1 .f32 := broadcastInDim S1600000x1 ![] bcast_S_S1600000x1 (constant (F := F) S_ .f32 0x3F800000#32)
  let v66 : FVec F S1600000x1 .f32 := addf v65 v64
  let v67 : FVec F S1600000x1 .f32 := broadcastInDim S1600000x1 ![] bcast_S_S1600000x1 (constant (F := F) S_ .f32 0x3F800000#32)
  let v68 : FVec F S1600000x1 .f32 := Host.divf v67 v66
  -- the gate along each row, times the second hidden row
  let v69 : FVec F S1600000x64 .f32 := broadcastInDim S1600000x64 ![0, 1] bcast_S1600000x1_S1600000x64_0_1 v68
  mulf v46 v69

end Def

section Read

variable [Facts]

/-- The first product at an index: the contraction runs over the 128 concatenated features. -/
theorem dot128_apply (A : FVec Ideal S1600000x128 .f32) (B : FVec Ideal S128x64 .f32) (p : Fin 1600000) (q : Fin 64) :
    Host.dotGeneral (F := Ideal) dot_S1600000x128_S128x64_S1600000x64_1_0_0_1_n_n none A B (ix2 p q)
      = ∑ c : Fin 128, A (ix2 p c) * B (ix2 c q) :=
  StackMember.dotGeneral_plain_apply none A B p q

/-- The second product at an index. -/
theorem dot64_apply (A : FVec Ideal S1600000x64 .f32) (B : FVec Ideal S64x64 .f32) (p : Fin 1600000) (q : Fin 64) :
    Host.dotGeneral (F := Ideal) dot_S1600000x64_S64x64_S1600000x64_1_0_0_1_n_n none A B (ix2 p q)
      = ∑ c : Fin 64, A (ix2 p c) * B (ix2 c q) :=
  StackMember.dotGeneral_plain_apply none A B p q

/-- The gate's product at an index: one output column. -/
theorem dot1_apply (A : FVec Ideal S1600000x64 .f32) (B : FVec Ideal S64x1 .f32) (p : Fin 1600000) (q : Fin 1) :
    Host.dotGeneral (F := Ideal) dot_S1600000x64_S64x1_S1600000x1_1_0_0_1_n_n none A B (ix2 p q)
      = ∑ c : Fin 64, A (ix2 p c) * B (ix2 c q) :=
  StackMember.dotGeneral_plain_apply none A B p q

end Read

section Rows

variable [Facts]

/-- A 64-entry bias laid along every one of the rows reads its own entry in each column. -/
theorem bias64_apply (v : FVec Ideal S64 .f32) (p : Fin 1600000) (q : Fin 64) :
    broadcastInDim S1600000x64 ![0, 1] bcast_S1x64_S1600000x64_0_1 (broadcastInDim S1x64 ![1] bcast_S64_S1x64_1 v) (ix2 p q)
      = v (ix1 q) := by
  rw [broadcastInDim_oneRow_apply]
  refine broadcastInDim_apply ![1] _ v (ix2 (0 : Fin 1) q) (ix1 q) ?_
  intro a
  match a with
  | ⟨0, _⟩ =>
    show q.val = if (64 : ℕ) = 1 then 0 else q.val
    rw [if_neg (by decide)]

/-- The gate's one-entry bias laid along the rows reads that entry. -/
theorem bias1_apply (v : FVec Ideal S1 .f32) (p : Fin 1600000) :
    broadcastInDim S1600000x1 ![0, 1] bcast_S1x1_S1600000x1_0_1 (broadcastInDim S1x1 ![1] bcast_S1_S1x1_1 v) (ix2 p (0 : Fin 1))
      = v (ix1 0) := by
  rw [broadcastInDim_oneRow_apply]
  refine broadcastInDim_apply ![1] _ v (ix2 (0 : Fin 1) (0 : Fin 1)) (ix1 0) ?_
  intro a
  match a with
  | ⟨0, _⟩ =>
    show (0 : ℕ) = if (1 : ℕ) = 1 then 0 else 0
    rw [if_pos rfl]

/-- A column spread over 64 columns reads, in every column of row `p`, the column's entry in row `p`. -/
theorem spread_apply (g : FVec Ideal S1600000x1 .f32) (p : Fin 1600000) (q : Fin 64) :
    broadcastInDim S1600000x64 ![0, 1] bcast_S1600000x1_S1600000x64_0_1 g (ix2 p q) = g (ix2 p (0 : Fin 1)) := by
  refine broadcastInDim_apply ![0, 1] _ g (ix2 p q) (ix2 p (0 : Fin 1)) ?_
  intro a
  match a with
  | ⟨0, _⟩ =>
    show p.val = if (1600000 : ℕ) = 1 then 0 else p.val
    rw [if_neg (by decide)]
  | ⟨1, _⟩ =>
    show (0 : ℕ) = if (1 : ℕ) = 1 then 0 else q.val
    rw [if_pos rfl]

/-- Row `p` of the concatenation is the two endpoint rows side by side. -/
theorem cat_row (hi hj : FVec Ideal S1600000x64 .f32) (p : Fin 1600000) (c : Fin 128) :
    concatenate S1600000x128 1 [⟨S1600000x64, hi⟩, ⟨S1600000x64, hj⟩] concatenates_S1600000x64_S1600000x64_S1600000x128_d1 (ix2 p c)
      = cat (rowOf hi p) (rowOf hj p) c := by
  unfold cat
  by_cases hc : c.val < 64
  · rw [dif_pos hc]
    exact concatenate_pair_apply_left 1 hi hj _ (ix2 p c) rfl (ix2 p (⟨c.val, hc⟩ : Fin 64)) (fun b => by
      match b with
      | ⟨0, _⟩ => rfl
      | ⟨1, _⟩ => rfl)
  · rw [dif_neg hc]
    exact concatenate_pair_apply_right 1 hi hj _ (ix2 p c) rfl rfl (ix2 p (⟨c.val - 64, by omega⟩ : Fin 64))
      (fun b hb => by
        match b with
        | ⟨0, _⟩ => rfl
        | ⟨1, _⟩ => exact absurd rfl hb)
      (by show c.val - 64 + 64 = c.val; omega)

/-- The first hidden layer at row `p`, column `j`, from whatever row `x` the 128-wide operand has there. -/
theorem layer128_row (X : FVec Ideal S1600000x128 .f32) (W : FVec Ideal S128x64 .f32) (β : FVec Ideal S64 .f32)
    (p : Fin 1600000) (x : Fin 128 → EReal) (hX : ∀ k, X (ix2 p k) = x k) (j : Fin 64) :
    maximumf (addf (Host.dotGeneral dot_S1600000x128_S128x64_S1600000x64_1_0_0_1_n_n none X W)
        (broadcastInDim S1600000x64 ![0, 1] bcast_S1x64_S1600000x64_0_1 (broadcastInDim S1x64 ![1] bcast_S64_S1x64_1 β)))
      (broadcastInDim S1600000x64 ![] bcast_S_S1600000x64 (constant (F := Ideal) S_ .f32 0x00000000#32)) (ix2 p j)
      = max (lin x (mat W) (vec β) j) 0 := by
  rw [maximumf_apply, addf_apply, dot128_apply, bias64_apply, broadcastInDim_scalar_apply, constant_apply,
    Ideal.ofBits_zero_f32]
  simp only [hX]
  rfl

/-- The second hidden layer at row `p`, column `j`, from whatever row `x` the 64-wide operand has there. -/
theorem layer64_row (X : FVec Ideal S1600000x64 .f32) (W : FVec Ideal S64x64 .f32) (β : FVec Ideal S64 .f32)
    (p : Fin 1600000) (x : Fin 64 → EReal) (hX : ∀ k, X (ix2 p k) = x k) (j : Fin 64) :
    maximumf (addf (Host.dotGeneral dot_S1600000x64_S64x64_S1600000x64_1_0_0_1_n_n none X W)
        (broadcastInDim S1600000x64 ![0, 1] bcast_S1x64_S1600000x64_0_1 (broadcastInDim S1x64 ![1] bcast_S64_S1x64_1 β)))
      (broadcastInDim S1600000x64 ![] bcast_S_S1600000x64 (constant (F := Ideal) S_ .f32 0x00000000#32)) (ix2 p j)
      = max (lin x (mat W) (vec β) j) 0 := by
  rw [maximumf_apply, addf_apply, dot64_apply, bias64_apply, broadcastInDim_scalar_apply, constant_apply,
    Ideal.ofBits_zero_f32]
  simp only [hX]
  rfl

/-- The reference's spelling of the logistic function, 1 / (1 + e⁻ᵍ) with the pattern of 1.0 for both ones, at an entry. -/
theorem sigmoid_apply (g : FVec Ideal S1600000x1 .f32) (i : S1600000x1.Idx) :
    Host.divf (broadcastInDim S1600000x1 ![] bcast_S_S1600000x1 (constant (F := Ideal) S_ .f32 0x3F800000#32))
      (addf (broadcastInDim S1600000x1 ![] bcast_S_S1600000x1 (constant (F := Ideal) S_ .f32 0x3F800000#32))
        (Host.exp (Host.negf g))) i
      = Ideal.logistic (g i) := by
  show Ideal.div (Ideal.ofBits .f32 0x3F800000#32) (Ideal.ofBits .f32 0x3F800000#32 + Ideal.exp (-(g i))) = _
  rw [ofBits_one]
  rfl

/-- The scaled second hidden row: from the row `m` that the hidden array has at `p`, the entry at (p, q) is `m q` times the
    gate σ((m·w + β) · σ(30 / (√d + ε))). -/
theorem gate_row (M : FVec Ideal S1600000x64 .f32) (dsq : FVec Ideal S1600000x1 .f32) (w : FVec Ideal S64x1 .f32)
    (b : FVec Ideal S1 .f32) (p : Fin 1600000) (q : Fin 64) (m : Fin 64 → EReal) (hM : ∀ k, M (ix2 p k) = m k) :
    mulf M (broadcastInDim S1600000x64 ![0, 1] bcast_S1600000x1_S1600000x64_0_1
      (Host.divf (broadcastInDim S1600000x1 ![] bcast_S_S1600000x1 (constant (F := Ideal) S_ .f32 0x3F800000#32))
        (addf (broadcastInDim S1600000x1 ![] bcast_S_S1600000x1 (constant (F := Ideal) S_ .f32 0x3F800000#32))
          (Host.exp (Host.negf (mulf
            (addf (Host.dotGeneral dot_S1600000x64_S64x1_S1600000x1_1_0_0_1_n_n none M w)
              (broadcastInDim S1600000x1 ![0, 1] bcast_S1x1_S1600000x1_0_1 (broadcastInDim S1x1 ![1] bcast_S1_S1x1_1 b)))
            (Host.divf (broadcastInDim S1600000x1 ![] bcast_S_S1600000x1 (constant (F := Ideal) S_ .f32 0x3F800000#32))
              (addf (broadcastInDim S1600000x1 ![] bcast_S_S1600000x1 (constant (F := Ideal) S_ .f32 0x3F800000#32))
                (Host.exp (Host.negf
                  (Host.divf (broadcastInDim S1600000x1 ![] bcast_S_S1600000x1 (constant (F := Ideal) S_ .f32 0x41F00000#32))
                    (addf (Host.sqrt dsq)
                      (broadcastInDim S1600000x1 ![] bcast_S_S1600000x1 (constant (F := Ideal) S_ .f32 0x322BCC77#32))))))))))))))
      (ix2 p q)
      = m q * Ideal.logistic (((∑ k : Fin 64, m k * w (ix2 k 0)) + b (ix1 0))
          * Ideal.logistic (Ideal.div (Ideal.ofBits .f32 0x41F00000#32)
              (Ideal.sqrt (dsq (ix2 p 0)) + Ideal.ofBits .f32 0x322BCC77#32))) := by
  rw [mulf_apply, spread_apply, sigmoid_apply, mulf_apply, sigmoid_apply, addf_apply, dot1_apply, bias1_apply, hM]
  simp only [hM]
  rfl

end Rows

section Main

variable [Facts]

/-- The reference's edge stage is the row function `edgeRow` on every row. -/
theorem refEdge_eq (hi hj : FVec Ideal S1600000x64 .f32) (dsq : FVec Ideal S1600000x1 .f32) (W1 : FVec Ideal S128x64 .f32)
    (b1 : FVec Ideal S64 .f32) (W2 : FVec Ideal S64x64 .f32) (b2 : FVec Ideal S64 .f32) (w : FVec Ideal S64x1 .f32)
    (b : FVec Ideal S1 .f32) :
    refEdge (F := Ideal) hi hj dsq W1 b1 W2 b2 w b = EdgeG hi hj dsq W1 b1 W2 b2 w b := by
  funext y
  obtain ⟨p, q, rfl⟩ : ∃ (p : Fin 1600000) (q : Fin 64), y = ix2 p q := ⟨y 0, y 1, eq_ix2 y⟩
  rw [EdgeG_ix2]
  dsimp only [refEdge]
  exact gate_row _ dsq w b p q (edgeH2 (rowOf hi p) (rowOf hj p) (mat W1) (vec b1) (mat W2) (vec b2))
    (fun k => layer64_row _ W2 b2 p (edgeH1 (rowOf hi p) (rowOf hj p) (mat W1) (vec b1))
      (fun c => layer128_row _ W1 b1 p (cat (rowOf hi p) (rowOf hj p)) (fun e => cat_row hi hj p e) c) k)

end Main

end Cert.ReferenceIdeal.Layer

end
-- ==== Proof.RefNode.lean ====
/-
  The reference's node update as one function of its operands, and what it computes.

  After the aggregated messages `s` are formed, the reference program updates every node at once: the two-layer
  perceptron on the row `[s ‖ h]` added to `h`, then a layer normalisation whose mean is a row sum over 64 and whose
  variance is the mean of the squared deviations, computed by the program's variance function with zero degrees of freedom removed
  (divisor `64 − 0`, guarded by a test that the divisor is positive), then the scale `g` and the shift `b`.
  `refNode` is that stretch of the program as a composition of its whole-array operations, one binding per operation, in
  the program's order and spelling, cut in four: the row before normalisation (`refZ`), the column of means (`refMean`),
  the column of variances (`refVar`) and the normalisation proper (`refNorm`). `refNode_eq` reads it entry by entry: at
  row `p` and column `q` it is the row function `nodeRow` of row `p` of `s` and of `h`.

  The reading goes operation by operation: a product at `(p, q)` is the finite sum over its contraction position; the
  concatenation's row `p` is the two rows side by side; a 64-vector laid along the rows reads its entry in the column; a
  row sum from the zero initial value is the finite sum of the row; a column reads its row's entry wherever it is spread;
  a rank-zero value spread over an array reads itself. The variance's divisor is `64 − 0 = 64`, the guard `64 > 0` holds,
  so the guarded choice is the quotient and the not-a-number pattern is never read.
-/
import proofs.«145584_j40596030882310_1_alg».proof.ReferenceIdeal
import proofs.«145584_j40596030882310_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StackMember
import Idealize.ShloMosaic.Lib.IdealHost
import Idealize.ShloMosaic.Lib.KernelVsHost

noncomputable section

open scoped BigOperators

namespace Cert.ReferenceIdeal.Layer

open Cert.ReferenceIdeal Cert.Layer
open Idealize.ShloMosaic Idealize.ShloMosaic.ValueIdx
open Cert.ReferenceIdeal.Facts₀ Cert.ReferenceIdeal.Facts

variable [Facts]

/-- The node's row before normalisation, for every node: the reference's operations from the concatenation `[s ‖ h]`
    through the two perceptron layers (the rectifier written out where the program calls it) to the sum with `h`. -/
noncomputable def refZ {F : FTy → Type} [FloatOps F] (s h : FVec F S100000x64 .f32) (V1 : FVec F S128x64 .f32)
    (g1 : FVec F S64 .f32) (V2 : FVec F S64x64 .f32) (g2 : FVec F S64 .f32) : FVec F S100000x64 .f32 :=
  let v74 : FVec F S100000x128 .f32 :=
    concatenate S100000x128 1 [⟨S100000x64, s⟩, ⟨S100000x64, h⟩] concatenates_S100000x64_S100000x64_S100000x128_d1
  let v75 : FVec F S100000x64 .f32 := Host.dotGeneral dot_S100000x128_S128x64_S100000x64_1_0_0_1_n_n none v74 V1
  let v76 : FVec F S1x64 .f32 := broadcastInDim S1x64 ![1] bcast_S64_S1x64_1 g1
  let v77 : FVec F S100000x64 .f32 := broadcastInDim S100000x64 ![0, 1] bcast_S1x64_S100000x64_0_1 v76
  let v78 : FVec F S100000x64 .f32 := addf v75 v77
  -- the rectifier
  let r_cst : FVec F S_ .f32 := constant S_ .f32 0x00000000#32
  let r_v0 : FVec F S100000x64 .f32 := broadcastInDim S100000x64 ![] bcast_S_S100000x64 r_cst
  let v79 : FVec F S100000x64 .f32 := maximumf v78 r_v0
  let v80 : FVec F S100000x64 .f32 := Host.dotGeneral dot_S100000x64_S64x64_S100000x64_1_0_0_1_n_n none v79 V2
  let v81 : FVec F S1x64 .f32 := broadcastInDim S1x64 ![1] bcast_S64_S1x64_1 g2
  let v82 : FVec F S100000x64 .f32 := broadcastInDim S100000x64 ![0, 1] bcast_S1x64_S100000x64_0_1 v81
  let v83 : FVec F S100000x64 .f32 := addf v80 v82
  addf h v83

/-- The column of row means of `z`: the row sums from the zero initial value, over the pattern of 64. -/
noncomputable def refMean {F : FTy → Type} [FloatOps F] (z : FVec F S100000x64 .f32) : FVec F S100000x1 .f32 :=
  let cst_14 : FVec F S_ .f32 := constant S_ .f32 0x00000000#32
  let v85 : FVec F S100000 .f32 := Host.reduceAdd z cst_14 reducesTo_S100000x64_S100000_d1 h_S_
  let v86 : FVec F S100000x1 .f32 := broadcastInDim S100000x1 ![0] bcast_S100000_S100000x1_0 v85
  let cst_15 : FVec F S_ .f32 := constant S_ .f32 0x42800000#32
  let v87 : FVec F S100000x1 .f32 := broadcastInDim S100000x1 ![] bcast_S_S100000x1 cst_15
  Host.divf v86 v87

/-- The column of row variances of `z`, as the program's variance function computes it when called with the integer
    zero for the degrees of freedom to remove: the mean again, the squared deviations, their row sums over the divisor
    `64 − 0`, and the guarded choice (written out where that function calls it) that keeps the quotient where the divisor is
    positive and puts the not-a-number pattern elsewhere. -/
noncomputable def refVar {F : FTy → Type} [FloatOps F] (z : FVec F S100000x64 .f32) : FVec F S100000x1 .f32 :=
  let c_16 : IVec S_ 32 := constantI S_ 32 0#32
  let q_cst : FVec F S_ .f32 := constant S_ .f32 0x00000000#32
  let q_v0 : FVec F S100000 .f32 := Host.reduceAdd z q_cst reducesTo_S100000x64_S100000_d1 h_S_
  let q_v1 : FVec F S100000x1 .f32 := broadcastInDim S100000x1 ![0] bcast_S100000_S100000x1_0 q_v0
  let q_cst_0 : FVec F S_ .f32 := constant S_ .f32 0x42800000#32
  let q_v2 : FVec F S100000x1 .f32 := broadcastInDim S100000x1 ![] bcast_S_S100000x1 q_cst_0
  let q_v3 : FVec F S100000x1 .f32 := Host.divf q_v1 q_v2
  let q_v4 : FVec F S100000x64 .f32 := broadcastInDim S100000x64 ![0, 1] bcast_S100000x1_S100000x64_0_1 q_v3
  let q_v5 : FVec F S100000x64 .f32 := subf z q_v4
  let q_v6 : FVec F S100000x64 .f32 := mulf q_v5 q_v5
  let q_v7 : FVec F S_ .f32 := sitofp .f32 c_16
  let q_cst_1 : FVec F S_ .f32 := constant S_ .f32 0x42800000#32
  let q_v8 : FVec F S_ .f32 := subf q_cst_1 q_v7
  let q_cst_2 : FVec F S_ .f32 := constant S_ .f32 0x00000000#32
  let q_v9 : FVec F S100000 .f32 := Host.reduceAdd q_v6 q_cst_2 reducesTo_S100000x64_S100000_d1 h_S_
  let q_v10 : FVec F S100000x1 .f32 := broadcastInDim S100000x1 ![0] bcast_S100000_S100000x1_0 q_v9
  let q_v11 : FVec F S100000x1 .f32 := broadcastInDim S100000x1 ![] bcast_S_S100000x1 q_v8
  let q_v12 : FVec F S100000x1 .f32 := Host.divf q_v10 q_v11
  let q_cst_3 : FVec F S_ .f32 := constant S_ .f32 0x00000000#32
  let q_v13 : IVec S_ 1 := cmpf .ogt q_v8 q_cst_3
  let q_cst_4 : FVec F S_ .f32 := constant S_ .f32 0x7FC00000#32
  -- the guarded choice
  let w_v0 : FVec F S_ .f32 := id q_cst_4
  let w_v1 : FVec F S100000x1 .f32 := broadcastInDim S100000x1 ![] bcast_S_S100000x1 w_v0
  select (broadcastInDim S100000x1 ![] bcast_S_S100000x1 q_v13) q_v12 w_v1

/-- The normalisation of `z`: the deviations from the row means, times the reciprocal square root of the row variances
    plus the small pattern, scaled by `g` and shifted by `b`. -/
noncomputable def refNorm {F : FTy → Type} [FloatOps F] (z : FVec F S100000x64 .f32) (g b : FVec F S64 .f32) :
    FVec F S100000x64 .f32 :=
  let v88 : FVec F S100000x1 .f32 := refMean z
  let v89 : FVec F S100000x1 .f32 := refVar z
  let v90 : FVec F S100000x64 .f32 := broadcastInDim S100000x64 ![0, 1] bcast_S100000x1_S100000x64_0_1 v88
  let v91 : FVec F S100000x64 .f32 := subf z v90
  let cst_17 : FVec F S_ .f32 := constant S_ .f32 0x3727C5AC#32
  let v92 : FVec F S100000x1 .f32 := broadcastInDim S100000x1 ![] bcast_S_S100000x1 cst_17
  let v93 : FVec F S100000x1 .f32 := addf v89 v92
  let v94 : FVec F S100000x1 .f32 := Host.rsqrt v93
  let v95 : FVec F S100000x64 .f32 := broadcastInDim S100000x64 ![0, 1] bcast_S100000x1_S100000x64_0_1 v94
  let v96 : FVec F S100000x64 .f32 := mulf v91 v95
  let v97 : FVec F S1x64 .f32 := broadcastInDim S1x64 ![1] bcast_S64_S1x64_1 g
  let v98 : FVec F S100000x64 .f32 := broadcastInDim S100000x64 ![0, 1] bcast_S1x64_S100000x64_0_1 v97
  let v99 : FVec F S100000x64 .f32 := mulf v96 v98
  let v100 : FVec F S1x64 .f32 := broadcastInDim S1x64 ![1] bcast_S64_S1x64_1 b
  let v101 : FVec F S100000x64 .f32 := broadcastInDim S100000x64 ![0, 1] bcast_S1x64_S100000x64_0_1 v100
  addf v99 v101

/-- The reference's node update: from the aggregated messages `s`, the node features `h`, the two perceptron layers
    `(V1, g1)`, `(V2, g2)` and the normalisation's scale `g` and shift `b`, the program's operations from the
    concatenation `[s ‖ h]` to its result. -/
noncomputable def refNode {F : FTy → Type} [FloatOps F] (s h : FVec F S100000x64 .f32) (V1 : FVec F S128x64 .f32)
    (g1 : FVec F S64 .f32) (V2 : FVec F S64x64 .f32) (g2 g b : FVec F S64 .f32) : FVec F S100000x64 .f32 :=
  refNorm (refZ s h V1 g1 V2 g2) g b

namespace Node

/-! ## The operations read at a row and a column -/

/-- The first product at `(p, q)`: the sum over the 128 concatenated features. -/
theorem prod128_apply (A : FVec Ideal S100000x128 .f32) (B : FVec Ideal S128x64 .f32) (p : Fin 100000) (q : Fin 64) :
    Host.dotGeneral (F := Ideal) dot_S100000x128_S128x64_S100000x64_1_0_0_1_n_n none A B (ix2 p q)
      = ∑ c : Fin 128, A (ix2 p c) * B (ix2 c q) :=
  StackMember.dotGeneral_plain_apply none A B p q

/-- The second product at `(p, q)`: the sum over the 64 hidden features. -/
theorem prod64_apply (A : FVec Ideal S100000x64 .f32) (B : FVec Ideal S64x64 .f32) (p : Fin 100000) (q : Fin 64) :
    Host.dotGeneral (F := Ideal) dot_S100000x64_S64x64_S100000x64_1_0_0_1_n_n none A B (ix2 p q)
      = ∑ c : Fin 64, A (ix2 p c) * B (ix2 c q) :=
  StackMember.dotGeneral_plain_apply none A B p q

/-- A 64-vector laid along every row reads, at `(p, q)`, its entry `q`. -/
theorem rowVec_apply (v : FVec Ideal S64 .f32) (p : Fin 100000) (q : Fin 64) :
    broadcastInDim S100000x64 ![0, 1] bcast_S1x64_S100000x64_0_1 (broadcastInDim S1x64 ![1] bcast_S64_S1x64_1 v) (ix2 p q)
      = v (ix1 q) := by
  rw [broadcastInDim_oneRow_apply]
  refine broadcastInDim_apply ![1] _ v (ix2 (0 : Fin 1) q) (ix1 q) ?_
  intro a
  match a with
  | ⟨0, _⟩ =>
    show q.val = if (64 : ℕ) = 1 then 0 else q.val
    rw [if_neg (by decide)]

/-- A vector of one entry per row, stood up as a column, reads at `(p, u)` the entry of row `p`. -/
theorem stood_apply {α : Type} (v : S100000.Idx → α) (p : Fin 100000) (u : Fin 1) :
    broadcastInDim S100000x1 ![0] bcast_S100000_S100000x1_0 v (ix2 p u) = v (ix1 p) := by
  refine broadcastInDim_apply ![0] _ v (ix2 p u) (ix1 p) ?_
  intro a
  match a with
  | ⟨0, _⟩ =>
    show p.val = if (100000 : ℕ) = 1 then 0 else p.val
    rw [if_neg (by decide)]

/-- A column spread over the 64 columns reads, at `(p, q)`, the column's entry in row `p`. -/
theorem spread_apply {α : Type} (c : S100000x1.Idx → α) (p : Fin 100000) (q : Fin 64) :
    broadcastInDim S100000x64 ![0, 1] bcast_S100000x1_S100000x64_0_1 c (ix2 p q) = c (ix2 p (0 : Fin 1)) := by
  refine broadcastInDim_apply ![0, 1] _ c (ix2 p q) (ix2 p (0 : Fin 1)) ?_
  intro a
  match a with
  | ⟨0, _⟩ =>
    show p.val = if (100000 : ℕ) = 1 then 0 else p.val
    rw [if_neg (by decide)]
  | ⟨1, _⟩ =>
    show (0 : ℕ) = if (1 : ℕ) = 1 then 0 else q.val
    rw [if_pos rfl]

/-- Row `p` of the concatenation is the rows `p` of the two operands side by side. -/
theorem catRow_apply (s h : FVec Ideal S100000x64 .f32) (p : Fin 100000) (c : Fin 128) :
    concatenate S100000x128 1 [⟨S100000x64, s⟩, ⟨S100000x64, h⟩] concatenates_S100000x64_S100000x64_S100000x128_d1 (ix2 p c)
      = cat (rowOf s p) (rowOf h p) c := by
  unfold cat
  by_cases hc : c.val < 64
  · rw [dif_pos hc]
    exact concatenate_pair_apply_left 1 s h _ (ix2 p c) rfl (ix2 p (⟨c.val, hc⟩ : Fin 64)) (fun b => by
      match b with
      | ⟨0, _⟩ => rfl
      | ⟨1, _⟩ => rfl)
  · rw [dif_neg hc]
    exact concatenate_pair_apply_right 1 s h _ (ix2 p c) rfl rfl (ix2 p (⟨c.val - 64, by omega⟩ : Fin 64))
      (fun b hb => by
        match b with
        | ⟨0, _⟩ => rfl
        | ⟨1, _⟩ => exact absurd rfl hb)
      (by show c.val - 64 + 64 = c.val; omega)

/-- A row sum from the zero initial value, at row `p`: the finite sum of the row's 64 entries. -/
theorem rowSum_apply (z : FVec Ideal S100000x64 .f32) (p : Fin 100000) :
    Host.reduceAdd (F := Ideal) z (constant (F := Ideal) S_ .f32 0x00000000#32) reducesTo_S100000x64_S100000_d1 h_S_ (ix1 p)
      = ∑ k : Fin 64, z (ix2 p k) := by
  have hred : S100000x64.Reduces [1] S100000 := by decide
  refine (Ideal.hostReduceAdd_single reducesTo_S100000x64_S100000_d1 hred z _ (ix1 p)).trans ?_
  rw [constant_apply, Ideal.ofBits_zero_f32, zero_add]
  exact Finset.sum_congr rfl fun k _ => congrArg z (funext fun c => Fin.ext (by
    match c with
    | ⟨0, _⟩ => rfl
    | ⟨1, _⟩ => rfl))

/-- The host's reciprocal square root at an entry. -/
theorem hostRsqrt_apply {s : Shape} (x : FVec Ideal s .f32) (i : s.Idx) : Host.rsqrt x i = Ideal.rsqrt (x i) := rfl

/-! ## The row before normalisation -/

/-- The reference's residual row: at `(p, j)` it is `nodeZ` of row `p` of the aggregated messages and of the features. -/
theorem z_apply (s h : FVec Ideal S100000x64 .f32) (V1 : FVec Ideal S128x64 .f32) (g1 : FVec Ideal S64 .f32)
    (V2 : FVec Ideal S64x64 .f32) (g2 : FVec Ideal S64 .f32) (p : Fin 100000) (j : Fin 64) :
    refZ (F := Ideal) s h V1 g1 V2 g2 (ix2 p j)
      = nodeZ (rowOf s p) (rowOf h p) (mat V1) (vec g1) (mat V2) (vec g2) j := by
  unfold refZ nodeZ lin
  dsimp only
  rw [addf_apply, addf_apply, prod64_apply, rowVec_apply]
  refine congrArg (fun t => h (ix2 p j) + (t + g2 (ix1 j))) (Finset.sum_congr rfl fun k _ => ?_)
  rw [maximumf_apply, addf_apply, prod128_apply, rowVec_apply, broadcastInDim_scalar_apply, constant_apply,
    Ideal.ofBits_zero_f32]
  refine congrArg (fun t => max (t + g1 (ix1 k)) 0 * V2 (ix2 k j)) (Finset.sum_congr rfl fun l _ => ?_)
  rw [catRow_apply]

/-! ## The mean and the variance columns -/

/-- The column of row sums over the pattern of 64, at row `p`: the mean of the row. -/
theorem meanCol_apply (z : FVec Ideal S100000x64 .f32) (p : Fin 100000) (u : Fin 1) :
    Host.divf
        (broadcastInDim S100000x1 ![0] bcast_S100000_S100000x1_0
          (Host.reduceAdd (F := Ideal) z (constant (F := Ideal) S_ .f32 0x00000000#32) reducesTo_S100000x64_S100000_d1 h_S_))
        (broadcastInDim S100000x1 ![] bcast_S_S100000x1 (constant (F := Ideal) S_ .f32 0x42800000#32)) (ix2 p u)
      = mean64 (rowOf z p) := by
  rw [hostDivf_apply, stood_apply, rowSum_apply, broadcastInDim_scalar_apply, constant_apply]
  rfl

/-- The reference's mean column at row `p`. -/
theorem mean_apply (z : FVec Ideal S100000x64 .f32) (p : Fin 100000) (u : Fin 1) :
    refMean (F := Ideal) z (ix2 p u) = mean64 (rowOf z p) := by
  unfold refMean
  dsimp only
  exact meanCol_apply z p u

/-- The variance's divisor, `64 − 0` with the zero an integer converted, is the pattern of 64. -/
theorem divisor_eq :
    subf (constant (F := Ideal) S_ .f32 0x42800000#32) (sitofp .f32 (constantI S_ 32 0#32)) ix0
      = Ideal.ofBits .f32 0x42800000#32 := by
  show Ideal.ofBits .f32 0x42800000#32 - ((((0#32 : BitVec 32).toInt : ℤ) : ℝ) : EReal) = _
  simp

/-- The guard of the variance's choice: the divisor is positive. -/
theorem guard_eq :
    cmpf .ogt (subf (constant (F := Ideal) S_ .f32 0x42800000#32) (sitofp .f32 (constantI S_ 32 0#32)))
        (constant (F := Ideal) S_ .f32 0x00000000#32) ix0 = 1#1 := by
  rw [cmpf_apply, divisor_eq, constant_apply, Ideal.ofBits_zero_f32, Ideal.cmpf_def, ofBits_64]
  have hpos : (0 : EReal) < ((64 : ℝ) : EReal) := by exact_mod_cast (by norm_num : (0 : ℝ) < 64)
  unfold Ideal.cmp
  simp [hpos]

/-- The reference's variance column at row `p`: the mean of the squared deviations of the row from its mean. The guard
    holds, so the choice is the quotient. -/
theorem var_apply (z : FVec Ideal S100000x64 .f32) (p : Fin 100000) (u : Fin 1) :
    refVar (F := Ideal) z (ix2 p u)
      = mean64 (fun k => (rowOf z p k - mean64 (rowOf z p)) * (rowOf z p k - mean64 (rowOf z p))) := by
  have hguard : broadcastInDim S100000x1 ![] bcast_S_S100000x1
      (cmpf .ogt (subf (constant (F := Ideal) S_ .f32 0x42800000#32) (sitofp .f32 (constantI S_ 32 0#32)))
        (constant (F := Ideal) S_ .f32 0x00000000#32)) (ix2 p u) = 1#1 :=
    (broadcastInDim_scalar_apply _ _ _).trans guard_eq
  unfold refVar
  dsimp only
  rw [select_apply, hguard, select_one, hostDivf_apply, stood_apply, rowSum_apply, broadcastInDim_scalar_apply, divisor_eq]
  unfold mean64
  refine congrArg (fun t => Ideal.div t (Ideal.ofBits .f32 0x42800000#32)) (Finset.sum_congr rfl fun k _ => ?_)
  rw [mulf_apply, subf_apply, spread_apply, meanCol_apply]
  rfl

/-! ## The normalised row -/

/-- The reference's normalisation at `(p, q)`: `normRow` of row `p`. -/
theorem norm_apply (z : FVec Ideal S100000x64 .f32) (g b : FVec Ideal S64 .f32) (p : Fin 100000) (q : Fin 64) :
    refNorm (F := Ideal) z g b (ix2 p q) = normRow (rowOf z p) (vec g) (vec b) q := by
  unfold refNorm normRow
  dsimp only
  rw [addf_apply, mulf_apply, mulf_apply, subf_apply, rowVec_apply, rowVec_apply, spread_apply, spread_apply, mean_apply,
    hostRsqrt_apply, addf_apply, var_apply, broadcastInDim_scalar_apply, constant_apply]

end Node

/-- The reference's node update is the row function `nodeRow` on every row. -/
theorem refNode_eq (s h : FVec Ideal S100000x64 .f32) (V1 : FVec Ideal S128x64 .f32) (g1 : FVec Ideal S64 .f32)
    (V2 : FVec Ideal S64x64 .f32) (g2 g b : FVec Ideal S64 .f32) :
    refNode (F := Ideal) s h V1 g1 V2 g2 g b = NodeG s h V1 g1 V2 g2 g b := by
  funext y
  obtain ⟨p, q, rfl⟩ : ∃ (p : Fin 100000) (q : Fin 64), y = ix2 p q := ⟨y 0, y 1, eq_ix2 y⟩
  rw [NodeG_ix2]
  unfold refNode nodeRow
  rw [Node.norm_apply]
  exact congrArg (fun r => normRow r (vec g) (vec b) q) (funext fun k => Node.z_apply s h V1 g1 V2 g2 p k)

end Cert.ReferenceIdeal.Layer

end
-- ==== Proof.RefValue.lean ====
/-
  What the reference computes, as one term of its arguments.

  The run (`run_main`) leaves every buffer at the fold of the 151 operations over the launch contents. The fold is read
  stretch by stretch, each over WHATEVER contents the stretch before left:
    the first stretch makes, from the node features `h`, the positions `x` and the edge table `ei`, the features at each edge's
      two endpoints (`refHi` at the table's second row, `refHj` at its first), the squared distance `refDsq`, and leaves the
      second row itself in place;
    the second turns these and the six edge parameters into the messages (`refEdge`);
    the third sums the messages into their target rows from zero (`refAgg` at `refDst`);
    the fourth turns the sums, `h` and the six node parameters into the result (`refNode`).
  No stretch writes an argument buffer. Composing the four readings gives `run`.
-/
import proofs.«145584_j40596030882310_1_alg».proof.Proof.RefRun
import proofs.«145584_j40596030882310_1_alg».proof.Proof.RefEdge
import proofs.«145584_j40596030882310_1_alg».proof.Proof.RefNode

set_option maxRecDepth 16384

noncomputable section

namespace Cert.ReferenceIdeal.Layer

open Cert.ReferenceIdeal Cert.ReferenceIdeal.Gen Idealize.ShloMosaic Idealize.ShloMosaic.TcCoe Idealize.SL.Sem Idealize.ShloMosaic.StableHlo

variable {F : FTy → Type} [FloatOps F]

/-- Row 0 and row 1 of the [2, 1600000] edge table, as vectors. -/
def idxRow0 (ei : IVec S2x1600000 32) : IVec S1600000 32 :=
  shapeCast S1600000 (extractStridedSlice S1x1600000 ![0, 0] ei slices_S2x1600000_S1x1600000_0_0) shapeCasts_S1x1600000_S1600000
def idxRow1 (ei : IVec S2x1600000 32) : IVec S1600000 32 :=
  shapeCast S1600000 (extractStridedSlice S1x1600000 ![1, 0] ei slices_S2x1600000_S1x1600000_1_0) shapeCasts_S1x1600000_S1600000

/-- A vector of indices, each wrapped once if negative (i < 0 ↦ i + 100000), as a column of start indices. -/
def wrapCol (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The features at each edge's second-row endpoint (%10), and at its first-row endpoint (%17). -/
def refHi (h : FVec F S100000x64 .f32) (ei : IVec S2x1600000 32) : FVec F S1600000x64 .f32 :=
  Host.gather gather_S100000x64_S1600000x1_S1600000x64_1_0_n_n_0_1_164 h (wrapCol (idxRow1 ei))
def refHj (h : FVec F S100000x64 .f32) (ei : IVec S2x1600000 32) : FVec F S1600000x64 .f32 :=
  Host.gather gather_S100000x64_S1600000x1_S1600000x64_1_0_n_n_0_1_164 h (wrapCol (idxRow0 ei))

/-- The difference of the two endpoints' positions (%32). -/
def refRel (x : FVec F S100000x3 .f32) (ei : IVec S2x1600000 32) : FVec F S1600000x3 .f32 :=
  subf (Host.gather gather_S100000x3_S1600000x1_S1600000x3_1_0_n_n_0_1_13 x (wrapCol (idxRow1 ei)))
    (Host.gather gather_S100000x3_S1600000x1_S1600000x3_1_0_n_n_0_1_13 x (wrapCol (idxRow0 ei)))

/-- Each edge's squared distance, as a column (%35). -/
def refDsq (x : FVec F S100000x3 .f32) (ei : IVec S2x1600000 32) : FVec F S1600000x1 .f32 :=
  broadcastInDim S1600000x1 ![0] bcast_S1600000_S1600000x1_0
    (Host.reduceAdd (mulf (refRel x ei) (refRel x ei)) (constant S_ .f32 0x00000000#32) reducesTo_S1600000x3_S1600000_d1 h_S_)

/-- The sum's index column: the second row, as read (%72). -/
def refDst (ei : IVec S2x1600000 32) : IVec S1600000x1 32 :=
  broadcastInDim S1600000x1 ![0] bcast_S1600000_S1600000x1_0 (idxRow1 ei)

/-- The messages summed into their target rows, from zero (%73). -/
def refAgg (dst : IVec S1600000x1 32) (u : FVec F S1600000x64 .f32) : FVec F S100000x64 .f32 :=
  Host.scatterAdd scatter_S100000x64_S1600000x1_S1600000x64_1_0_0_1
    (broadcastInDim S100000x64 ![] bcast_S_S100000x64 (constant S_ .f32 0x00000000#32)) dst u

-- the gathers and the sums stay folded while two terms are compared: the comparison never looks inside them (the products are
-- the float instance's own operation, which has no body at a generic instance)
attribute [local irreducible] Host.gather Host.scatterAdd Host.reduceAdd

/-! ## The first stretch -/

set_option maxHeartbeats 4000000 in
theorem ops0_hi (V : Valuation τ sig (Elt F)) :
    after ops0 V (main_v10 : DevRef τ sig) = refHi (V (main_arg0 : DevRef τ sig)) (V (main_arg2 : DevRef τ sig)) := by
  after_results_simp
  rfl

set_option maxHeartbeats 4000000 in
theorem ops0_hj (V : Valuation τ sig (Elt F)) :
    after ops0 V (main_v17 : DevRef τ sig) = refHj (V (main_arg0 : DevRef τ sig)) (V (main_arg2 : DevRef τ sig)) := by
  after_results_simp
  rfl

set_option maxHeartbeats 4000000 in
theorem ops0_dsq (V : Valuation τ sig (Elt F)) :
    after ops0 V (main_v35 : DevRef τ sig) = refDsq (V (main_arg1 : DevRef τ sig)) (V (main_arg2 : DevRef τ sig)) := by
  after_results_simp
  rfl

set_option maxHeartbeats 4000000 in
theorem ops0_row1 (V : Valuation τ sig (Elt F)) :
    after ops0 V (main_v3 : DevRef τ sig) = idxRow1 (V (main_arg2 : DevRef τ sig)) := by
  after_results_simp
  rfl

set_option maxHeartbeats 4000000 in
/-- The first stretch writes no argument. -/
theorem ops0_args (V : Valuation τ sig (Elt F)) :
    after ops0 V (main_arg0 : DevRef τ sig) = V (main_arg0 : DevRef τ sig)
      ∧ after ops0 V (main_arg1 : DevRef τ sig) = V (main_arg1 : DevRef τ sig)
      ∧ after ops0 V (main_arg2 : DevRef τ sig) = V (main_arg2 : DevRef τ sig)
      ∧ after ops0 V (main_arg3 : DevRef τ sig) = V (main_arg3 : DevRef τ sig)
      ∧ after ops0 V (main_arg4 : DevRef τ sig) = V (main_arg4 : DevRef τ sig)
      ∧ after ops0 V (main_arg5 : DevRef τ sig) = V (main_arg5 : DevRef τ sig)
      ∧ after ops0 V (main_arg6 : DevRef τ sig) = V (main_arg6 : DevRef τ sig)
      ∧ after ops0 V (main_arg7 : DevRef τ sig) = V (main_arg7 : DevRef τ sig)
      ∧ after ops0 V (main_arg8 : DevRef τ sig) = V (main_arg8 : DevRef τ sig)
      ∧ after ops0 V (main_arg9 : DevRef τ sig) = V (main_arg9 : DevRef τ sig)
      ∧ after ops0 V (main_arg10 : DevRef τ sig) = V (main_arg10 : DevRef τ sig)
      ∧ after ops0 V (main_arg11 : DevRef τ sig) = V (main_arg11 : DevRef τ sig)
      ∧ after ops0 V (main_arg12 : DevRef τ sig) = V (main_arg12 : DevRef τ sig)
      ∧ after ops0 V (main_arg13 : DevRef τ sig) = V (main_arg13 : DevRef τ sig)
      ∧ after ops0 V (main_arg14 : DevRef τ sig) = V (main_arg14 : DevRef τ sig) := by
  refine ⟨?_, ?_, ?_, ?_, ?_, ?_, ?_, ?_, ?_, ?_, ?_, ?_, ?_, ?_, ?_⟩ <;> after_results_simp

/-! ## The second stretch -/

set_option maxHeartbeats 4000000 in
theorem ops1_edge (W : Valuation τ sig (Elt F)) :
    after ops1 W (main_v70 : DevRef τ sig)
      = refEdge (W (main_v10 : DevRef τ sig)) (W (main_v17 : DevRef τ sig)) (W (main_v35 : DevRef τ sig))
          (W (main_arg3 : DevRef τ sig)) (W (main_arg4 : DevRef τ sig)) (W (main_arg5 : DevRef τ sig))
          (W (main_arg6 : DevRef τ sig)) (W (main_arg7 : DevRef τ sig)) (W (main_arg8 : DevRef τ sig)) := by
  after_results_simp
  rfl

set_option maxHeartbeats 4000000 in
/-- The second stretch leaves the table's second row where the first put it. -/
theorem ops1_row1 (W : Valuation τ sig (Elt F)) :
    after ops1 W (main_v3 : DevRef τ sig) = W (main_v3 : DevRef τ sig) := by
  after_results_simp

set_option maxHeartbeats 4000000 in
/-- The second stretch writes no argument. -/
theorem ops1_args (W : Valuation τ sig (Elt F)) :
    after ops1 W (main_arg0 : DevRef τ sig) = W (main_arg0 : DevRef τ sig)
      ∧ after ops1 W (main_arg1 : DevRef τ sig) = W (main_arg1 : DevRef τ sig)
      ∧ after ops1 W (main_arg2 : DevRef τ sig) = W (main_arg2 : DevRef τ sig)
      ∧ after ops1 W (main_arg3 : DevRef τ sig) = W (main_arg3 : DevRef τ sig)
      ∧ after ops1 W (main_arg4 : DevRef τ sig) = W (main_arg4 : DevRef τ sig)
      ∧ after ops1 W (main_arg5 : DevRef τ sig) = W (main_arg5 : DevRef τ sig)
      ∧ after ops1 W (main_arg6 : DevRef τ sig) = W (main_arg6 : DevRef τ sig)
      ∧ after ops1 W (main_arg7 : DevRef τ sig) = W (main_arg7 : DevRef τ sig)
      ∧ after ops1 W (main_arg8 : DevRef τ sig) = W (main_arg8 : DevRef τ sig)
      ∧ after ops1 W (main_arg9 : DevRef τ sig) = W (main_arg9 : DevRef τ sig)
      ∧ after ops1 W (main_arg10 : DevRef τ sig) = W (main_arg10 : DevRef τ sig)
      ∧ after ops1 W (main_arg11 : DevRef τ sig) = W (main_arg11 : DevRef τ sig)
      ∧ after ops1 W (main_arg12 : DevRef τ sig) = W (main_arg12 : DevRef τ sig)
      ∧ after ops1 W (main_arg13 : DevRef τ sig) = W (main_arg13 : DevRef τ sig)
      ∧ after ops1 W (main_arg14 : DevRef τ sig) = W (main_arg14 : DevRef τ sig) := by
  refine ⟨?_, ?_, ?_, ?_, ?_, ?_, ?_, ?_, ?_, ?_, ?_, ?_, ?_, ?_, ?_⟩ <;> after_results_simp

/-! ## The third stretch -/

theorem ops2_agg (W : Valuation τ sig (Elt F)) :
    after ops2 W (main_v73 : DevRef τ sig)
      = refAgg (broadcastInDim S1600000x1 ![0] bcast_S1600000_S1600000x1_0 (W (main_v3 : DevRef τ sig))) (W (main_v70 : DevRef τ sig)) := by
  after_results
  rfl

/-- The third stretch writes no argument. -/
theorem ops2_args (W : Valuation τ sig (Elt F)) :
    after ops2 W (main_arg0 : DevRef τ sig) = W (main_arg0 : DevRef τ sig)
      ∧ after ops2 W (main_arg1 : DevRef τ sig) = W (main_arg1 : DevRef τ sig)
      ∧ after ops2 W (main_arg2 : DevRef τ sig) = W (main_arg2 : DevRef τ sig)
      ∧ after ops2 W (main_arg3 : DevRef τ sig) = W (main_arg3 : DevRef τ sig)
      ∧ after ops2 W (main_arg4 : DevRef τ sig) = W (main_arg4 : DevRef τ sig)
      ∧ after ops2 W (main_arg5 : DevRef τ sig) = W (main_arg5 : DevRef τ sig)
      ∧ after ops2 W (main_arg6 : DevRef τ sig) = W (main_arg6 : DevRef τ sig)
      ∧ after ops2 W (main_arg7 : DevRef τ sig) = W (main_arg7 : DevRef τ sig)
      ∧ after ops2 W (main_arg8 : DevRef τ sig) = W (main_arg8 : DevRef τ sig)
      ∧ after ops2 W (main_arg9 : DevRef τ sig) = W (main_arg9 : DevRef τ sig)
      ∧ after ops2 W (main_arg10 : DevRef τ sig) = W (main_arg10 : DevRef τ sig)
      ∧ after ops2 W (main_arg11 : DevRef τ sig) = W (main_arg11 : DevRef τ sig)
      ∧ after ops2 W (main_arg12 : DevRef τ sig) = W (main_arg12 : DevRef τ sig)
      ∧ after ops2 W (main_arg13 : DevRef τ sig) = W (main_arg13 : DevRef τ sig)
      ∧ after ops2 W (main_arg14 : DevRef τ sig) = W (main_arg14 : DevRef τ sig) := by
  refine ⟨?_, ?_, ?_, ?_, ?_, ?_, ?_, ?_, ?_, ?_, ?_, ?_, ?_, ?_, ?_⟩ <;> after_results

/-! ## The fourth stretch -/

set_option maxHeartbeats 4000000 in
theorem ops3_node (W : Valuation τ sig (Elt F)) :
    after ops3 W (main_v102 : DevRef τ sig)
      = refNode (W (main_v73 : DevRef τ sig)) (W (main_arg0 : DevRef τ sig)) (W (main_arg9 : DevRef τ sig))
          (W (main_arg10 : DevRef τ sig)) (W (main_arg11 : DevRef τ sig)) (W (main_arg12 : DevRef τ sig))
          (W (main_arg13 : DevRef τ sig)) (W (main_arg14 : DevRef τ sig)) := by
  after_results_simp
  rfl

set_option maxHeartbeats 4000000 in
/-- The fourth stretch writes no argument. -/
theorem ops3_args (W : Valuation τ sig (Elt F)) :
    after ops3 W (main_arg0 : DevRef τ sig) = W (main_arg0 : DevRef τ sig)
      ∧ after ops3 W (main_arg1 : DevRef τ sig) = W (main_arg1 : DevRef τ sig)
      ∧ after ops3 W (main_arg2 : DevRef τ sig) = W (main_arg2 : DevRef τ sig)
      ∧ after ops3 W (main_arg3 : DevRef τ sig) = W (main_arg3 : DevRef τ sig)
      ∧ after ops3 W (main_arg4 : DevRef τ sig) = W (main_arg4 : DevRef τ sig)
      ∧ after ops3 W (main_arg5 : DevRef τ sig) = W (main_arg5 : DevRef τ sig)
      ∧ after ops3 W (main_arg6 : DevRef τ sig) = W (main_arg6 : DevRef τ sig)
      ∧ after ops3 W (main_arg7 : DevRef τ sig) = W (main_arg7 : DevRef τ sig)
      ∧ after ops3 W (main_arg8 : DevRef τ sig) = W (main_arg8 : DevRef τ sig)
      ∧ after ops3 W (main_arg9 : DevRef τ sig) = W (main_arg9 : DevRef τ sig)
      ∧ after ops3 W (main_arg10 : DevRef τ sig) = W (main_arg10 : DevRef τ sig)
      ∧ after ops3 W (main_arg11 : DevRef τ sig) = W (main_arg11 : DevRef τ sig)
      ∧ after ops3 W (main_arg12 : DevRef τ sig) = W (main_arg12 : DevRef τ sig)
      ∧ after ops3 W (main_arg13 : DevRef τ sig) = W (main_arg13 : DevRef τ sig)
      ∧ after ops3 W (main_arg14 : DevRef τ sig) = W (main_arg14 : DevRef τ sig) := by
  refine ⟨?_, ?_, ?_, ?_, ?_, ?_, ?_, ?_, ?_, ?_, ?_, ?_, ?_, ?_, ?_⟩ <;> after_results_simp

/-! ## The whole line -/

/-- The fold of the whole line is the four stretches' folds, one over the other. -/
theorem after_ops (V : Valuation τ sig (Elt F)) : after ops V = after ops3 (after ops2 (after ops1 (after ops0 V))) := by
  simp only [ops, after_append]

/-- The whole line writes no argument. -/
theorem ops_args (V : Valuation τ sig (Elt F)) :
    after ops V (main_arg0 : DevRef τ sig) = V (main_arg0 : DevRef τ sig)
      ∧ after ops V (main_arg1 : DevRef τ sig) = V (main_arg1 : DevRef τ sig)
      ∧ after ops V (main_arg2 : DevRef τ sig) = V (main_arg2 : DevRef τ sig)
      ∧ after ops V (main_arg3 : DevRef τ sig) = V (main_arg3 : DevRef τ sig)
      ∧ after ops V (main_arg4 : DevRef τ sig) = V (main_arg4 : DevRef τ sig)
      ∧ after ops V (main_arg5 : DevRef τ sig) = V (main_arg5 : DevRef τ sig)
      ∧ after ops V (main_arg6 : DevRef τ sig) = V (main_arg6 : DevRef τ sig)
      ∧ after ops V (main_arg7 : DevRef τ sig) = V (main_arg7 : DevRef τ sig)
      ∧ after ops V (main_arg8 : DevRef τ sig) = V (main_arg8 : DevRef τ sig)
      ∧ after ops V (main_arg9 : DevRef τ sig) = V (main_arg9 : DevRef τ sig)
      ∧ after ops V (main_arg10 : DevRef τ sig) = V (main_arg10 : DevRef τ sig)
      ∧ after ops V (main_arg11 : DevRef τ sig) = V (main_arg11 : DevRef τ sig)
      ∧ after ops V (main_arg12 : DevRef τ sig) = V (main_arg12 : DevRef τ sig)
      ∧ after ops V (main_arg13 : DevRef τ sig) = V (main_arg13 : DevRef τ sig)
      ∧ after ops V (main_arg14 : DevRef τ sig) = V (main_arg14 : DevRef τ sig) := by
  rw [after_ops]
  obtain ⟨a0, a1, a2, a3, a4, a5, a6, a7, a8, a9, a10, a11, a12, a13, a14⟩ := ops0_args V
  obtain ⟨b0, b1, b2, b3, b4, b5, b6, b7, b8, b9, b10, b11, b12, b13, b14⟩ := ops1_args (after ops0 V)
  obtain ⟨c0, c1, c2, c3, c4, c5, c6, c7, c8, c9, c10, c11, c12, c13, c14⟩ := ops2_args (after ops1 (after ops0 V))
  obtain ⟨d0, d1, d2, d3, d4, d5, d6, d7, d8, d9, d10, d11, d12, d13, d14⟩ := ops3_args (after ops2 (after ops1 (after ops0 V)))
  exact ⟨d0.trans (c0.trans (b0.trans a0)),
    d1.trans (c1.trans (b1.trans a1)),
    d2.trans (c2.trans (b2.trans a2)),
    d3.trans (c3.trans (b3.trans a3)),
    d4.trans (c4.trans (b4.trans a4)),
    d5.trans (c5.trans (b5.trans a5)),
    d6.trans (c6.trans (b6.trans a6)),
    d7.trans (c7.trans (b7.trans a7)),
    d8.trans (c8.trans (b8.trans a8)),
    d9.trans (c9.trans (b9.trans a9)),
    d10.trans (c10.trans (b10.trans a10)),
    d11.trans (c11.trans (b11.trans a11)),
    d12.trans (c12.trans (b12.trans a12)),
    d13.trans (c13.trans (b13.trans a13)),
    d14.trans (c14.trans (b14.trans a14))⟩

/-- The result buffer after the whole line: the node update of the summed messages of the edge stage of the gathered operands. -/
theorem ops_out (V : Valuation τ sig (Elt F)) :
    after ops V (main_v102 : DevRef τ sig)
      = refNode
          (refAgg (refDst (V (main_arg2 : DevRef τ sig)))
            (refEdge (refHi (V (main_arg0 : DevRef τ sig)) (V (main_arg2 : DevRef τ sig)))
              (refHj (V (main_arg0 : DevRef τ sig)) (V (main_arg2 : DevRef τ sig)))
              (refDsq (V (main_arg1 : DevRef τ sig)) (V (main_arg2 : DevRef τ sig)))
              (V (main_arg3 : DevRef τ sig)) (V (main_arg4 : DevRef τ sig)) (V (main_arg5 : DevRef τ sig))
              (V (main_arg6 : DevRef τ sig)) (V (main_arg7 : DevRef τ sig)) (V (main_arg8 : DevRef τ sig))))
          (V (main_arg0 : DevRef τ sig)) (V (main_arg9 : DevRef τ sig)) (V (main_arg10 : DevRef τ sig))
          (V (main_arg11 : DevRef τ sig)) (V (main_arg12 : DevRef τ sig)) (V (main_arg13 : DevRef τ sig))
          (V (main_arg14 : DevRef τ sig)) := by
  obtain ⟨a0, a1, a2, a3, a4, a5, a6, a7, a8, a9, a10, a11, a12, a13, a14⟩ := ops0_args V
  obtain ⟨b0, b1, b2, b3, b4, b5, b6, b7, b8, b9, b10, b11, b12, b13, b14⟩ := ops1_args (after ops0 V)
  obtain ⟨c0, c1, c2, c3, c4, c5, c6, c7, c8, c9, c10, c11, c12, c13, c14⟩ := ops2_args (after ops1 (after ops0 V))
  rw [after_ops, ops3_node, ops2_agg, ops1_edge, ops1_row1, ops0_row1, ops0_hi, ops0_hj, ops0_dsq,
    c0, c9, c10, c11, c12, c13, c14, b0, b9, b10, b11, b12, b13, b14,
    a0, a3, a4, a5, a6, a7, a8, a9, a10, a11, a12, a13, a14]
  rfl

/-- On the one device, for any float values, from any memory with zero counters: every weakly fair execution of the reference
    terminates with its result at the node update of the summed messages, as a term of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v102)
        = refNode
            (refAgg (refDst (m ((c.tc : Thread nD τ).loc main_arg2)))
              (refEdge (refHi (m ((c.tc : Thread nD τ).loc main_arg0)) (m ((c.tc : Thread nD τ).loc main_arg2)))
                (refHj (m ((c.tc : Thread nD τ).loc main_arg0)) (m ((c.tc : Thread nD τ).loc main_arg2)))
                (refDsq (m ((c.tc : Thread nD τ).loc main_arg1)) (m ((c.tc : Thread nD τ).loc main_arg2)))
                (m ((c.tc : Thread nD τ).loc main_arg3)) (m ((c.tc : Thread nD τ).loc main_arg4)) (m ((c.tc : Thread nD τ).loc main_arg5))
                (m ((c.tc : Thread nD τ).loc main_arg6)) (m ((c.tc : Thread nD τ).loc main_arg7)) (m ((c.tc : Thread nD τ).loc main_arg8))))
            (m ((c.tc : Thread nD τ).loc main_arg0)) (m ((c.tc : Thread nD τ).loc main_arg9)) (m ((c.tc : Thread nD τ).loc main_arg10))
            (m ((c.tc : Thread nD τ).loc main_arg11)) (m ((c.tc : Thread nD τ).loc main_arg12)) (m ((c.tc : Thread nD τ).loc main_arg13))
            (m ((c.tc : Thread nD τ).loc main_arg14))
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) := by
  refine (θ_run defs _ _).mono (fun _ h c => ?_) (run_main m ρ)
  obtain ⟨a0, a1, a2, a3, a4, a5, a6, a7, a8, a9, a10, a11, a12, a13, a14⟩ := ops_args (launchContents m c)
  exact ⟨(h c main_v102).trans (ops_out (launchContents m c)), (h c main_arg1).trans a1,
    (h c main_arg0).trans a0, (h c main_arg1).trans a1, (h c main_arg2).trans a2, (h c main_arg3).trans a3, (h c main_arg4).trans a4, (h c main_arg5).trans a5, (h c main_arg6).trans a6, (h c main_arg7).trans a7, (h c main_arg8).trans a8, (h c main_arg9).trans a9, (h c main_arg10).trans a10, (h c main_arg11).trans a11, (h c main_arg12).trans a12, (h c main_arg13).trans a13, (h c main_arg14).trans a14⟩

end Cert.ReferenceIdeal.Layer

end
-- ==== Proof.lean ====
/- The certificate of the message-passing layer: a Pallas program of two kernels (an edge network with two sigmoid gates over
   1,600,000 edges, a node network with a layer normalisation over 100,000 nodes) around host gathers and a host scatter-add,
   against its plain array reference.
   The three frames: the two kernel programs by their generated frame certificates, the reference by its run.
   The idealization rewrote nothing, so the preservation claim is empty.
   The value claim: at the extended reals the kernel program's result is the row-wise layer `NodeG` of (the scatter-add of the
   row-wise edge messages `EdgeG` of the gathered features and distances) and the features; the reference's result is the same
   two row-wise functions around the same gathers and the same scatter-add (its sigmoid spelled 1 / (1 + e⁻ˣ), its variance with
   a divisor 64 − 0 and a guard 64 > 0), so from memories agreeing on the arguments the two results are one array. No law beyond
   commutativity and associativity of the finite sums is used, so the finiteness of the inputs is never opened. -/
import proofs.«145584_j40596030882310_1_alg».proof.Defs
import proofs.«145584_j40596030882310_1_alg».proof.Proof.Gen.Kernel
import proofs.«145584_j40596030882310_1_alg».proof.Proof.Gen.Kernel.Frame
import proofs.«145584_j40596030882310_1_alg».proof.Proof.Gen.KernelIdeal
import proofs.«145584_j40596030882310_1_alg».proof.Proof.Gen.KernelIdeal.Frame
import proofs.«145584_j40596030882310_1_alg».proof.Proof.Gen.ReferenceIdeal
import proofs.«145584_j40596030882310_1_alg».proof.Proof.Gen.Pre_finite_inputs
import proofs.«145584_j40596030882310_1_alg».proof.Proof.KernelValue
import proofs.«145584_j40596030882310_1_alg».proof.Proof.RefValue

noncomputable section

namespace Cert.Proof

open Idealize.ShloMosaic Idealize.SL.Sem Cert.Layer

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2.2) (Cert.ReferenceIdeal.Layer.run (F := Ideal) m ρ)

theorem preserves : Cert.preserves_Kernel_KernelIdeal := trivial

/-- The two programs' shared host operations, printed once per program, are the same functions. -/
theorem layer_eq (h : FVec Ideal Cert.KernelIdeal.S100000x64 .f32) (x : FVec Ideal Cert.KernelIdeal.S100000x3 .f32) (ei : IVec Cert.KernelIdeal.S2x1600000 32)
    (We1 : FVec Ideal Cert.KernelIdeal.S128x64 .f32) (be1 : FVec Ideal Cert.KernelIdeal.S64 .f32) (We2 : FVec Ideal Cert.KernelIdeal.S64x64 .f32)
    (be2 : FVec Ideal Cert.KernelIdeal.S64 .f32) (Winf : FVec Ideal Cert.KernelIdeal.S64x1 .f32) (binf : FVec Ideal Cert.KernelIdeal.S1 .f32)
    (Wn1 : FVec Ideal Cert.KernelIdeal.S128x64 .f32) (bn1 : FVec Ideal Cert.KernelIdeal.S64 .f32) (Wn2 : FVec Ideal Cert.KernelIdeal.S64x64 .f32)
    (bn2 g b : FVec Ideal Cert.KernelIdeal.S64 .f32) :
    Cert.ReferenceIdeal.Layer.refNode (F := Ideal)
        (Cert.ReferenceIdeal.Layer.refAgg (Cert.ReferenceIdeal.Layer.refDst ei)
          (Cert.ReferenceIdeal.Layer.refEdge (Cert.ReferenceIdeal.Layer.refHi h ei) (Cert.ReferenceIdeal.Layer.refHj h ei) (Cert.ReferenceIdeal.Layer.refDsq x ei) We1 be1 We2 be2 Winf binf))
        h Wn1 bn1 Wn2 bn2 g b
      = Cert.KernelIdeal.Layer.layerOut h x ei We1 be1 We2 be2 Winf binf Wn1 bn1 Wn2 bn2 g b := by
  rw [Cert.ReferenceIdeal.Layer.refNode_eq, Cert.ReferenceIdeal.Layer.refEdge_eq]
  rfl

/-- From memories agreeing on the arguments both programs end at the layer of the arguments. -/
theorem algebraic : Cert.algebraic_KernelIdeal_ReferenceIdeal := by
  intro m ρ m' ρ' _ hagree
  refine ⟨_, fun c => m ((c.tc : Thread Cert.KernelIdeal.nD Cert.KernelIdeal.τ).loc Cert.KernelIdeal.main_arg1), Cert.KernelIdeal.Layer.run m ρ, ?_⟩
  refine (θ_run Cert.ReferenceIdeal.defs _ _).mono (fun _ h c => ⟨(h c).1.trans ?_, (h c).2.1.trans (hagree c).2.1, (h c).2.2⟩)
    (Cert.ReferenceIdeal.Layer.run (F := Ideal) m' ρ')
  obtain ⟨e0, e1, e2, e3, e4, e5, e6, e7, e8, e9, e10, e11, e12, e13, e14⟩ := hagree c
  rw [e0, e1, e2, e3, e4, e5, e6, e7, e8, e9, e10, e11, e12, e13, e14]
  exact layer_eq _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
